-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S2048x2048 : Shape := ⟨2, ![2048, 2048]⟩
abbrev S1024x4096 : Shape := ⟨2, ![1024, 4096]⟩
abbrev S1024 : Shape := ⟨1, ![1024]⟩
abbrev S1024x2048 : Shape := ⟨2, ![1024, 2048]⟩
abbrev S1024x1024 : Shape := ⟨2, ![1024, 1024]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x4096 .f32) (main_arg5 : FVec F S1024 .f32) (main_arg6 : FVec F S1024x2048 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x4096 .f32) (main_arg1 : FVec F S2048x2048 .f32) (main_arg2 : FVec F S1024x4096 .f32) (main_arg3 : FVec F S1024 .f32) (main_arg4 : FVec F S1024x4096 .f32) (main_arg5 : FVec F S1024 .f32) (main_arg6 : FVec F S1024x2048 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S2048x4096 : Shape := ⟨2, ![2048, 4096]⟩
abbrev S2048x2048 : Shape := ⟨2, ![2048, 2048]⟩
abbrev S1024x4096 : Shape := ⟨2, ![1024, 4096]⟩
abbrev S1024 : Shape := ⟨1, ![1024]⟩
abbrev S1024x2048 : Shape := ⟨2, ![1024, 2048]⟩
abbrev S1024x1024 : Shape := ⟨2, ![1024, 1024]⟩
abbrev S512x1024 : Shape := ⟨2, ![512, 1024]⟩
abbrev S512 : Shape := ⟨1, ![512]⟩
abbrev S512x512 : Shape := ⟨2, ![512, 512]⟩
abbrev S512x1 : Shape := ⟨2, ![512, 1]⟩
abbrev S2048x16x64 : Shape := ⟨3, ![2048, 16, 64]⟩
abbrev S16x2048x64 : Shape := ⟨3, ![16, 2048, 64]⟩
abbrev S2048x1024 : Shape := ⟨2, ![2048, 1024]⟩
abbrev S2x512x64 : Shape := ⟨3, ![2, 512, 64]⟩
abbrev S2x2048x64 : Shape := ⟨3, ![2, 2048, 64]⟩
abbrev S512x128 : Shape := ⟨2, ![512, 128]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S128x2048 : Shape := ⟨2, ![128, 2048]⟩
abbrev S128x1024 : Shape := ⟨2, ![128, 1024]⟩
abbrev S1x1024 : Shape := ⟨2, ![1, 1024]⟩

abbrev nBuf : Space → Nat
  | .hbm => 20
  | .vmem => 34
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S1024x4096, .f32⟩
  | .hbm, ⟨3, _⟩ => ⟨S1024, .f32⟩
  | .hbm, ⟨4, _⟩ => ⟨S1024x4096, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x2048, .f32⟩
  | .hbm, ⟨13, _⟩ => ⟨S1024x2048, .f32⟩
  | .hbm, ⟨14, _⟩ => ⟨S2048x16x64, .f32⟩
  | .hbm, ⟨15, _⟩ => ⟨S16x2048x64, .f32⟩
  | .hbm, ⟨16, _⟩ => ⟨S2048x16x64, .f32⟩
  | .hbm, ⟨17, _⟩ => ⟨S16x2048x64, .f32⟩
  | .hbm, ⟨18, _⟩ => ⟨S2048x1024, .f32⟩
  | .hbm, ⟨19, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S2x512x64, .f32⟩
  | .local _ .vmem, ⟨17, _⟩ => ⟨S2x512x64, .f32⟩
  | .local _ .vmem, ⟨18, _⟩ => ⟨S2x2048x64, .f32⟩
  | .local _ .vmem, ⟨19, _⟩ => ⟨S2x2048x64, .f32⟩
  | .local _ .vmem, ⟨20, _⟩ => ⟨S512x128, .f32⟩
  | .local _ .vmem, ⟨21, _⟩ => ⟨S512x128, .f32⟩
  | .local _ .vmem, ⟨22, _⟩ => ⟨S128x2048, .f32⟩
  | .local _ .vmem, ⟨23, _⟩ => ⟨S128x2048, .f32⟩
  | .local _ .vmem, ⟨24, _⟩ => ⟨S1024x2048, .f32⟩
  | .local _ .vmem, ⟨25, _⟩ => ⟨S1024, .f32⟩
  | .local _ .vmem, ⟨26, _⟩ => ⟨S1024x1024, .f32⟩
  | .local _ .vmem, ⟨27, _⟩ => ⟨S1024, .f32⟩
  | .local _ .vmem, ⟨28, _⟩ => ⟨S128x1024, .f32⟩
  | .local _ .vmem, ⟨29, _⟩ => ⟨S128x1024, .f32⟩
  | .local _ .vmem, ⟨30, _⟩ => ⟨S1024x1024, .f32⟩
  | .local _ .vmem, ⟨31, _⟩ => ⟨S1024, .f32⟩
  | .local _ .vmem, ⟨32, _⟩ => ⟨S128x1024, .f32⟩
  | .local _ .vmem, ⟨33, _⟩ => ⟨S128x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S2x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S128x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1024x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S128x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S512_S512_0 : ∀ a, (![0] : Fin 1 → Nat) a + S512.size a ≤ S512.size a
  h_S512 : 0 < S512.numel
  shapeCasts_S512_S512x1 : S512.ShapeCasts S512x1
  broadcasts_S512x1_S512x512 : S512x1.Broadcasts S512x512
  shapeCasts_S1024x2048_S2048x16x64 : S1024x2048.ShapeCasts S2048x16x64
  transposes_S2048x16x64_S16x2048x64_1_0_2 : S2048x16x64.Transposes [1, 0, 2] S16x2048x64
  inb_S2x512x64_S1x512x64_0_0_0 : ∀ a, (![0, 0, 0] : Fin 3 → Nat) a + S1x512x64.size a ≤ S2x512x64.size a
  h_S1x512x64 : 0 < S1x512x64.numel
  shapeCasts_S1x512x64_S512x64 : S1x512x64.ShapeCasts S512x64
  inb_S2x2048x64_S1x2048x64_0_0_0 : ∀ a, (![0, 0, 0] : Fin 3 → Nat) a + S1x2048x64.size a ≤ S2x2048x64.size a
  h_S1x2048x64 : 0 < S1x2048x64.numel
  shapeCasts_S1x2048x64_S2048x64 : S1x2048x64.ShapeCasts S2048x64
  reduces_S512x2048_S512 : S512x2048.Reduces [1] S512
  broadcasts_S512x1_S512x2048 : S512x1.Broadcasts S512x2048
  inb_S2x512x64_S1x512x64_1_0_0 : ∀ a, (![1, 0, 0] : Fin 3 → Nat) a + S1x512x64.size a ≤ S2x512x64.size a
  inb_S2x2048x64_S1x2048x64_1_0_0 : ∀ a, (![1, 0, 0] : Fin 3 → Nat) a + S1x2048x64.size a ≤ S2x2048x64.size a
  concatenates_S512x64_S512x64_S512x128_d1 : Shape.Concatenates [S512x64, S512x64] S512x128 1
  inb_S512x128_S512x128_0_0 : ∀ a, (![0, 0] : Fin 2 → Nat) a + S512x128.size a ≤ S512x128.size a
  h_S512x128 : 0 < S512x128.numel
  inb_S128x2048_S128x2048_0_0 : ∀ a, (![0, 0] : Fin 2 → Nat) a + S128x2048.size a ≤ S128x2048.size a
  h_S128x2048 : 0 < S128x2048.numel
  inb_S1024x2048_S1024x2048_0_0 : ∀ a, (![0, 0] : Fin 2 → Nat) a + S1024x2048.size a ≤ S1024x2048.size a
  h_S1024x2048 : 0 < S1024x2048.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  inb_S1024x1024_S1024x1024_0_0 : ∀ a, (![0, 0] : Fin 2 → Nat) a + S1024x1024.size a ≤ S1024x1024.size a
  h_S1024x1024 : 0 < S1024x1024.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  dot_S512x1024_S512x1024_S512x512_1_1_0_0_n_n_wf : DotDims.WF S512x1024 S512x1024 S512x512 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S128x2048_S1024x2048_S128x1024_1_1_0_0_n_n_wf : DotDims.WF S128x2048 S1024x2048 S128x1024 [1] [1] [0] [0] [] []
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x4096.size a
  hwx0_0 : ∀ i : grid0.Coords, EltTy.bits .f32 = 32 ∨ (Rect.block (s := S2048x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x4096.size a
  hwx0_1 : ∀ i : grid0.Coords, EltTy.bits .f32 = 32 ∨ (Rect.block (s := S1024x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S1024x4096.size a
  hwx0_2 : ∀ i : grid0.Coords, EltTy.bits .f32 = 32 ∨ (Rect.block (s := S1024x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S1024.size a
  hwx0_3 : ∀ i : grid0.Coords, EltTy.bits .f32 = 32 ∨ (Rect.block (s := S1024) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S1024.size a
  hwx0_4 : ∀ i : grid0.Coords, EltTy.bits .f32 = 32 ∨ (Rect.block (s := S1024) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S1024x2048.size a
  hwx0_5 : ∀ i : grid0.Coords, EltTy.bits .f32 = 32 ∨ (Rect.block (s := S1024x2048) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S1024x2048.size a
  hwx0_6 : ∀ i : grid0.Coords, EltTy.bits .f32 = 32 ∨ (Rect.block (s := S1024x2048) S512x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x64.size a ≤ S16x2048x64.size a
  hwx1_0 : ∀ i : grid1.Coords, EltTy.bits .f32 = 32 ∨ (Rect.block (s := S16x2048x64) S2x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x2048x64.size a ≤ S16x2048x64.size a
  hwx1_1 : ∀ i : grid1.Coords, EltTy.bits .f32 = 32 ∨ (Rect.block (s := S16x2048x64) S2x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S2048x1024.size a
  hwx1_2 : ∀ i : grid1.Coords, EltTy.bits .f32 = 32 ∨ (Rect.block (s := S2048x1024) S512x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x2048.size a ≤ S2048x2048.size a
  hwx2_0 : ∀ i : grid2.Coords, EltTy.bits .f32 = 32 ∨ (Rect.block (s := S2048x2048) S128x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x2048.size a
  hwx2_1 : ∀ i : grid2.Coords, EltTy.bits .f32 = 32 ∨ (Rect.block (s := S1024x2048) S1024x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .f32 = 32 ∨ (Rect.block (s := S1024x1024) S1024x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S128x1024.size a ≤ S2048x1024.size a
  hwx2_5 : ∀ i : grid2.Coords, EltTy.bits .f32 = 32 ∨ (Rect.block (s := S2048x1024) S128x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024x1024.size a ≤ S1024x1024.size a
  hwx2_6 : ∀ i : grid2.Coords, EltTy.bits .f32 = 32 ∨ (Rect.block (s := S1024x1024) S1024x1024.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1024.size a ≤ S1024.size a
  hwx2_7 : ∀ i : grid2.Coords, EltTy.bits .f32 = 32 ∨ (Rect.block (s := S1024) S1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S128x1024.size a ≤ S2048x1024.size a
  hwx2_8 : ∀ i : grid2.Coords, EltTy.bits .f32 = 32 ∨ (Rect.block (s := S2048x1024) S128x1024.size (cc2_transform_8 i) (hinb2_8 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v2) S2x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S128x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1024x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S128x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S1024x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v6) S128x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S2048x4096 : Shape := ⟨2, ![2048, 4096]⟩
abbrev S2048x2048 : Shape := ⟨2, ![2048, 2048]⟩
abbrev S1024x4096 : Shape := ⟨2, ![1024, 4096]⟩
abbrev S1024 : Shape := ⟨1, ![1024]⟩
abbrev S1024x2048 : Shape := ⟨2, ![1024, 2048]⟩
abbrev S1024x1024 : Shape := ⟨2, ![1024, 1024]⟩
abbrev S4096x1024 : Shape := ⟨2, ![4096, 1024]⟩
abbrev S2048x1024 : Shape := ⟨2, ![2048, 1024]⟩
abbrev S1x1024 : Shape := ⟨2, ![1, 1024]⟩
abbrev S2048x16x64 : Shape := ⟨3, ![2048, 16, 64]⟩
abbrev S16x2048x64 : Shape := ⟨3, ![16, 2048, 64]⟩
abbrev S_ : Shape := ⟨0, ![]⟩
abbrev S16x64x2048 : Shape := ⟨3, ![16, 64, 2048]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 77
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S1024x4096, .f32⟩
  | .hbm, ⟨3, _⟩ => ⟨S1024, .f32⟩
  | .hbm, ⟨4, _⟩ => ⟨S1024x4096, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4096x1024, .f32⟩
  | .hbm, ⟨13, _⟩ => ⟨S2048x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S4096x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S1024x2048, .f32⟩
  | .hbm, ⟨23, _⟩ => ⟨S2048x16x64, .f32⟩
  | .hbm, ⟨24, _⟩ => ⟨S16x2048x64, .f32⟩
  | .hbm, ⟨25, _⟩ => ⟨S_, .f32⟩
  | .hbm, ⟨26, _⟩ => ⟨S16x2048x64, .f32⟩
  | .hbm, ⟨27, _⟩ => ⟨S16x2048x64, .f32⟩
  | .hbm, ⟨28, _⟩ => ⟨S1024x2048, .f32⟩
  | .hbm, ⟨29, _⟩ => ⟨S2048x16x64, .f32⟩
  | .hbm, ⟨30, _⟩ => ⟨S16x64x2048, .f32⟩
  | .hbm, ⟨31, _⟩ => ⟨S1024x2048, .f32⟩
  | .hbm, ⟨32, _⟩ => ⟨S2048x16x64, .f32⟩
  | .hbm, ⟨33, _⟩ => ⟨S16x2048x64, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S_, .f32⟩
  | .hbm, ⟨38, _⟩ => ⟨S16x2048, .f32⟩
  | .hbm, ⟨39, _⟩ => ⟨S16x2048, .f32⟩
  | .hbm, ⟨40, _⟩ => ⟨S16x2048x1, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S16x2048x2048, .f32⟩
  | .hbm, ⟨48, _⟩ => ⟨S16x2048x2048, .f32⟩
  | .hbm, ⟨49, _⟩ => ⟨S16x2048x64, .f32⟩
  | .hbm, ⟨50, _⟩ => ⟨S2048x16x64, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S1024x1024, .f32⟩
  | .hbm, ⟨58, _⟩ => ⟨S2048x1024, .f32⟩
  | .hbm, ⟨59, _⟩ => ⟨S1x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1024x1024, .f32⟩
  | .hbm, ⟨72, _⟩ => ⟨S2048x1024, .f32⟩
  | .hbm, ⟨73, _⟩ => ⟨S1x1024, .f32⟩
  | .hbm, ⟨74, _⟩ => ⟨S2048x1024, .f32⟩
  | .hbm, ⟨75, _⟩ => ⟨S2048x1024, .f32⟩
  | .hbm, ⟨76, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_cst_4 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]

class Facts₀ : Prop where
  transposes_S1024x4096_S4096x1024_1_0 : S1024x4096.Transposes [1, 0] S4096x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  transposes_S2048x1024_S1024x2048_1_0 : S2048x1024.Transposes [1, 0] S1024x2048
  shapeCasts_S1024x2048_S2048x16x64 : S1024x2048.ShapeCasts S2048x16x64
  transposes_S2048x16x64_S16x2048x64_1_0_2 : S2048x16x64.Transposes [1, 0, 2] S16x2048x64
  bcast_S_S16x2048x64 : S_.BroadcastsInDim S16x2048x64 (![] : Fin 0 → Fin S16x2048x64.rank)
  transposes_S2048x16x64_S16x64x2048_1_2_0 : S2048x16x64.Transposes [1, 2, 0] S16x64x2048
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  transposes_S1024x2048_S2048x1024_1_0 : S1024x2048.Transposes [1, 0] S2048x1024
  transposes_S1024x1024_S1024x1024_1_0 : S1024x1024.Transposes [1, 0] S1024x1024
  bcast_S_S2048x1024 : S_.BroadcastsInDim S2048x1024 (![] : Fin 0 → Fin S2048x1024.rank)
  dot_S2048x4096_S4096x1024_S2048x1024_1_0_0_1_n_n_wf : DotDims.WF S2048x4096 S4096x1024 S2048x1024 [1] [0] [0] [1] [] []
  dot_S16x2048x64_S16x64x2048_S16x2048x2048_2_1_1_2_0_0_wf : DotDims.WF S16x2048x64 S16x64x2048 S16x2048x2048 [2] [1] [1] [2] [0] [0]
  dot_S16x2048x2048_S16x2048x64_S16x2048x64_2_1_1_2_0_0_wf : DotDims.WF S16x2048x2048 S16x2048x64 S16x2048x64 [2] [1] [1] [2] [0] [0]
  dot_S2048x2048_S2048x1024_S2048x1024_1_0_0_1_n_n_wf : DotDims.WF S2048x2048 S2048x1024 S2048x1024 [1] [0] [0] [1] [] []
  dot_S2048x1024_S1024x1024_S2048x1024_1_0_0_1_n_n_wf : DotDims.WF S2048x1024 S1024x1024 S2048x1024 [1] [0] [0] [1] [] []

variable [Facts₀]

def dot_S2048x4096_S4096x1024_S2048x1024_1_0_0_1_n_n : DotDims S2048x4096 S4096x1024 S2048x1024 where
  lhsContracting := [1]
  rhsContracting := [0]
  lhsNonContracting := [0]
  rhsNonContracting := [1]
  lhsBatch := []
  rhsBatch := []
  wf := dot_S2048x4096_S4096x1024_S2048x1024_1_0_0_1_n_n_wf
def dot_S16x2048x64_S16x64x2048_S16x2048x2048_2_1_1_2_0_0 : DotDims S16x2048x64 S16x64x2048 S16x2048x2048 where
  lhsContracting := [2]
  rhsContracting := [1]
  lhsNonContracting := [1]
  rhsNonContracting := [2]
  lhsBatch := [0]
  rhsBatch := [0]
  wf := dot_S16x2048x64_S16x64x2048_S16x2048x2048_2_1_1_2_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf
def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.KR0Frame.lean ====
import proofs.«404906_j953482739905_3_alg».proof.Proof.Gen.Kernel.Launch
import proofs.«404906_j953482739905_3_alg».proof.Proof.Gen.Kernel.Skeleton
import proofs.«404906_j953482739905_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The projection kernel's region: two carried accumulators, two outputs stored at the last reduction step -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's two conditions, over the grid -/

/-- The accumulators are reset where the innermost (reduction) coordinate is 0. -/
abbrev condReset (i : grid0.Coords) : Prop :=
  (Scalar.cmpi .ne (Scalar.extui (Scalar.cmpi .eq (BitVec.ofNat 32 (i 2).val) 0#32)) 0#32) = 1#1
/-- That is at the points ≡ 0 (mod 4). -/
theorem hcondReset : ∀ t : Fin cfg0.N, condReset (grid0.coords t) ↔ t.val % 4 = 0 :=
  (by decide +kernel : ∀ t : Fin grid0.N, condReset (grid0.coords t) ↔ t.val % 4 = 0)

/-- The outputs are stored where the reduction coordinate is 3, its last value. -/
abbrev condEmit (i : grid0.Coords) : Prop := k0_cond2 i = 1#1
/-- That is at the points ≡ 3 (mod 4). -/
theorem hcondEmit : ∀ t : Fin cfg0.N, condEmit (grid0.coords t) ↔ t.val % 4 = 3 :=
  (by decide +kernel : ∀ t : Fin grid0.N, condEmit (grid0.coords t) ↔ t.val % 4 = 3)

/-! ## The two accumulators -/

/-- The q-projection's accumulator and the k-projection's, whole scoped buffers of the kernel's own. -/
abbrev accQ : Memref sig .tc .vmem S512x512 .f32 := Memref.whole cc0_scratch0
abbrev accK : Memref sig .tc .vmem S512x512 .f32 := Memref.whole cc0_scratch1

/-- What the two accumulators hold after the body at position `n`: at a reduction's first step the step's product
    over zeros, afterwards over what the step before left. -/
def accAt0 (c : Dev nD) : (n : ℕ) → n < cfg0.N → Vec F S512x512 .f32 × Vec F S512x512 .f32
  | 0, hn => (k0_pay4 (iblk0 V c 0 ⟨0, hn⟩) (iblk0 V c 1 ⟨0, hn⟩) k0_pay1, k0_pay5 (iblk0 V c 0 ⟨0, hn⟩) (iblk0 V c 2 ⟨0, hn⟩) k0_pay2)
  | n + 1, hn =>
    if (n + 1) % 4 = 0 then
      (k0_pay4 (iblk0 V c 0 ⟨n + 1, hn⟩) (iblk0 V c 1 ⟨n + 1, hn⟩) k0_pay1, k0_pay5 (iblk0 V c 0 ⟨n + 1, hn⟩) (iblk0 V c 2 ⟨n + 1, hn⟩) k0_pay2)
    else
      (k0_pay4 (iblk0 V c 0 ⟨n + 1, hn⟩) (iblk0 V c 1 ⟨n + 1, hn⟩) (accAt0 c n (Nat.lt_of_succ_lt hn)).1,
        k0_pay5 (iblk0 V c 0 ⟨n + 1, hn⟩) (iblk0 V c 2 ⟨n + 1, hn⟩) (accAt0 c n (Nat.lt_of_succ_lt hn)).2)

/-- At a reduction's first step: over zeros. -/
theorem accAt0_first (c : Dev nD) (t : Fin cfg0.N) (h : t.val % 4 = 0) :
    accAt0 V c t.val t.isLt = (k0_pay4 (iblk0 V c 0 t) (iblk0 V c 1 t) k0_pay1, k0_pay5 (iblk0 V c 0 t) (iblk0 V c 2 t) k0_pay2) := by
  obtain ⟨n, hn⟩ := t
  cases n with
  | zero => rfl
  | succ n => exact if_pos h

/-- At a later step: over what the step before left. -/
theorem accAt0_next (c : Dev nD) (t : Fin cfg0.N) (h : t.val % 4 ≠ 0) :
    accAt0 V c t.val t.isLt = (k0_pay4 (iblk0 V c 0 t) (iblk0 V c 1 t) (accAt0 V c (t.val - 1) (Nat.lt_of_le_of_lt (Nat.sub_le _ _) t.isLt)).1, k0_pay5 (iblk0 V c 0 t) (iblk0 V c 2 t) (accAt0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The region invariant -/

/-- The core's scoped buffers split at the two accumulators; the other calls' staging buffers stay unopened. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

/-- The scoped buffers that are neither a staging buffer of this call nor one of its accumulators. -/
abbrev others0 (c : Dev nD) : sProp 𝕄 :=
  Pipeline.scopedRestBut (Ix := Unit) (Name := ℕ) (U := UR sig nD τ) (Lvl := ℕ) (Val := Elt F) spec0 c [cc0_scratch0, cc0_scratch1]

/-- The class invariant with the accumulators as memrefs owned at some contents. -/
theorem PhiA0_eq (c : Dev nD) :
    (Pipeline.ΦA spec0 c : sProp 𝕄)
      = iprop(iprop(iprop((∃ d, owns (c : Thread nD τ) accQ fullShare d) ∗ (∃ d, owns (c : Thread nD τ) accK fullShare d)) ∗ others0 c) ∗ (∃ r, prngReg c r)) := by
  unfold Pipeline.ΦA; rw [scopedRest0_split]; simp only [accQ, accK, owns_whole]; try rfl

/-- The invariant before position `n`: before the first point the class's; afterwards both accumulators at what the
    point before left, the other scoped buffers at anything, the generator register at some state. -/
def PhiS0 (c : Dev nD) : (n : ℕ) → n ≤ cfg0.N → sProp 𝕄
  | 0, _ => Pipeline.ΦA spec0 c
  | n + 1, hn => iprop(iprop(iprop(owns (c : Thread nD τ) accQ fullShare (accAt0 V c n hn).1 ∗ owns (c : Thread nD τ) accK fullShare (accAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) accQ fullShare (accAt0 V c n hn).1 ∗ owns (c : Thread nD τ) accK fullShare (accAt0 V c n hn).2) ∗ others0 c) ∗ (∃ r, prngReg c r)) := rfl

theorem PhiS0_pos (c : Dev nD) (n : ℕ) (h : n ≤ cfg0.N) (hz : n ≠ 0) :
    PhiS0 V c n h = iprop(iprop(iprop(owns (c : Thread nD τ) accQ fullShare (accAt0 V c (n - 1) (by omega)).1 ∗ owns (c : Thread nD τ) accK fullShare (accAt0 V c (n - 1) (by omega)).2) ∗ others0 c) ∗ (∃ r, prngReg c r)) := by
  cases n with
  | zero => exact absurd rfl hz
  | succ n => rfl

/-! ## The pipeline's proof data -/

/-- The proof data on core `c`: the arrays as the region finds them; after the body each input's buffer at its block,
    the q output's at the q accumulator plus the q bias, the k output's likewise (read at the reduction's last step
    only); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay6 (accAt0 V c t.val t.isLt).1 (iblk0 V c 3 t)
    | ⟨6, _⟩ => k0_pay7 (accAt0 V c t.val t.isLt).2 (iblk0 V c 4 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay6 (accAt0 V c t.val t.isLt).1 (iblk0 V c 3 t) := by dsimp only [dat0]
theorem after0_6 (c : Dev nD) (t : Fin cfg0.N) : (dat0 V c).after 6 t = k0_pay7 (accAt0 V c t.val t.isLt).2 (iblk0 V c 4 t) := by dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HQ, HK⟩, Hr⟩, Hg⟩
  isplitl [HQ HK Hr]
  · isplitl [HQ HK]
    · isplitl [HQ]
      · iexists _; iexact HQ
      · iexists _; iexact HK
    · iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

/-! ## Whole-buffer loads and stores

Every access of this kernel is through the rectangle at zero offsets of the buffer's own sizes. -/

theorem zeros2 : (![0, 0] : Fin 2 → ℕ) = fun _ => 0 := by
  funext a; match a with | ⟨0, _⟩ => rfl | ⟨1, _⟩ => rfl
theorem zeros1 : (![0] : Fin 1 → ℕ) = fun _ => 0 := by
  funext a; match a with | ⟨0, _⟩ => rfl

/-- A load through the whole-buffer rectangle reads the contents. -/
theorem readAt_whole {sg : RefSig} {κ : Kind} {sp : Space} {S : Shape} {e : EltTy} (v : View sg κ sp S e)
    {off : Fin S.rank → ℕ} (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

/-- After a store through the whole-buffer rectangle, made last, the buffer reads the stored value. -/
theorem read_writes_whole {sg : RefSig} {κ : Kind} {sp : Space} {S : Shape} {e : EltTy} (v : View sg κ sp S e)
    {off : Fin S.rank → ℕ} (h : off = fun _ => 0) (inb : ∀ a, off a + S.size a ≤ S.size a) (f : v.ty.Contents (Elt F))
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's triple, case by case -/

set_option maxHeartbeats 1000000 in
/-- A reduction's FIRST step (the reset taken, the outputs not stored): both accumulators, at anything, are left at the
    step's products over zeros; the inputs' and outputs' buffers are handed back as found. -/
theorem run_first (c : Dev nD) (E : Set ℕ) (i : grid0.Coords)
    (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S512 .f32) (harg6 : arg6.IsWhole)
    (arg7 : Memref sig .tc .vmem S512 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .f32) (harg10 : arg10.IsWhole)
    (arg11 : Memref sig .tc .vmem S512x512 .f32) (harg11 : arg11.IsWhole)
    (hr : condReset i) (he : ¬condEmit i)
    (x0 x1 x2 : Vec F S512x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
            ∗ owns (c : Thread nD τ) arg10 fullShare (k0_pay4 x0 x1 k0_pay1) ∗ owns (c : Thread nD τ) arg11 fullShare (k0_pay5 x0 x2 k0_pay2)) -∗ K ⟨⟩))
      ⊢ wp frame (wpE (defs₀ (F := F)) Variants.none c none) E (cc0__linear_qk_T_kernel i arg3 harg3 arg4 harg4 arg5 harg5 arg6 harg6 arg7 harg7 arg8 harg8 arg9 harg9 arg10 harg10 arg11 harg11) K := by
  simp only [cc0__linear_qk_T_kernel_eq_skeleton]; unfold cc0__linear_qk_T_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hr | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_run_names
    rw [read_writes_whole _ zeros2, readAt_whole _ zeros2, readAt_whole _ zeros2, View.readCov_unit_zero _ zeros2]
  · iexists _; isplitr
    swap; · iexact HS1
    ipureintro
    sl_unfold_run_names
    rw [read_writes_whole _ zeros2, readAt_whole _ zeros2, readAt_whole _ zeros2, View.readCov_unit_zero _ zeros2]

set_option maxHeartbeats 1000000 in
/-- A LATER step that is not the last (no reset, the outputs not stored): the accumulators, at what the step before
    left, gain the step's products. -/
theorem run_next (c : Dev nD) (E : Set ℕ) (i : grid0.Coords)
    (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S512 .f32) (harg6 : arg6.IsWhole)
    (arg7 : Memref sig .tc .vmem S512 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .f32) (harg10 : arg10.IsWhole)
    (arg11 : Memref sig .tc .vmem S512x512 .f32) (harg11 : arg11.IsWhole)
    (hr : ¬condReset i) (he : ¬condEmit i)
    (x0 x1 x2 : Vec F S512x1024 .f32) (a0 a1 : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg10 fullShare a0 ∗ owns (c : Thread nD τ) arg11 fullShare a1
        ∗ (iprop(owns (c : Thread nD τ) arg3 fullShare x0 ∗ owns (c : Thread nD τ) arg4 fullShare x1 ∗ owns (c : Thread nD τ) arg5 fullShare x2
            ∗ owns (c : Thread nD τ) arg10 fullShare (k0_pay4 x0 x1 a0) ∗ owns (c : Thread nD τ) arg11 fullShare (k0_pay5 x0 x2 a1)) -∗ K ⟨⟩))
      ⊢ wp frame (wpE (defs₀ (F := F)) Variants.none c none) E (cc0__linear_qk_T_kernel i arg3 harg3 arg4 harg4 arg5 harg5 arg6 harg6 arg7 harg7 arg8 harg8 arg9 harg9 arg10 harg10 arg11 harg11) K := by
  simp only [cc0__linear_qk_T_kernel_eq_skeleton]; unfold cc0__linear_qk_T_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hr | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_run_names
    simp only [read_writes_whole (S := S512x512) _ zeros2, readAt_whole (S := S512x512) _ zeros2, readAt_whole (S := S512x1024) _ zeros2]
  · iexists _; isplitr
    swap; · iexact HS1
    ipureintro
    sl_unfold_run_names
    simp only [read_writes_whole (S := S512x512) _ zeros2, readAt_whole (S := S512x512) _ zeros2, readAt_whole (S := S512x1024) _ zeros2]

set_option maxHeartbeats 1000000 in
/-- A reduction's LAST step (no reset, the outputs stored): the accumulators gain the step's products, and each output's
    buffer, at anything, is left at its accumulator plus its bias row. -/
theorem run_last (c : Dev nD) (E : Set ℕ) (i : grid0.Coords)
    (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S512 .f32) (harg6 : arg6.IsWhole)
    (arg7 : Memref sig .tc .vmem S512 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .f32) (harg10 : arg10.IsWhole)
    (arg11 : Memref sig .tc .vmem S512x512 .f32) (harg11 : arg11.IsWhole)
    (hr : ¬condReset i) (he : condEmit i)
    (x0 x1 x2 : Vec F S512x1024 .f32) (b0 b1 : Vec F S512 .f32) (a0 a1 : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare b0 ∗ owns (c : Thread nD τ) arg7 fullShare b1
        ∗ (∃ d, owns (c : Thread nD τ) arg8 fullShare d) ∗ (∃ d, owns (c : Thread nD τ) arg9 fullShare d)
        ∗ owns (c : Thread nD τ) arg10 fullShare a0 ∗ owns (c : Thread nD τ) arg11 fullShare a1
        ∗ (iprop(owns (c : Thread nD τ) arg3 fullShare x0 ∗ owns (c : Thread nD τ) arg4 fullShare x1 ∗ owns (c : Thread nD τ) arg5 fullShare x2
            ∗ owns (c : Thread nD τ) arg6 fullShare b0 ∗ owns (c : Thread nD τ) arg7 fullShare b1
            ∗ owns (c : Thread nD τ) arg8 fullShare (k0_pay6 (k0_pay4 x0 x1 a0) b0) ∗ owns (c : Thread nD τ) arg9 fullShare (k0_pay7 (k0_pay5 x0 x2 a1) b1)
            ∗ owns (c : Thread nD τ) arg10 fullShare (k0_pay4 x0 x1 a0) ∗ owns (c : Thread nD τ) arg11 fullShare (k0_pay5 x0 x2 a1)) -∗ K ⟨⟩))
      ⊢ wp frame (wpE (defs₀ (F := F)) Variants.none c none) E (cc0__linear_qk_T_kernel i arg3 harg3 arg4 harg4 arg5 harg5 arg6 harg6 arg7 harg7 arg8 harg8 arg9 harg9 arg10 harg10 arg11 harg11) K := by
  simp only [cc0__linear_qk_T_kernel_eq_skeleton]; unfold cc0__linear_qk_T_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  subst hf0; subst hf1; subst hf2; subst hf3; subst hf4; subst hfs0; subst hfs1
  sl_exec (disch := first | exact hr | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    simp only [read_writes_whole (S := S512x512) _ zeros2, View.readCov_unit_zero (S := S512x512) _ zeros2, readAt_whole (S := S512x512) _ zeros2, readAt_whole (S := S512x1024) _ zeros2, readAt_whole (S := S512) _ zeros1]
  isplitl [H6]
  · iexists _; isplitr
    swap; · iexact H6
    ipureintro
    sl_unfold_run_names
    simp only [read_writes_whole (S := S512x512) _ zeros2, View.readCov_unit_zero (S := S512x512) _ zeros2, readAt_whole (S := S512x512) _ zeros2, readAt_whole (S := S512x1024) _ zeros2, readAt_whole (S := S512) _ zeros1]
  isplitl [HS0]
  · iexists _; isplitr
    swap; · iexact HS0
    ipureintro
    sl_unfold_run_names
    simp only [read_writes_whole (S := S512x512) _ zeros2, readAt_whole (S := S512x512) _ zeros2, readAt_whole (S := S512x1024) _ zeros2]
  · iexists _; isplitr
    swap; · iexact HS1
    ipureintro
    sl_unfold_run_names
    simp only [read_writes_whole (S := S512x512) _ zeros2, readAt_whole (S := S512x512) _ zeros2, readAt_whole (S := S512x1024) _ zeros2]

/-! ## What each window's buffer holds when the body runs -/

/-- Each input's current staging buffer holds its block at every point, fetched there or not (the bias rows are
    fetched once per outer index and stay put in between). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## Where the outputs are idle -/

/-- Off the reduction's last step the outputs' buffers are idle and not written back; at it they are live. -/
theorem idleAt0_5 : ∀ t : Fin cfg0.N, ¬condEmit (grid0.coords t) → cfg0.idle 5 (grid0.coords t) = true := by decide +kernel
theorem idleAt0_6 : ∀ t : Fin cfg0.N, ¬condEmit (grid0.coords t) → cfg0.idle 6 (grid0.coords t) = true := by decide +kernel
theorem noFlush0_5 : ∀ t : Fin cfg0.N, ¬condEmit (grid0.coords t) → (cfg0.win 5).flush t = false := by decide +kernel
theorem noFlush0_6 : ∀ t : Fin cfg0.N, ¬condEmit (grid0.coords t) → (cfg0.win 6).flush t = false := by decide +kernel
theorem liveAt0_5 : ∀ t : Fin cfg0.N, condEmit (grid0.coords t) → cfg0.idle 5 (grid0.coords t) = false := by decide +kernel
theorem liveAt0_6 : ∀ t : Fin cfg0.N, condEmit (grid0.coords t) → cfg0.idle 6 (grid0.coords t) = false := by decide +kernel

/-! ## The body obligation, at a generic point -/

/-- Each window's current staging memref at point `t`, as the pipeline passes it to the body, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)

/-- The invariant before any position, opened: both accumulators at some contents. -/
theorem PhiS0_open (c : Dev nD) (n : ℕ) (h : n ≤ cfg0.N) :
    PhiS0 V c n h ⊢ iprop(iprop(iprop((∃ d, owns (c : Thread nD τ) accQ fullShare d) ∗ (∃ d, owns (c : Thread nD τ) accK fullShare d)) ∗ others0 c) ∗ (∃ r, prngReg c r)) := by
  cases n with
  | zero => rw [PhiS0_zero V c 0 h rfl, PhiA0_eq]; try exact Idealize.SL.BI.Entails.refl _
  | succ n =>
    rw [PhiS0_succ]
    iintro ⟨⟨⟨HQ, HK⟩, Hr⟩, Hg⟩
    isplitl [HQ HK Hr]
    · isplitl [HQ HK]
      · isplitl [HQ]
        · iexists _; iexact HQ
        · iexists _; iexact HK
      · iexact Hr
    iexact Hg

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 4000000 in
/-- The body at any point. The inputs' buffers hold their blocks; the point's position in its reduction says which
    case it is in; the invariant hands the body the accumulators (at anything at a first step, at what the step before
    left otherwise) and takes them back at this point's; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ, PhiS0_castSucc]
  rw [show (dat0 V c).leavesExact 0 t = owns (c : Thread nD τ) (ms0_0 t) fullShare ((dat0 V c).after 0 t) from rfl, after0_0,
    show (dat0 V c).leavesExact 1 t = owns (c : Thread nD τ) (ms0_1 t) fullShare ((dat0 V c).after 1 t) from rfl, after0_1,
    show (dat0 V c).leavesExact 2 t = owns (c : Thread nD τ) (ms0_2 t) fullShare ((dat0 V c).after 2 t) from rfl, after0_2,
    show (dat0 V c).leavesExact 3 t = owns (c : Thread nD τ) (ms0_3 t) fullShare ((dat0 V c).after 3 t) from rfl, after0_3,
    show (dat0 V c).leavesExact 4 t = owns (c : Thread nD τ) (ms0_4 t) fullShare ((dat0 V c).after 4 t) from rfl, after0_4]
  by_cases h0 : t.val % 4 = 0
  · have hr : condReset (grid0.coords t) := (hcondReset t).mpr h0
    have he : ¬condEmit (grid0.coords t) := fun h => by have := (hcondEmit t).mp h; omega
    rw [Dat.leavesExact_idle (dat0 V c) 5 t (idleAt0_5 t he) (noFlush0_5 t he),
      Dat.leavesExact_idle (dat0 V c) 6 t (idleAt0_6 t he) (noFlush0_6 t he)]
    rw [accAt0_first V c t h0]
    iintro ⟨HΦ, Ho, ⟨%d0, H0⟩, ⟨%d1, H1⟩, ⟨%d2, H2⟩, ⟨%d3, H3⟩, ⟨%d4, H4⟩, H5, H6⟩
    icases (PhiS0_open V c t.val (Nat.le_of_lt t.isLt)) $$ HΦ with ⟨⟨⟨HQ, HK⟩, Hr⟩, Hg⟩
    iapply (run_first c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) accQ (Memref.isWhole_whole _) accK (Memref.isWhole_whole _) hr he (iblk0 V c 0 t) (iblk0 V c 1 t) (iblk0 V c 2 t) _)
    isplitl [H0]; · iexact H0
    isplitl [H1]; · iexact H1
    isplitl [H2]; · iexact H2
    isplitl [HQ]; · iexact HQ
    isplitl [HK]; · iexact HK
    iintro ⟨H0, H1, H2, HQ, HK⟩
    isplitl [HQ HK Hr Hg]
    · isplitl [HQ HK Hr]
      · isplitl [HQ HK]
        · isplitl [HQ]; · iexact HQ
          iexact HK
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hr : ¬condReset (grid0.coords t) := fun h => h0 ((hcondReset t).mp h)
    have hz : t.val ≠ 0 := fun h => h0 (by rw [h])
    rw [PhiS0_pos V c _ _ hz]
    by_cases h3 : t.val % 4 = 3
    · have he : condEmit (grid0.coords t) := (hcondEmit t).mpr h3
      rw [show (dat0 V c).leavesExact 5 t = owns (c : Thread nD τ) (ms0_5 t) fullShare ((dat0 V c).after 5 t) from by
          unfold Dat.leavesExact; rw [liveAt0_5 t he], after0_5,
        show (dat0 V c).leavesExact 6 t = owns (c : Thread nD τ) (ms0_6 t) fullShare ((dat0 V c).after 6 t) from by
          unfold Dat.leavesExact; rw [liveAt0_6 t he], after0_6]
      rw [accAt0_next V c t h0]
      iintro ⟨⟨⟨⟨HQ, HK⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run_last c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) accQ (Memref.isWhole_whole _) accK (Memref.isWhole_whole _) hr he (iblk0 V c 0 t) (iblk0 V c 1 t) (iblk0 V c 2 t) (iblk0 V c 3 t) (iblk0 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HQ]; · iexact HQ
      isplitl [HK]; · iexact HK
      iintro ⟨H0, H1, H2, H3, H4, H5, H6, HQ, HK⟩
      isplitl [HQ HK Hr Hg]
      · isplitl [HQ HK Hr]
        · isplitl [HQ HK]
          · isplitl [HQ]; · iexact HQ
            iexact HK
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have he : ¬condEmit (grid0.coords t) := fun h => h3 ((hcondEmit t).mp h)
      rw [Dat.leavesExact_idle (dat0 V c) 5 t (idleAt0_5 t he) (noFlush0_5 t he),
        Dat.leavesExact_idle (dat0 V c) 6 t (idleAt0_6 t he) (noFlush0_6 t he)]
      rw [accAt0_next V c t h0]
      iintro ⟨⟨⟨⟨HQ, HK⟩, Hr⟩, Hg⟩, Ho, ⟨%d0, H0⟩, ⟨%d1, H1⟩, ⟨%d2, H2⟩, ⟨%d3, H3⟩, ⟨%d4, H4⟩, H5, H6⟩
      iapply (run_next c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) accQ (Memref.isWhole_whole _) accK (Memref.isWhole_whole _) hr he (iblk0 V c 0 t) (iblk0 V c 1 t) (iblk0 V c 2 t) _ _ _)
      isplitl [H0]; · iexact H0
      isplitl [H1]; · iexact H1
      isplitl [H2]; · iexact H2
      isplitl [HQ]; · iexact HQ
      isplitl [HK]; · iexact HK
      iintro ⟨H0, H1, H2, HQ, HK⟩
      isplitl [HQ HK Hr Hg]
      · isplitl [HQ HK Hr]
        · isplitl [HQ HK]
          · isplitl [HQ]; · iexact HQ
            iexact HK
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Frame.lean ====
import proofs.«404906_j953482739905_3_alg».proof.Proof.Gen.Kernel.Launch
import proofs.«404906_j953482739905_3_alg».proof.Proof.Gen.Kernel.Skeleton
import proofs.«404906_j953482739905_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The attention call (pipeline 1): two scaled-query heads against two value heads, one output tile -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the pair of query heads of the point, for any proof data over the
    entry contents whose body leaves that block in place. It is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The value window's block index depends on the outer grid coordinate alone, so it is fetched only at the first of
    each four points; at the other three the index has not moved and the buffer, which the body leaves as it found
    it, still holds the point's pair of value heads. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Query head 0 of the pair: rows `[0, 1)` of the leading axis. -/
abbrev qHead0 : Rect S2x512x64 := Rect.unit (s := S2x512x64) ![0, 0, 0] S1x512x64.size inb_S2x512x64_S1x512x64_0_0_0
/-- Query head 1 of the pair. -/
abbrev qHead1 : Rect S2x512x64 := Rect.unit (s := S2x512x64) ![1, 0, 0] S1x512x64.size inb_S2x512x64_S1x512x64_1_0_0
/-- Value head 0 of the pair. -/
abbrev vHead0 : Rect S2x2048x64 := Rect.unit (s := S2x2048x64) ![0, 0, 0] S1x2048x64.size inb_S2x2048x64_S1x2048x64_0_0_0
/-- Value head 1 of the pair. -/
abbrev vHead1 : Rect S2x2048x64 := Rect.unit (s := S2x2048x64) ![1, 0, 0] S1x2048x64.size inb_S2x2048x64_S1x2048x64_1_0_0
/-- The whole output tile. -/
abbrev oTile : Rect S512x128 := Rect.unit (s := S512x128) ![0, 0] S512x128.size inb_S512x128_S512x128_0_0

/-! ## What the body leaves in the output window's buffer -/

/-- The output tile after the body, from the two input blocks: one whole store of the two heads' results side by
    side — head 0's (computed from query head 0 and value head 0) in the left 64 columns, and in the right 64 the
    normalized exponentials of head 1's scores times value head 1. -/
def out1_2 (x0 : Vec F S2x512x64 .f32) (x1 : Vec F S2x2048x64 .f32) : Vec F S512x128 .f32 :=
  View.canon [⟨oTile, k1_pay1 (k1_pay2 (View.ld x0 qHead0) (View.ld x1 vHead0)) (k1_pay3 (View.ld x1 vHead1))
    (k1_pay4 (View.ld x0 qHead1) (View.ld x1 vHead1)) (k1_pay5 (View.ld x0 qHead1) (View.ld x1 vHead1))⟩]

/-- The one store is the whole tile, so it covers it. -/
theorem cover1_2 (p0 : Vec F S512x128 .f32) (y : S512x128.Idx) :
    ∃ pc ∈ ([⟨oTile, p0⟩] : List (View.Piece (Elt F) S512x128 .f32)), y ∈ pc.1.set :=
  View.cover_of_tiled [⟨oTile, p0⟩] S512x128.size (by rfl) y

/-! ## The body's triple -/

set_option maxHeartbeats 1000000 in
/-- The kernel body on whole staging memrefs, the two inputs' at read contents `x0`, `x1` and the output's at
    anything, runs to the continuation holding the inputs' as they were and the output's at `out1_2 x0 x1`: the four
    loads of the heads, the (unused) load of the output tile and the one whole store, run symbolically through the
    printed part. -/
theorem sound_kernel1 (c : Dev nD) (E : Set ℕ) (i : grid1.Coords)
    (arg2 : Memref sig .tc .vmem S2x512x64 .f32) (harg2 : arg2.IsWhole)
    (arg3 : Memref sig .tc .vmem S2x2048x64 .f32) (harg3 : arg3.IsWhole)
    (arg4 : Memref sig .tc .vmem S512x128 .f32) (harg4 : arg4.IsWhole)
    (x0 : Vec F S2x512x64 .f32) (x1 : Vec F S2x2048x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1_kernel i arg2 harg2 arg3 harg3 arg4 harg4) K := by
  simp only [cc1_kernel_eq_skeleton]; unfold cc1_kernel_skel
  simp only [k1_part1_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t` the
    two input buffers at their blocks and the output buffer at `out1_2` of those blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KR2Frame.lean ====
import proofs.«404906_j953482739905_3_alg».proof.Proof.Gen.Kernel.Launch
import proofs.«404906_j953482739905_3_alg».proof.Proof.Gen.Kernel.Skeleton
import proofs.«404906_j953482739905_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The third kernel launch (the gated, fused final projection) at the entry contents `V`

Nine windows over a grid of sixteen row blocks. Windows 0 and 5 hand the point its 128 rows of the attention bias and
of the attention output; windows 1–4, 6, 7 hold the three weight matrices and their bias vectors whole, brought in
once at the first point; window 8 is the point's 128 rows of the result, written back at every point. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the one store take a staging buffer whole -/

/-- the whole 128×2048 block of the attention bias -/
abbrev wholeBias : Rect S128x2048 := Rect.unit (s := S128x2048) ![0, 0] S128x2048.size inb_S128x2048_S128x2048_0_0
/-- the whole 1024×2048 weight of the first linear map -/
abbrev wholeWlin : Rect S1024x2048 := Rect.unit (s := S1024x2048) ![0, 0] S1024x2048.size inb_S1024x2048_S1024x2048_0_0
/-- a whole bias vector of 1024 entries -/
abbrev wholeVec : Rect S1024 := Rect.unit (s := S1024) ![0] S1024.size inb_S1024_S1024_0
/-- a whole 1024×1024 weight (the gate's, the output projection's) -/
abbrev wholeSquare : Rect S1024x1024 := Rect.unit (s := S1024x1024) ![0, 0] S1024x1024.size inb_S1024x1024_S1024x1024_0_0
/-- a whole block of 128 rows by 1024 columns (the attention output's, the result's) -/
abbrev wholeRows : Rect S128x1024 := Rect.unit (s := S128x1024) ![0, 0] S128x1024.size inb_S128x1024_S128x1024_0_0

/-! ## What the body leaves in the result window's buffer -/

/-- Window 8's staging buffer after the body, from the eight input blocks: its one store, of the whole buffer,
    whose payload is the gated projection of the eight whole loads. -/
def out2_8 (x0 : Vec F S128x2048 .f32) (x1 : Vec F S1024x2048 .f32) (x2 : Vec F S1024 .f32) (x3 : Vec F S1024x1024 .f32) (x4 : Vec F S1024 .f32) (x5 : Vec F S128x1024 .f32) (x6 : Vec F S1024x1024 .f32) (x7 : Vec F S1024 .f32) : Vec F S128x1024 .f32 :=
  View.canon [⟨wholeRows, k2_pay1 (View.ld x0 wholeBias) (View.ld x1 wholeWlin) (View.ld x2 wholeVec) (View.ld x3 wholeSquare) (View.ld x4 wholeVec) (View.ld x5 wholeRows) (View.ld x6 wholeSquare) (View.ld x7 wholeVec)⟩]

/-- The one store is of the whole buffer, so it covers it. -/
theorem cover2_8 (p0 : Vec F S128x1024 .f32) (y : S128x1024.Idx) :
    ∃ pc ∈ ([⟨wholeRows, p0⟩] : List (View.Piece (Elt F) S128x1024 .f32)), y ∈ pc.1.set :=
  View.cover_of_tiled [⟨wholeRows, p0⟩] S128x1024.size (by rfl) y

/-! ## The body's triple -/

set_option maxHeartbeats 4000000 in
/-- The kernel body on whole staging memrefs, the eight inputs' at read contents `xW` and the result's at anything,
    runs to the continuation holding the inputs' as they were and the result's at `out2_8` of the inputs': eight
    whole loads, a load of the result buffer whose value nothing reads, and one whole store. -/
theorem sound_kernel2 (c : Dev nD) (E : Set ℕ) (i : grid2.Coords) (arg1 : Memref sig .tc .vmem S128x2048 .f32) (harg1 : arg1.IsWhole) (arg2 : Memref sig .tc .vmem S1024x2048 .f32) (harg2 : arg2.IsWhole) (arg3 : Memref sig .tc .vmem S1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S128x1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S128x1024 .f32) (harg9 : arg9.IsWhole)
    (x0 : Vec F S128x2048 .f32) (x1 : Vec F S1024x2048 .f32) (x2 : Vec F S1024 .f32) (x3 : Vec F S1024x1024 .f32) (x4 : Vec F S1024 .f32) (x5 : Vec F S128x1024 .f32) (x6 : Vec F S1024x1024 .f32) (x7 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__gated_final_fused_kernel i arg1 harg1 arg2 harg2 arg3 harg3 arg4 harg4 arg5 harg5 arg6 harg6 arg7 harg7 arg8 harg8 arg9 harg9) K := by
  simp only [cc2__gated_final_fused_kernel_eq_skeleton]; unfold cc2__gated_final_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of this pipeline on core `c`: the arrays as the region finds them (`V`); after the body at point
    `t` each input's buffer at its block and the result's at `out2_8` of the eight input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-! ## Each input's staging buffer holds its block at every point

Windows 0 and 5 are fetched at every point. The weights and bias vectors are fetched at the first point only; at a
later point the buffer still holds what the body left at the point before, which is the block there, and the block
index has not moved since (every point asks for block 0 of an array that is one block). -/

/-- the attention bias's rows: the current buffer of window 0 holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- the first linear map's weight: the current buffer of window 1 holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- the first linear map's bias: the current buffer of window 2 holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- the gate's weight: the current buffer of window 3 holds its block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- the gate's bias: the current buffer of window 4 holds its block at every point, fetched there or not. -/
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- the attention output's rows: the current buffer of window 5 holds its block at every point, fetched there or not. -/
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- the output projection's weight: the current buffer of window 6 holds its block at every point, fetched there or not. -/
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-- the output projection's bias: the current buffer of window 7 holds its block at every point, fetched there or not. -/
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The run of the kernel program: its three pallas_calls and the host stretch between the first two, as the
  segments of @main. The buffer contents at each boundary are a fold from the launch memory: a region's arrays
  at what its pipeline's write-backs leave, the host stretch's results at its operations' values, every other
  buffer unchanged. From the launch with zero counters every weakly fair execution terminates, and every
  unscoped buffer ends at the last boundary's contents — so each argument ends as launched, and the result is
  what region 2's write-backs leave.
-/
import proofs.«404906_j953482739905_3_alg».proof.Proof.KR0Frame
import proofs.«404906_j953482739905_3_alg».proof.Proof.KR1Frame
import proofs.«404906_j953482739905_3_alg».proof.Proof.KR2Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its windows' arrays at what the pipeline's write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same contents read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its windows' arrays at what the pipeline's write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same contents read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its windows' arrays at what the pipeline's write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same contents read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The host stretch leaves a buffer none of its four operations writes as it was. -/
theorem W2_keep (c : Dev nD) (b : Ref sig .tc) (h1 : b ≠ main_v1) (h2 : b ≠ main_v2) (h3 : b ≠ main_v3) (h4 : b ≠ main_v4) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2, StableHlo.devRef_ne_of_ne h3, StableHlo.devRef_ne_of_ne h4⟩))

/-! ## The proof data family and the thread state -/

/-- No pallas_call has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No operation of the host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W0`, left with them at `W1`.
    Its windows' arrays are split out of the unscoped buffers at entry and put back, at what the write-backs leave,
    at exit; the generator register passes into the region's invariant and out; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (V0 m ρ) c)
    show (_ : sProp 𝕄) ⊢ _
    unfold Pipeline.ΦA
    iintro ⟨Hp, -, Hr⟩
    isplitl [Hr]; · iexact Hr
    iexact Hp
  hout c := by
    refine BI.Entails.trans (hout0 (V0 m ρ) c) ?_
    show (_ : sProp 𝕄) ⊢ _
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`.
    Its windows' arrays are split out of the unscoped buffers at entry and put back, at what the write-backs leave,
    at exit; the generator register passes into the region's invariant and out; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`.
    Its windows' arrays are split out of the unscoped buffers at entry and put back, at what the write-backs leave,
    at exit; the generator register passes into the region's invariant and out; nothing is owed; the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Hand

end
-- ==== Proof.KKept.lean ====
/-
  Every argument array ends as launched. No host operation writes an argument, and a region either does not see it
  or reads it through an input window, whose array the pipeline leaves as it found it; so the fold of buffer contents
  through @main, read at an argument, walks back to the launch memory. With the run this is the frame claim:
  every weakly fair execution terminates, nothing faulting, the arguments unchanged.
-/
import proofs.«404906_j953482739905_3_alg».proof.Proof.KRun

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- `main_arg0` before region 2 is as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_keep m ρ c main_arg0 (by decide) (by decide) (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- `main_arg0` ends as launched. -/
theorem W4_main_arg0 (c : Dev nD) : W4 m ρ c (Proc.devRef .tc main_arg0) = m ((c : Thread nD τ).loc main_arg0) :=
  (W4_of_ne m ρ c main_arg0 (by decide)).trans (W3_main_arg0 m ρ c)

/-- `main_arg1` before region 2 is as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_keep m ρ c main_arg1 (by decide) (by decide) (by decide) (by decide)
    _ = W0 m ρ c (Proc.devRef .tc main_arg1) := W1_of_ne m ρ c main_arg1 (by decide)
    _ = m ((c : Thread nD τ).loc main_arg1) := rfl
/-- `main_arg1` ends as launched. -/
theorem W4_main_arg1 (c : Dev nD) : W4 m ρ c (Proc.devRef .tc main_arg1) = m ((c : Thread nD τ).loc main_arg1) :=
  ((W4_arr m ρ c 0).trans (((dat2 (V3 m ρ) c).arrAt_in 0 rfl _).trans (A_eq2 (V3 m ρ) c 0))).trans (W3_main_arg1 m ρ c)

/-- `main_arg2` before region 2 is as launched. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_keep m ρ c main_arg2 (by decide) (by decide) (by decide) (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
/-- `main_arg2` ends as launched. -/
theorem W4_main_arg2 (c : Dev nD) : W4 m ρ c (Proc.devRef .tc main_arg2) = m ((c : Thread nD τ).loc main_arg2) :=
  (W4_of_ne m ρ c main_arg2 (by decide)).trans (W3_main_arg2 m ρ c)

/-- `main_arg3` before region 2 is as launched. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_keep m ρ c main_arg3 (by decide) (by decide) (by decide) (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl
/-- `main_arg3` ends as launched. -/
theorem W4_main_arg3 (c : Dev nD) : W4 m ρ c (Proc.devRef .tc main_arg3) = m ((c : Thread nD τ).loc main_arg3) :=
  (W4_of_ne m ρ c main_arg3 (by decide)).trans (W3_main_arg3 m ρ c)

/-- `main_arg4` before region 2 is as launched. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_keep m ρ c main_arg4 (by decide) (by decide) (by decide) (by decide)
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl
/-- `main_arg4` ends as launched. -/
theorem W4_main_arg4 (c : Dev nD) : W4 m ρ c (Proc.devRef .tc main_arg4) = m ((c : Thread nD τ).loc main_arg4) :=
  (W4_of_ne m ρ c main_arg4 (by decide)).trans (W3_main_arg4 m ρ c)

/-- `main_arg5` before region 2 is as launched. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_keep m ρ c main_arg5 (by decide) (by decide) (by decide) (by decide)
    _ = W0 m ρ c (Proc.devRef .tc main_arg5) := (W1_arr m ρ c 4).trans (((dat0 (V0 m ρ) c).arrAt_in 4 rfl _).trans (A_eq0 (V0 m ρ) c 4))
    _ = m ((c : Thread nD τ).loc main_arg5) := rfl
/-- `main_arg5` ends as launched. -/
theorem W4_main_arg5 (c : Dev nD) : W4 m ρ c (Proc.devRef .tc main_arg5) = m ((c : Thread nD τ).loc main_arg5) :=
  (W4_of_ne m ρ c main_arg5 (by decide)).trans (W3_main_arg5 m ρ c)

/-- `main_arg6` before region 2 is as launched. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_keep m ρ c main_arg6 (by decide) (by decide) (by decide) (by decide)
    _ = W0 m ρ c (Proc.devRef .tc main_arg6) := W1_of_ne m ρ c main_arg6 (by decide)
    _ = m ((c : Thread nD τ).loc main_arg6) := rfl
/-- `main_arg6` ends as launched. -/
theorem W4_main_arg6 (c : Dev nD) : W4 m ρ c (Proc.devRef .tc main_arg6) = m ((c : Thread nD τ).loc main_arg6) :=
  ((W4_arr m ρ c 1).trans (((dat2 (V3 m ρ) c).arrAt_in 1 rfl _).trans (A_eq2 (V3 m ρ) c 1))).trans (W3_main_arg6 m ρ c)

/-- `main_arg7` before region 2 is as launched. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_keep m ρ c main_arg7 (by decide) (by decide) (by decide) (by decide)
    _ = W0 m ρ c (Proc.devRef .tc main_arg7) := W1_of_ne m ρ c main_arg7 (by decide)
    _ = m ((c : Thread nD τ).loc main_arg7) := rfl
/-- `main_arg7` ends as launched. -/
theorem W4_main_arg7 (c : Dev nD) : W4 m ρ c (Proc.devRef .tc main_arg7) = m ((c : Thread nD τ).loc main_arg7) :=
  ((W4_arr m ρ c 2).trans (((dat2 (V3 m ρ) c).arrAt_in 2 rfl _).trans (A_eq2 (V3 m ρ) c 2))).trans (W3_main_arg7 m ρ c)

/-- `main_arg8` before region 2 is as launched. -/
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_keep m ρ c main_arg8 (by decide) (by decide) (by decide) (by decide)
    _ = W0 m ρ c (Proc.devRef .tc main_arg8) := W1_of_ne m ρ c main_arg8 (by decide)
    _ = m ((c : Thread nD τ).loc main_arg8) := rfl
/-- `main_arg8` ends as launched. -/
theorem W4_main_arg8 (c : Dev nD) : W4 m ρ c (Proc.devRef .tc main_arg8) = m ((c : Thread nD τ).loc main_arg8) :=
  ((W4_arr m ρ c 3).trans (((dat2 (V3 m ρ) c).arrAt_in 3 rfl _).trans (A_eq2 (V3 m ρ) c 3))).trans (W3_main_arg8 m ρ c)

/-- `main_arg9` before region 2 is as launched. -/
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_keep m ρ c main_arg9 (by decide) (by decide) (by decide) (by decide)
    _ = W0 m ρ c (Proc.devRef .tc main_arg9) := W1_of_ne m ρ c main_arg9 (by decide)
    _ = m ((c : Thread nD τ).loc main_arg9) := rfl
/-- `main_arg9` ends as launched. -/
theorem W4_main_arg9 (c : Dev nD) : W4 m ρ c (Proc.devRef .tc main_arg9) = m ((c : Thread nD τ).loc main_arg9) :=
  ((W4_arr m ρ c 4).trans (((dat2 (V3 m ρ) c).arrAt_in 4 rfl _).trans (A_eq2 (V3 m ρ) c 4))).trans (W3_main_arg9 m ρ c)

/-- `main_arg10` before region 2 is as launched. -/
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_keep m ρ c main_arg10 (by decide) (by decide) (by decide) (by decide)
    _ = W0 m ρ c (Proc.devRef .tc main_arg10) := W1_of_ne m ρ c main_arg10 (by decide)
    _ = m ((c : Thread nD τ).loc main_arg10) := rfl
/-- `main_arg10` ends as launched. -/
theorem W4_main_arg10 (c : Dev nD) : W4 m ρ c (Proc.devRef .tc main_arg10) = m ((c : Thread nD τ).loc main_arg10) :=
  ((W4_arr m ρ c 6).trans (((dat2 (V3 m ρ) c).arrAt_in 6 rfl _).trans (A_eq2 (V3 m ρ) c 6))).trans (W3_main_arg10 m ρ c)

/-- `main_arg11` before region 2 is as launched. -/
theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := W2_keep m ρ c main_arg11 (by decide) (by decide) (by decide) (by decide)
    _ = W0 m ρ c (Proc.devRef .tc main_arg11) := W1_of_ne m ρ c main_arg11 (by decide)
    _ = m ((c : Thread nD τ).loc main_arg11) := rfl
/-- `main_arg11` ends as launched. -/
theorem W4_main_arg11 (c : Dev nD) : W4 m ρ c (Proc.devRef .tc main_arg11) = m ((c : Thread nD τ).loc main_arg11) :=
  ((W4_arr m ρ c 7).trans (((dat2 (V3 m ρ) c).arrAt_in 7 rfl _).trans (A_eq2 (V3 m ρ) c 7))).trans (W3_main_arg11 m ρ c)

/-- THE RUN with the result named: every weakly fair execution of @main from memory `m` with zero counters terminates,
    nothing faulting; the result array ends at what region 2's write-backs leave and every argument as launched. -/
theorem run_result : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v6 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩) (run_all m ρ)

/-- THE FRAME: the same run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.Kernel.Hand

end
-- ==== Proof.R0Frame.lean ====
import proofs.«404906_j953482739905_3_alg».proof.Proof.Gen.KernelIdeal.Launch
import proofs.«404906_j953482739905_3_alg».proof.Proof.Gen.KernelIdeal.Skeleton
import proofs.«404906_j953482739905_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The projection kernel's region: two carried accumulators, two outputs stored at the last reduction step -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's two conditions, over the grid -/

/-- The accumulators are reset where the innermost (reduction) coordinate is 0. -/
abbrev condReset (i : grid0.Coords) : Prop :=
  (Scalar.cmpi .ne (Scalar.extui (Scalar.cmpi .eq (BitVec.ofNat 32 (i 2).val) 0#32)) 0#32) = 1#1
/-- That is at the points ≡ 0 (mod 4). -/
theorem hcondReset : ∀ t : Fin cfg0.N, condReset (grid0.coords t) ↔ t.val % 4 = 0 :=
  (by decide +kernel : ∀ t : Fin grid0.N, condReset (grid0.coords t) ↔ t.val % 4 = 0)

/-- The outputs are stored where the reduction coordinate is 3, its last value. -/
abbrev condEmit (i : grid0.Coords) : Prop := k0_cond2 i = 1#1
/-- That is at the points ≡ 3 (mod 4). -/
theorem hcondEmit : ∀ t : Fin cfg0.N, condEmit (grid0.coords t) ↔ t.val % 4 = 3 :=
  (by decide +kernel : ∀ t : Fin grid0.N, condEmit (grid0.coords t) ↔ t.val % 4 = 3)

/-! ## The two accumulators -/

/-- The q-projection's accumulator and the k-projection's, whole scoped buffers of the kernel's own. -/
abbrev accQ : Memref sig .tc .vmem S512x512 .f32 := Memref.whole cc0_scratch0
abbrev accK : Memref sig .tc .vmem S512x512 .f32 := Memref.whole cc0_scratch1

/-- What the two accumulators hold after the body at position `n`: at a reduction's first step the step's product
    over zeros, afterwards over what the step before left. -/
def accAt0 (c : Dev nD) : (n : ℕ) → n < cfg0.N → Vec F S512x512 .f32 × Vec F S512x512 .f32
  | 0, hn => (k0_pay4 (iblk0 V c 0 ⟨0, hn⟩) (iblk0 V c 1 ⟨0, hn⟩) k0_pay1, k0_pay5 (iblk0 V c 0 ⟨0, hn⟩) (iblk0 V c 2 ⟨0, hn⟩) k0_pay2)
  | n + 1, hn =>
    if (n + 1) % 4 = 0 then
      (k0_pay4 (iblk0 V c 0 ⟨n + 1, hn⟩) (iblk0 V c 1 ⟨n + 1, hn⟩) k0_pay1, k0_pay5 (iblk0 V c 0 ⟨n + 1, hn⟩) (iblk0 V c 2 ⟨n + 1, hn⟩) k0_pay2)
    else
      (k0_pay4 (iblk0 V c 0 ⟨n + 1, hn⟩) (iblk0 V c 1 ⟨n + 1, hn⟩) (accAt0 c n (Nat.lt_of_succ_lt hn)).1,
        k0_pay5 (iblk0 V c 0 ⟨n + 1, hn⟩) (iblk0 V c 2 ⟨n + 1, hn⟩) (accAt0 c n (Nat.lt_of_succ_lt hn)).2)

/-- At a reduction's first step: over zeros. -/
theorem accAt0_first (c : Dev nD) (t : Fin cfg0.N) (h : t.val % 4 = 0) :
    accAt0 V c t.val t.isLt = (k0_pay4 (iblk0 V c 0 t) (iblk0 V c 1 t) k0_pay1, k0_pay5 (iblk0 V c 0 t) (iblk0 V c 2 t) k0_pay2) := by
  obtain ⟨n, hn⟩ := t
  cases n with
  | zero => rfl
  | succ n => exact if_pos h

/-- At a later step: over what the step before left. -/
theorem accAt0_next (c : Dev nD) (t : Fin cfg0.N) (h : t.val % 4 ≠ 0) :
    accAt0 V c t.val t.isLt = (k0_pay4 (iblk0 V c 0 t) (iblk0 V c 1 t) (accAt0 V c (t.val - 1) (Nat.lt_of_le_of_lt (Nat.sub_le _ _) t.isLt)).1, k0_pay5 (iblk0 V c 0 t) (iblk0 V c 2 t) (accAt0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The region invariant -/

/-- The core's scoped buffers split at the two accumulators; the other calls' staging buffers stay unopened. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

/-- The scoped buffers that are neither a staging buffer of this call nor one of its accumulators. -/
abbrev others0 (c : Dev nD) : sProp 𝕄 :=
  Pipeline.scopedRestBut (Ix := Unit) (Name := ℕ) (U := UR sig nD τ) (Lvl := ℕ) (Val := Elt F) spec0 c [cc0_scratch0, cc0_scratch1]

/-- The class invariant with the accumulators as memrefs owned at some contents. -/
theorem PhiA0_eq (c : Dev nD) :
    (Pipeline.ΦA spec0 c : sProp 𝕄)
      = iprop(iprop(iprop((∃ d, owns (c : Thread nD τ) accQ fullShare d) ∗ (∃ d, owns (c : Thread nD τ) accK fullShare d)) ∗ others0 c) ∗ (∃ r, prngReg c r)) := by
  unfold Pipeline.ΦA; rw [scopedRest0_split]; simp only [accQ, accK, owns_whole]; try rfl

/-- The invariant before position `n`: before the first point the class's; afterwards both accumulators at what the
    point before left, the other scoped buffers at anything, the generator register at some state. -/
def PhiS0 (c : Dev nD) : (n : ℕ) → n ≤ cfg0.N → sProp 𝕄
  | 0, _ => Pipeline.ΦA spec0 c
  | n + 1, hn => iprop(iprop(iprop(owns (c : Thread nD τ) accQ fullShare (accAt0 V c n hn).1 ∗ owns (c : Thread nD τ) accK fullShare (accAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) accQ fullShare (accAt0 V c n hn).1 ∗ owns (c : Thread nD τ) accK fullShare (accAt0 V c n hn).2) ∗ others0 c) ∗ (∃ r, prngReg c r)) := rfl

theorem PhiS0_pos (c : Dev nD) (n : ℕ) (h : n ≤ cfg0.N) (hz : n ≠ 0) :
    PhiS0 V c n h = iprop(iprop(iprop(owns (c : Thread nD τ) accQ fullShare (accAt0 V c (n - 1) (by omega)).1 ∗ owns (c : Thread nD τ) accK fullShare (accAt0 V c (n - 1) (by omega)).2) ∗ others0 c) ∗ (∃ r, prngReg c r)) := by
  cases n with
  | zero => exact absurd rfl hz
  | succ n => rfl

/-! ## The pipeline's proof data -/

/-- The proof data on core `c`: the arrays as the region finds them; after the body each input's buffer at its block,
    the q output's at the q accumulator plus the q bias, the k output's likewise (read at the reduction's last step
    only); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay6 (accAt0 V c t.val t.isLt).1 (iblk0 V c 3 t)
    | ⟨6, _⟩ => k0_pay7 (accAt0 V c t.val t.isLt).2 (iblk0 V c 4 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay6 (accAt0 V c t.val t.isLt).1 (iblk0 V c 3 t) := by dsimp only [dat0]
theorem after0_6 (c : Dev nD) (t : Fin cfg0.N) : (dat0 V c).after 6 t = k0_pay7 (accAt0 V c t.val t.isLt).2 (iblk0 V c 4 t) := by dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HQ, HK⟩, Hr⟩, Hg⟩
  isplitl [HQ HK Hr]
  · isplitl [HQ HK]
    · isplitl [HQ]
      · iexists _; iexact HQ
      · iexists _; iexact HK
    · iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

/-! ## Whole-buffer loads and stores

Every access of this kernel is through the rectangle at zero offsets of the buffer's own sizes. -/

theorem zeros2 : (![0, 0] : Fin 2 → ℕ) = fun _ => 0 := by
  funext a; match a with | ⟨0, _⟩ => rfl | ⟨1, _⟩ => rfl
theorem zeros1 : (![0] : Fin 1 → ℕ) = fun _ => 0 := by
  funext a; match a with | ⟨0, _⟩ => rfl

/-- A load through the whole-buffer rectangle reads the contents. -/
theorem readAt_whole {sg : RefSig} {κ : Kind} {sp : Space} {S : Shape} {e : EltTy} (v : View sg κ sp S e)
    {off : Fin S.rank → ℕ} (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

/-- After a store through the whole-buffer rectangle, made last, the buffer reads the stored value. -/
theorem read_writes_whole {sg : RefSig} {κ : Kind} {sp : Space} {S : Shape} {e : EltTy} (v : View sg κ sp S e)
    {off : Fin S.rank → ℕ} (h : off = fun _ => 0) (inb : ∀ a, off a + S.size a ≤ S.size a) (f : v.ty.Contents (Elt F))
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's triple, case by case -/

set_option maxHeartbeats 1000000 in
/-- A reduction's FIRST step (the reset taken, the outputs not stored): both accumulators, at anything, are left at the
    step's products over zeros; the inputs' and outputs' buffers are handed back as found. -/
theorem run_first (c : Dev nD) (E : Set ℕ) (i : grid0.Coords)
    (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S512 .f32) (harg6 : arg6.IsWhole)
    (arg7 : Memref sig .tc .vmem S512 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .f32) (harg10 : arg10.IsWhole)
    (arg11 : Memref sig .tc .vmem S512x512 .f32) (harg11 : arg11.IsWhole)
    (hr : condReset i) (he : ¬condEmit i)
    (x0 x1 x2 : Vec F S512x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
            ∗ owns (c : Thread nD τ) arg10 fullShare (k0_pay4 x0 x1 k0_pay1) ∗ owns (c : Thread nD τ) arg11 fullShare (k0_pay5 x0 x2 k0_pay2)) -∗ K ⟨⟩))
      ⊢ wp frame (wpE (defs₀ (F := F)) Variants.none c none) E (cc0__linear_qk_T_kernel i arg3 harg3 arg4 harg4 arg5 harg5 arg6 harg6 arg7 harg7 arg8 harg8 arg9 harg9 arg10 harg10 arg11 harg11) K := by
  simp only [cc0__linear_qk_T_kernel_eq_skeleton]; unfold cc0__linear_qk_T_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hr | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_run_names
    rw [read_writes_whole _ zeros2, readAt_whole _ zeros2, readAt_whole _ zeros2, View.readCov_unit_zero _ zeros2]
  · iexists _; isplitr
    swap; · iexact HS1
    ipureintro
    sl_unfold_run_names
    rw [read_writes_whole _ zeros2, readAt_whole _ zeros2, readAt_whole _ zeros2, View.readCov_unit_zero _ zeros2]

set_option maxHeartbeats 1000000 in
/-- A LATER step that is not the last (no reset, the outputs not stored): the accumulators, at what the step before
    left, gain the step's products. -/
theorem run_next (c : Dev nD) (E : Set ℕ) (i : grid0.Coords)
    (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S512 .f32) (harg6 : arg6.IsWhole)
    (arg7 : Memref sig .tc .vmem S512 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .f32) (harg10 : arg10.IsWhole)
    (arg11 : Memref sig .tc .vmem S512x512 .f32) (harg11 : arg11.IsWhole)
    (hr : ¬condReset i) (he : ¬condEmit i)
    (x0 x1 x2 : Vec F S512x1024 .f32) (a0 a1 : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg10 fullShare a0 ∗ owns (c : Thread nD τ) arg11 fullShare a1
        ∗ (iprop(owns (c : Thread nD τ) arg3 fullShare x0 ∗ owns (c : Thread nD τ) arg4 fullShare x1 ∗ owns (c : Thread nD τ) arg5 fullShare x2
            ∗ owns (c : Thread nD τ) arg10 fullShare (k0_pay4 x0 x1 a0) ∗ owns (c : Thread nD τ) arg11 fullShare (k0_pay5 x0 x2 a1)) -∗ K ⟨⟩))
      ⊢ wp frame (wpE (defs₀ (F := F)) Variants.none c none) E (cc0__linear_qk_T_kernel i arg3 harg3 arg4 harg4 arg5 harg5 arg6 harg6 arg7 harg7 arg8 harg8 arg9 harg9 arg10 harg10 arg11 harg11) K := by
  simp only [cc0__linear_qk_T_kernel_eq_skeleton]; unfold cc0__linear_qk_T_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hr | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_run_names
    simp only [read_writes_whole (S := S512x512) _ zeros2, readAt_whole (S := S512x512) _ zeros2, readAt_whole (S := S512x1024) _ zeros2]
  · iexists _; isplitr
    swap; · iexact HS1
    ipureintro
    sl_unfold_run_names
    simp only [read_writes_whole (S := S512x512) _ zeros2, readAt_whole (S := S512x512) _ zeros2, readAt_whole (S := S512x1024) _ zeros2]

set_option maxHeartbeats 1000000 in
/-- A reduction's LAST step (no reset, the outputs stored): the accumulators gain the step's products, and each output's
    buffer, at anything, is left at its accumulator plus its bias row. -/
theorem run_last (c : Dev nD) (E : Set ℕ) (i : grid0.Coords)
    (arg3 : Memref sig .tc .vmem S512x1024 .f32) (harg3 : arg3.IsWhole) (arg4 : Memref sig .tc .vmem S512x1024 .f32) (harg4 : arg4.IsWhole)
    (arg5 : Memref sig .tc .vmem S512x1024 .f32) (harg5 : arg5.IsWhole) (arg6 : Memref sig .tc .vmem S512 .f32) (harg6 : arg6.IsWhole)
    (arg7 : Memref sig .tc .vmem S512 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .f32) (harg10 : arg10.IsWhole)
    (arg11 : Memref sig .tc .vmem S512x512 .f32) (harg11 : arg11.IsWhole)
    (hr : ¬condReset i) (he : condEmit i)
    (x0 x1 x2 : Vec F S512x1024 .f32) (b0 b1 : Vec F S512 .f32) (a0 a1 : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare b0 ∗ owns (c : Thread nD τ) arg7 fullShare b1
        ∗ (∃ d, owns (c : Thread nD τ) arg8 fullShare d) ∗ (∃ d, owns (c : Thread nD τ) arg9 fullShare d)
        ∗ owns (c : Thread nD τ) arg10 fullShare a0 ∗ owns (c : Thread nD τ) arg11 fullShare a1
        ∗ (iprop(owns (c : Thread nD τ) arg3 fullShare x0 ∗ owns (c : Thread nD τ) arg4 fullShare x1 ∗ owns (c : Thread nD τ) arg5 fullShare x2
            ∗ owns (c : Thread nD τ) arg6 fullShare b0 ∗ owns (c : Thread nD τ) arg7 fullShare b1
            ∗ owns (c : Thread nD τ) arg8 fullShare (k0_pay6 (k0_pay4 x0 x1 a0) b0) ∗ owns (c : Thread nD τ) arg9 fullShare (k0_pay7 (k0_pay5 x0 x2 a1) b1)
            ∗ owns (c : Thread nD τ) arg10 fullShare (k0_pay4 x0 x1 a0) ∗ owns (c : Thread nD τ) arg11 fullShare (k0_pay5 x0 x2 a1)) -∗ K ⟨⟩))
      ⊢ wp frame (wpE (defs₀ (F := F)) Variants.none c none) E (cc0__linear_qk_T_kernel i arg3 harg3 arg4 harg4 arg5 harg5 arg6 harg6 arg7 harg7 arg8 harg8 arg9 harg9 arg10 harg10 arg11 harg11) K := by
  simp only [cc0__linear_qk_T_kernel_eq_skeleton]; unfold cc0__linear_qk_T_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  subst hf0; subst hf1; subst hf2; subst hf3; subst hf4; subst hfs0; subst hfs1
  sl_exec (disch := first | exact hr | exact he)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    simp only [read_writes_whole (S := S512x512) _ zeros2, View.readCov_unit_zero (S := S512x512) _ zeros2, readAt_whole (S := S512x512) _ zeros2, readAt_whole (S := S512x1024) _ zeros2, readAt_whole (S := S512) _ zeros1]
  isplitl [H6]
  · iexists _; isplitr
    swap; · iexact H6
    ipureintro
    sl_unfold_run_names
    simp only [read_writes_whole (S := S512x512) _ zeros2, View.readCov_unit_zero (S := S512x512) _ zeros2, readAt_whole (S := S512x512) _ zeros2, readAt_whole (S := S512x1024) _ zeros2, readAt_whole (S := S512) _ zeros1]
  isplitl [HS0]
  · iexists _; isplitr
    swap; · iexact HS0
    ipureintro
    sl_unfold_run_names
    simp only [read_writes_whole (S := S512x512) _ zeros2, readAt_whole (S := S512x512) _ zeros2, readAt_whole (S := S512x1024) _ zeros2]
  · iexists _; isplitr
    swap; · iexact HS1
    ipureintro
    sl_unfold_run_names
    simp only [read_writes_whole (S := S512x512) _ zeros2, readAt_whole (S := S512x512) _ zeros2, readAt_whole (S := S512x1024) _ zeros2]

/-! ## What each window's buffer holds when the body runs -/

/-- Each input's current staging buffer holds its block at every point, fetched there or not (the bias rows are
    fetched once per outer index and stay put in between). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## Where the outputs are idle -/

/-- Off the reduction's last step the outputs' buffers are idle and not written back; at it they are live. -/
theorem idleAt0_5 : ∀ t : Fin cfg0.N, ¬condEmit (grid0.coords t) → cfg0.idle 5 (grid0.coords t) = true := by decide +kernel
theorem idleAt0_6 : ∀ t : Fin cfg0.N, ¬condEmit (grid0.coords t) → cfg0.idle 6 (grid0.coords t) = true := by decide +kernel
theorem noFlush0_5 : ∀ t : Fin cfg0.N, ¬condEmit (grid0.coords t) → (cfg0.win 5).flush t = false := by decide +kernel
theorem noFlush0_6 : ∀ t : Fin cfg0.N, ¬condEmit (grid0.coords t) → (cfg0.win 6).flush t = false := by decide +kernel
theorem liveAt0_5 : ∀ t : Fin cfg0.N, condEmit (grid0.coords t) → cfg0.idle 5 (grid0.coords t) = false := by decide +kernel
theorem liveAt0_6 : ∀ t : Fin cfg0.N, condEmit (grid0.coords t) → cfg0.idle 6 (grid0.coords t) = false := by decide +kernel

/-! ## The body obligation, at a generic point -/

/-- Each window's current staging memref at point `t`, as the pipeline passes it to the body, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)

/-- The invariant before any position, opened: both accumulators at some contents. -/
theorem PhiS0_open (c : Dev nD) (n : ℕ) (h : n ≤ cfg0.N) :
    PhiS0 V c n h ⊢ iprop(iprop(iprop((∃ d, owns (c : Thread nD τ) accQ fullShare d) ∗ (∃ d, owns (c : Thread nD τ) accK fullShare d)) ∗ others0 c) ∗ (∃ r, prngReg c r)) := by
  cases n with
  | zero => rw [PhiS0_zero V c 0 h rfl, PhiA0_eq]; try exact Idealize.SL.BI.Entails.refl _
  | succ n =>
    rw [PhiS0_succ]
    iintro ⟨⟨⟨HQ, HK⟩, Hr⟩, Hg⟩
    isplitl [HQ HK Hr]
    · isplitl [HQ HK]
      · isplitl [HQ]
        · iexists _; iexact HQ
        · iexists _; iexact HK
      · iexact Hr
    iexact Hg

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 4000000 in
/-- The body at any point. The inputs' buffers hold their blocks; the point's position in its reduction says which
    case it is in; the invariant hands the body the accumulators (at anything at a first step, at what the step before
    left otherwise) and takes them back at this point's; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ, PhiS0_castSucc]
  rw [show (dat0 V c).leavesExact 0 t = owns (c : Thread nD τ) (ms0_0 t) fullShare ((dat0 V c).after 0 t) from rfl, after0_0,
    show (dat0 V c).leavesExact 1 t = owns (c : Thread nD τ) (ms0_1 t) fullShare ((dat0 V c).after 1 t) from rfl, after0_1,
    show (dat0 V c).leavesExact 2 t = owns (c : Thread nD τ) (ms0_2 t) fullShare ((dat0 V c).after 2 t) from rfl, after0_2,
    show (dat0 V c).leavesExact 3 t = owns (c : Thread nD τ) (ms0_3 t) fullShare ((dat0 V c).after 3 t) from rfl, after0_3,
    show (dat0 V c).leavesExact 4 t = owns (c : Thread nD τ) (ms0_4 t) fullShare ((dat0 V c).after 4 t) from rfl, after0_4]
  by_cases h0 : t.val % 4 = 0
  · have hr : condReset (grid0.coords t) := (hcondReset t).mpr h0
    have he : ¬condEmit (grid0.coords t) := fun h => by have := (hcondEmit t).mp h; omega
    rw [Dat.leavesExact_idle (dat0 V c) 5 t (idleAt0_5 t he) (noFlush0_5 t he),
      Dat.leavesExact_idle (dat0 V c) 6 t (idleAt0_6 t he) (noFlush0_6 t he)]
    rw [accAt0_first V c t h0]
    iintro ⟨HΦ, Ho, ⟨%d0, H0⟩, ⟨%d1, H1⟩, ⟨%d2, H2⟩, ⟨%d3, H3⟩, ⟨%d4, H4⟩, H5, H6⟩
    icases (PhiS0_open V c t.val (Nat.le_of_lt t.isLt)) $$ HΦ with ⟨⟨⟨HQ, HK⟩, Hr⟩, Hg⟩
    iapply (run_first c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) accQ (Memref.isWhole_whole _) accK (Memref.isWhole_whole _) hr he (iblk0 V c 0 t) (iblk0 V c 1 t) (iblk0 V c 2 t) _)
    isplitl [H0]; · iexact H0
    isplitl [H1]; · iexact H1
    isplitl [H2]; · iexact H2
    isplitl [HQ]; · iexact HQ
    isplitl [HK]; · iexact HK
    iintro ⟨H0, H1, H2, HQ, HK⟩
    isplitl [HQ HK Hr Hg]
    · isplitl [HQ HK Hr]
      · isplitl [HQ HK]
        · isplitl [HQ]; · iexact HQ
          iexact HK
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hr : ¬condReset (grid0.coords t) := fun h => h0 ((hcondReset t).mp h)
    have hz : t.val ≠ 0 := fun h => h0 (by rw [h])
    rw [PhiS0_pos V c _ _ hz]
    by_cases h3 : t.val % 4 = 3
    · have he : condEmit (grid0.coords t) := (hcondEmit t).mpr h3
      rw [show (dat0 V c).leavesExact 5 t = owns (c : Thread nD τ) (ms0_5 t) fullShare ((dat0 V c).after 5 t) from by
          unfold Dat.leavesExact; rw [liveAt0_5 t he], after0_5,
        show (dat0 V c).leavesExact 6 t = owns (c : Thread nD τ) (ms0_6 t) fullShare ((dat0 V c).after 6 t) from by
          unfold Dat.leavesExact; rw [liveAt0_6 t he], after0_6]
      rw [accAt0_next V c t h0]
      iintro ⟨⟨⟨⟨HQ, HK⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (run_last c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) accQ (Memref.isWhole_whole _) accK (Memref.isWhole_whole _) hr he (iblk0 V c 0 t) (iblk0 V c 1 t) (iblk0 V c 2 t) (iblk0 V c 3 t) (iblk0 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HQ]; · iexact HQ
      isplitl [HK]; · iexact HK
      iintro ⟨H0, H1, H2, H3, H4, H5, H6, HQ, HK⟩
      isplitl [HQ HK Hr Hg]
      · isplitl [HQ HK Hr]
        · isplitl [HQ HK]
          · isplitl [HQ]; · iexact HQ
            iexact HK
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have he : ¬condEmit (grid0.coords t) := fun h => h3 ((hcondEmit t).mp h)
      rw [Dat.leavesExact_idle (dat0 V c) 5 t (idleAt0_5 t he) (noFlush0_5 t he),
        Dat.leavesExact_idle (dat0 V c) 6 t (idleAt0_6 t he) (noFlush0_6 t he)]
      rw [accAt0_next V c t h0]
      iintro ⟨⟨⟨⟨HQ, HK⟩, Hr⟩, Hg⟩, Ho, ⟨%d0, H0⟩, ⟨%d1, H1⟩, ⟨%d2, H2⟩, ⟨%d3, H3⟩, ⟨%d4, H4⟩, H5, H6⟩
      iapply (run_next c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) accQ (Memref.isWhole_whole _) accK (Memref.isWhole_whole _) hr he (iblk0 V c 0 t) (iblk0 V c 1 t) (iblk0 V c 2 t) _ _ _)
      isplitl [H0]; · iexact H0
      isplitl [H1]; · iexact H1
      isplitl [H2]; · iexact H2
      isplitl [HQ]; · iexact HQ
      isplitl [HK]; · iexact HK
      iintro ⟨H0, H1, H2, HQ, HK⟩
      isplitl [HQ HK Hr Hg]
      · isplitl [HQ HK Hr]
        · isplitl [HQ HK]
          · isplitl [HQ]; · iexact HQ
            iexact HK
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R0Value.lean ====
import proofs.«404906_j953482739905_3_alg».proof.Proof.R0Frame
import proofs.«404906_j953482739905_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

/-!
# What the projection kernel's region leaves in its two result arrays

The region computes both projections transposed, block by block over a grid (i, j, k) of 2 × 4 × 4 points: at a point
the weight blocks (i, k) are multiplied with the embedding block (j, k), both contracted over their columns, and added
into two accumulators that start from 0 at k = 0; at k = 3 each accumulator plus the bias block i (added along the
columns) is written back as block (i, j) of its result. At the ideal values entry (h, l) of a result is therefore
((((0 + S₀) + S₁) + S₂) + S₃) + b h, with S_b the product of row h of the weight and row l of the embedding over the b-th
block of 1024 columns, and that is the reference's (Σ_{k < 4096} X (l, k) · W (h, k)) + b h, transposed: the product
commutes and the sum over 4096 columns splits into its four blocks.
-/

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx

/-! ## The block product of the projection: both operands contracted over their second axes -/

theorem proj_lhs_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem proj_lhs_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem proj_rhs_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem proj_rhs_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The zero block both accumulators start from reads 0 everywhere. -/
theorem zero_block_apply (j : S512x512.Idx) : k0_pay1 (F := Ideal) j = 0 := by
  unfold k0_pay1
  rw [shapeCast_self]
  show Ideal.ofBits .f32 0x00000000#32 = 0
  exact Ideal.ofBits_zero_f32

theorem zero_block_eq : k0_pay2 (F := Ideal) = k0_pay1 (F := Ideal) := rfl

/-- One accumulation step at entry (p, q): the accumulator there plus the product of row p of the weight block with
    row q of the embedding block. -/
theorem proj_step_apply (x w : Vec Ideal S512x1024 .f32) (acc : Vec Ideal S512x512 .f32) (p q : Fin 512) :
    k0_pay4 x w acc (ix2 p q) = acc (ix2 p q) + ∑ k : Fin 1024, w (ix2 p k) * x (ix2 q k) := by
  unfold k0_pay4 k0_pay3
  dsimp only
  rw [shapeCast_self]
  refine (addf_apply _ _ _).trans ?_
  refine congrArg (acc (ix2 p q) + ·) ?_
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k := funext fun a => Fin.ext (by
    match a with
    | ⟨0, _⟩ => exact proj_lhs_0 _ _
    | ⟨1, _⟩ => exact (proj_lhs_1 _ _).trans hk)
  have er : dot_S512x1024_S512x1024_S512x512_1_1_0_0_n_n.rhsIdx (ix2 p q) ((contrEquiv1 dot_S512x1024_S512x1024_S512x512_1_1_0_0_n_n 1024 rfl rfl).symm k) = ix2 q k := funext fun a => Fin.ext (by
    match a with
    | ⟨0, _⟩ => exact proj_rhs_0 _ _
    | ⟨1, _⟩ => exact (proj_rhs_1 _ _).trans hk)
  rw [el, er]
  rfl

theorem proj_step_eq (x w : Vec Ideal S512x1024 .f32) (acc : Vec Ideal S512x512 .f32) :
    k0_pay5 x w acc = k0_pay4 x w acc := rfl

/-- The bias added along the columns: entry (p, q) of the result is the accumulator there plus entry p of the bias. -/
theorem bias_apply (acc : Vec Ideal S512x512 .f32) (b : Vec Ideal S512 .f32) (p q : Fin 512) :
    k0_pay6 acc b (ix2 p q) = acc (ix2 p q) + b (ix1 p) := by
  unfold k0_pay6
  refine (addf_apply _ _ _).trans ?_
  refine congrArg (acc (ix2 p q) + ·) ?_
  refine (broadcastTo_apply _ broadcasts_S512x1_S512x512 (ix2 p q) (ix2 p (0 : Fin 1)) (fun a => by
    match a with
    | ⟨0, _⟩ => first | rfl | (show p.val = if (512 : Nat) = 1 then 0 else p.val; rw [if_neg (by decide)])
    | ⟨1, _⟩ => first | rfl | (show (0 : Nat) = if (1 : Nat) = 1 then 0 else q.val; rw [if_pos rfl]))).trans ?_
  exact shapeCast_apply b shapeCasts_S512_S512x1 (ix2 p (0 : Fin 1)) (ix1 p) (by
    rw [Shape.rowMajor_val_one, Shape.rowMajor_val_two]
    first | rfl | (show p.val = p.val * 1 + 0; omega) | (simp) )

theorem bias_eq (acc : Vec Ideal S512x512 .f32) (b : Vec Ideal S512 .f32) : k0_pay7 acc b = k0_pay6 acc b := rfl

/-! ## The reference's projection, K-blocked -/

/-- Entry (r, c) of a matrix by natural coordinates, 0 outside it. -/
def rd2 {R C : ℕ} (A : (⟨2, ![R, C]⟩ : Shape).Idx → EReal) (r c : ℕ) : EReal :=
  if h : r < R ∧ c < C then A (ix2 ⟨r, h.1⟩ ⟨c, h.2⟩) else 0

/-- Entry r of a vector by its natural coordinate, 0 outside it. -/
def rd1 {R : ℕ} (A : (⟨1, ![R]⟩ : Shape).Idx → EReal) (r : ℕ) : EReal :=
  if h : r < R then A (ix1 ⟨r, h⟩) else 0

theorem rd2_ix2 {R C : ℕ} (A : (⟨2, ![R, C]⟩ : Shape).Idx → EReal) (r : Fin R) (c : Fin C) :
    rd2 A r.val c.val = A (ix2 r c) := by
  unfold rd2
  rw [dif_pos ⟨r.isLt, c.isLt⟩]

theorem rd1_ix1 {R : ℕ} (A : (⟨1, ![R]⟩ : Shape).Idx → EReal) (r : Fin R) : rd1 A r.val = A (ix1 r) := by
  unfold rd1
  rw [dif_pos r.isLt]

/-- Row h of the weight against row l of the embedding, over the b-th block of 1024 columns. -/
def blockDot (X : Vec Ideal S2048x4096 .f32) (W : Vec Ideal S1024x4096 .f32) (h l b : ℕ) : EReal :=
  ∑ k : Fin 1024, rd2 (R := 1024) (C := 4096) W h (1024 * b + k.val) * rd2 (R := 2048) (C := 4096) X l (1024 * b + k.val)

/-- The running sum of the block products in block order, from 0. -/
def partialDot (X : Vec Ideal S2048x4096 .f32) (W : Vec Ideal S1024x4096 .f32) (h l : ℕ) : ℕ → EReal
  | 0 => 0 + blockDot X W h l 0
  | b + 1 => partialDot X W h l b + blockDot X W h l (b + 1)

/-- A sum over 4096 columns is the sum of its four blocks of 1024, in block order from 0. -/
theorem sum_four_blocks (g : ℕ → EReal) :
    ∑ k : Fin 4096, g k.val = (((0 + ∑ k : Fin 1024, g (1024 * 0 + k.val)) + ∑ k : Fin 1024, g (1024 * 1 + k.val))
      + ∑ k : Fin 1024, g (1024 * 2 + k.val)) + ∑ k : Fin 1024, g (1024 * 3 + k.val) := by
  have e : ∑ k : Fin 4096, g k.val = ∑ x : Fin 4 × Fin 1024, g (finProdFinEquiv x).val :=
    (Equiv.sum_comp (finProdFinEquiv (m := 4) (n := 1024)) (fun k : Fin (4 * 1024) => g k.val)).symm
  rw [e, Fintype.sum_prod_type, Fin.sum_univ_four, zero_add]
  have f : ∀ (b : Fin 4), ∑ k : Fin 1024, g (finProdFinEquiv (b, k)).val = ∑ k : Fin 1024, g (1024 * b.val + k.val) :=
    fun b => Finset.sum_congr rfl fun k _ => congrArg g (by show k.val + 1024 * b.val = 1024 * b.val + k.val; omega)
  rw [f 0, f 1, f 2, f 3]
  rfl

/-- The reference's transposed q projection at (h, l): the four block products of row h of Wq with row l of X, summed
    in block order from 0, plus the bias at h. -/
theorem ref_proj_apply (X : Vec Ideal S2048x4096 .f32) (W : Vec Ideal S1024x4096 .f32) (B : Vec Ideal S1024 .f32)
    (h : Fin 1024) (l : Fin 2048) :
    Cert.ReferenceIdeal.Read.val_main_v10 (F := Ideal) X W B (ix2 h l) = partialDot X W h.val l.val 3 + rd1 (R := 1024) B h.val := by
  have e1 : ∀ k : Fin 4096, Cert.ReferenceIdeal.Read.lidx_main_v1 (Cert.ReferenceIdeal.Read.idx_main_v10 (ix2 h l)) k = ix2 l k :=
    fun k => funext fun a => Fin.ext (by match a with | ⟨0, _⟩ => rfl | ⟨1, _⟩ => rfl)
  have e2 : ∀ k : Fin 4096, Cert.ReferenceIdeal.Read.idx_main_v0 (Cert.ReferenceIdeal.Read.ridx_main_v1 (Cert.ReferenceIdeal.Read.idx_main_v10 (ix2 h l)) k) = ix2 h k :=
    fun k => funext fun a => Fin.ext (by match a with | ⟨0, _⟩ => rfl | ⟨1, _⟩ => rfl)
  have e3 : Cert.ReferenceIdeal.Read.idx_main_v2 (Cert.ReferenceIdeal.Read.idx_main_v3 (Cert.ReferenceIdeal.Read.idx_main_v10 (ix2 h l))) = ix1 h :=
    funext fun a => Fin.ext (by match a with | ⟨0, _⟩ => rfl)
  rw [Cert.ReferenceIdeal.Read.val_main_v10_apply, Cert.ReferenceIdeal.Read.val_main_v4_apply,
    Cert.ReferenceIdeal.Read.val_main_v1_apply, Cert.ReferenceIdeal.Read.val_main_v3_apply,
    Cert.ReferenceIdeal.Read.val_main_v2_apply, e3, rd1_ix1]
  refine congrArg (· + B (ix1 h)) ?_
  have e : ∀ k : Fin 4096, X (Cert.ReferenceIdeal.Read.lidx_main_v1 (Cert.ReferenceIdeal.Read.idx_main_v10 (ix2 h l)) k)
      * Cert.ReferenceIdeal.Read.val_main_v0 (F := Ideal) W (Cert.ReferenceIdeal.Read.ridx_main_v1 (Cert.ReferenceIdeal.Read.idx_main_v10 (ix2 h l)) k)
      = (fun n : ℕ => rd2 (R := 1024) (C := 4096) W h.val n * rd2 (R := 2048) (C := 4096) X l.val n) k.val := fun k => by
    rw [Cert.ReferenceIdeal.Read.val_main_v0_apply, e1, e2]
    show X (ix2 l k) * W (ix2 h k) = rd2 W h.val k.val * rd2 X l.val k.val
    rw [rd2_ix2, rd2_ix2, mul_comm]
  rw [Finset.sum_congr rfl fun k _ => e k]
  refine (sum_four_blocks (fun n : ℕ => rd2 (R := 1024) (C := 4096) W h.val n * rd2 (R := 2048) (C := 4096) X l.val n)).trans ?_
  rfl

/-- The reference's transposed k projection at (h, l), likewise with Wk and bk. -/
theorem ref_projK_apply (X : Vec Ideal S2048x4096 .f32) (W : Vec Ideal S1024x4096 .f32) (B : Vec Ideal S1024 .f32)
    (h : Fin 1024) (l : Fin 2048) :
    Cert.ReferenceIdeal.Read.val_main_v15 (F := Ideal) X W B (ix2 h l) = partialDot X W h.val l.val 3 + rd1 (R := 1024) B h.val := by
  have e1 : ∀ k : Fin 4096, Cert.ReferenceIdeal.Read.lidx_main_v6 (Cert.ReferenceIdeal.Read.idx_main_v15 (ix2 h l)) k = ix2 l k :=
    fun k => funext fun a => Fin.ext (by match a with | ⟨0, _⟩ => rfl | ⟨1, _⟩ => rfl)
  have e2 : ∀ k : Fin 4096, Cert.ReferenceIdeal.Read.idx_main_v5 (Cert.ReferenceIdeal.Read.ridx_main_v6 (Cert.ReferenceIdeal.Read.idx_main_v15 (ix2 h l)) k) = ix2 h k :=
    fun k => funext fun a => Fin.ext (by match a with | ⟨0, _⟩ => rfl | ⟨1, _⟩ => rfl)
  have e3 : Cert.ReferenceIdeal.Read.idx_main_v7 (Cert.ReferenceIdeal.Read.idx_main_v8 (Cert.ReferenceIdeal.Read.idx_main_v15 (ix2 h l))) = ix1 h :=
    funext fun a => Fin.ext (by match a with | ⟨0, _⟩ => rfl)
  rw [Cert.ReferenceIdeal.Read.val_main_v15_apply, Cert.ReferenceIdeal.Read.val_main_v9_apply,
    Cert.ReferenceIdeal.Read.val_main_v6_apply, Cert.ReferenceIdeal.Read.val_main_v8_apply,
    Cert.ReferenceIdeal.Read.val_main_v7_apply, e3, rd1_ix1]
  refine congrArg (· + B (ix1 h)) ?_
  have e : ∀ k : Fin 4096, X (Cert.ReferenceIdeal.Read.lidx_main_v6 (Cert.ReferenceIdeal.Read.idx_main_v15 (ix2 h l)) k)
      * Cert.ReferenceIdeal.Read.val_main_v5 (F := Ideal) W (Cert.ReferenceIdeal.Read.ridx_main_v6 (Cert.ReferenceIdeal.Read.idx_main_v15 (ix2 h l)) k)
      = (fun n : ℕ => rd2 (R := 1024) (C := 4096) W h.val n * rd2 (R := 2048) (C := 4096) X l.val n) k.val := fun k => by
    rw [Cert.ReferenceIdeal.Read.val_main_v5_apply, e1, e2]
    show X (ix2 l k) * W (ix2 h k) = rd2 W h.val k.val * rd2 X l.val k.val
    rw [rd2_ix2, rd2_ix2, mul_comm]
  rw [Finset.sum_congr rfl fun k _ => e k]
  refine (sum_four_blocks (fun n : ℕ => rd2 (R := 1024) (C := 4096) W h.val n * rd2 (R := 2048) (C := 4096) X l.val n)).trans ?_
  rfl

/-! ## From the blocks to the two result arrays -/

section blocks

variable (V : (c : Dev nD) → (b : Ref sig .tc) → Buf (Elt Ideal) ((c : Thread nD τ).loc b))

/-- The printed index maps over the grid (i, j, k) = (t / 16, (t / 4) % 4, t % 4): the embedding block sits at (j, k),
    the weight blocks at (i, k), the bias blocks at i, the result blocks at (i, j). -/
theorem proj_index_facts : ∀ t : Fin cfg0.N,
    win0_0.index t (0 : Fin 2) = (t.val / 4) % 4 ∧ win0_0.index t (1 : Fin 2) = t.val % 4
    ∧ win0_1.index t (0 : Fin 2) = t.val / 16 ∧ win0_1.index t (1 : Fin 2) = t.val % 4
    ∧ win0_2.index t (0 : Fin 2) = t.val / 16 ∧ win0_2.index t (1 : Fin 2) = t.val % 4
    ∧ win0_3.index t (0 : Fin 1) = t.val / 16
    ∧ win0_4.index t (0 : Fin 1) = t.val / 16
    ∧ win0_5.index t (0 : Fin 2) = t.val / 16 ∧ win0_5.index t (1 : Fin 2) = (t.val / 4) % 4
    ∧ win0_6.index t (0 : Fin 2) = t.val / 16 ∧ win0_6.index t (1 : Fin 2) = (t.val / 4) % 4 :=
  (by decide +kernel : ∀ t : Fin grid0.N, _)

theorem point_lt (t : Fin cfg0.N) : t.val < 32 := by
  exact lt_of_lt_of_eq t.isLt N_0

/-- The embedding block, the two weight blocks and the two bias blocks of point t, at their literal types. -/
abbrev xBlk (c : Dev nD) (t : Fin cfg0.N) : Vec Ideal S512x1024 .f32 := iblk0 V c 0 t
abbrev wqBlk (c : Dev nD) (t : Fin cfg0.N) : Vec Ideal S512x1024 .f32 := iblk0 V c 1 t
abbrev wkBlk (c : Dev nD) (t : Fin cfg0.N) : Vec Ideal S512x1024 .f32 := iblk0 V c 2 t
abbrev bqBlk (c : Dev nD) (t : Fin cfg0.N) : Vec Ideal S512 .f32 := iblk0 V c 3 t
abbrev bkBlk (c : Dev nD) (t : Fin cfg0.N) : Vec Ideal S512 .f32 := iblk0 V c 4 t
/-- The arrays the region reads, at their literal types. -/
abbrev xArr (c : Dev nD) : Vec Ideal S2048x4096 .f32 := V c main_arg0
abbrev wqArr (c : Dev nD) : Vec Ideal S1024x4096 .f32 := V c main_arg2
abbrev bqArr (c : Dev nD) : Vec Ideal S1024 .f32 := V c main_arg3
abbrev wkArr (c : Dev nD) : Vec Ideal S1024x4096 .f32 := V c main_arg4
abbrev bkArr (c : Dev nD) : Vec Ideal S1024 .f32 := V c main_arg5

theorem xBlk_apply (c : Dev nD) (t : Fin cfg0.N) (q : Fin 512) (k : Fin 1024) :
    xBlk V c t (ix2 q k) = rd2 (R := 2048) (C := 4096) (xArr V c) (512 * ((t.val / 4) % 4) + q.val) (1024 * (t.val % 4) + k.val) := by
  have ht := point_lt t
  obtain ⟨e0, e1, -⟩ := proj_index_facts t
  unfold rd2
  rw [dif_pos ⟨by omega, by omega⟩]
  unfold xBlk xArr iblk0
  show V c main_arg0 (((cfg0.win 0).blk t).view.emb (ix2 q k)) = V c main_arg0 _
  refine congrArg (V c main_arg0) (funext fun a => Fin.ext ?_)
  match a with
  | ⟨0, _⟩ => show win0_0.index t (0 : Fin 2) * 512 + 1 * q.val = 512 * ((t.val / 4) % 4) + q.val; rw [e0]; omega
  | ⟨1, _⟩ => show win0_0.index t (1 : Fin 2) * 1024 + 1 * k.val = 1024 * (t.val % 4) + k.val; rw [e1]; omega

theorem wqBlk_apply (c : Dev nD) (t : Fin cfg0.N) (p : Fin 512) (k : Fin 1024) :
    wqBlk V c t (ix2 p k) = rd2 (R := 1024) (C := 4096) (wqArr V c) (512 * (t.val / 16) + p.val) (1024 * (t.val % 4) + k.val) := by
  have ht := point_lt t
  obtain ⟨-, -, e0, e1, -⟩ := proj_index_facts t
  unfold rd2
  rw [dif_pos ⟨by omega, by omega⟩]
  unfold wqBlk wqArr iblk0
  show V c main_arg2 (((cfg0.win 1).blk t).view.emb (ix2 p k)) = V c main_arg2 _
  refine congrArg (V c main_arg2) (funext fun a => Fin.ext ?_)
  match a with
  | ⟨0, _⟩ => show win0_1.index t (0 : Fin 2) * 512 + 1 * p.val = 512 * (t.val / 16) + p.val; rw [e0]; omega
  | ⟨1, _⟩ => show win0_1.index t (1 : Fin 2) * 1024 + 1 * k.val = 1024 * (t.val % 4) + k.val; rw [e1]; omega

theorem bqBlk_apply (c : Dev nD) (t : Fin cfg0.N) (p : Fin 512) :
    bqBlk V c t (ix1 p) = rd1 (R := 1024) (bqArr V c) (512 * (t.val / 16) + p.val) := by
  have ht := point_lt t
  obtain ⟨-, -, -, -, -, -, e0, -⟩ := proj_index_facts t
  unfold rd1
  rw [dif_pos (by omega)]
  unfold bqBlk bqArr iblk0
  show V c main_arg3 (((cfg0.win 3).blk t).view.emb (ix1 p)) = V c main_arg3 _
  refine congrArg (V c main_arg3) (funext fun a => Fin.ext ?_)
  match a with
  | ⟨0, _⟩ => show win0_3.index t (0 : Fin 1) * 512 + 1 * p.val = 512 * (t.val / 16) + p.val; rw [e0]; omega

/-- One step's block product, in the arrays' own coordinates. -/
theorem q_step_blockDot (c : Dev nD) (t : Fin cfg0.N) (p q : Fin 512) :
    ∑ k : Fin 1024, wqBlk V c t (ix2 p k) * xBlk V c t (ix2 q k)
      = blockDot (xArr V c) (wqArr V c) (512 * (t.val / 16) + p.val) (512 * ((t.val / 4) % 4) + q.val) (t.val % 4) := by
  unfold blockDot
  exact Finset.sum_congr rfl fun k _ => by rw [wqBlk_apply, xBlk_apply]

/-- The q accumulator after the point at position n: the running sum of the block products of its (i, j) group up to
    its reduction step. -/
theorem accQ_apply (c : Dev nD) : ∀ (n : ℕ) (hn : n < cfg0.N) (p q : Fin 512),
    (accAt0 V c n hn).1 (ix2 p q)
      = partialDot (xArr V c) (wqArr V c) (512 * (n / 16) + p.val) (512 * ((n / 4) % 4) + q.val) (n % 4) := by
  intro n
  induction n with
  | zero =>
    intro hn p q
    rw [accAt0_first V c ⟨0, hn⟩ rfl]
    dsimp only
    refine (proj_step_apply (xBlk V c ⟨0, hn⟩) (wqBlk V c ⟨0, hn⟩) (k0_pay1 (F := Ideal)) p q).trans ?_
    rw [zero_block_apply, q_step_blockDot]
    rfl
  | succ n ih =>
    intro hn p q
    have h32 : n + 1 < 32 := point_lt ⟨n + 1, hn⟩
    by_cases h4 : (n + 1) % 4 = 0
    · rw [accAt0_first V c ⟨n + 1, hn⟩ h4]
      dsimp only
      refine (proj_step_apply (xBlk V c ⟨n + 1, hn⟩) (wqBlk V c ⟨n + 1, hn⟩) (k0_pay1 (F := Ideal)) p q).trans ?_
      rw [zero_block_apply, q_step_blockDot]
      show 0 + blockDot _ _ _ _ ((n + 1) % 4) = partialDot _ _ _ _ ((n + 1) % 4)
      rw [h4]
      rfl
    · have hb : (n + 1) % 4 = n % 4 + 1 := by omega
      have hi : (n + 1) / 16 = n / 16 := by omega
      have hj : ((n + 1) / 4) % 4 = (n / 4) % 4 := by omega
      rw [accAt0_next V c ⟨n + 1, hn⟩ h4]
      dsimp only
      refine (proj_step_apply (xBlk V c ⟨n + 1, hn⟩) (wqBlk V c ⟨n + 1, hn⟩) _ p q).trans ?_
      rw [q_step_blockDot]
      show (accAt0 V c n _).1 (ix2 p q) + blockDot _ _ _ _ ((n + 1) % 4) = partialDot _ _ _ _ ((n + 1) % 4)
      rw [ih (Nat.lt_of_succ_lt hn) p q, hb, hi, hj]
      rfl

theorem wkBlk_apply (c : Dev nD) (t : Fin cfg0.N) (p : Fin 512) (k : Fin 1024) :
    wkBlk V c t (ix2 p k) = rd2 (R := 1024) (C := 4096) (wkArr V c) (512 * (t.val / 16) + p.val) (1024 * (t.val % 4) + k.val) := by
  have ht := point_lt t
  obtain ⟨-, -, -, -, e0, e1, -⟩ := proj_index_facts t
  unfold rd2
  rw [dif_pos ⟨by omega, by omega⟩]
  unfold wkBlk wkArr iblk0
  show V c main_arg4 (((cfg0.win 2).blk t).view.emb (ix2 p k)) = V c main_arg4 _
  refine congrArg (V c main_arg4) (funext fun a => Fin.ext ?_)
  match a with
  | ⟨0, _⟩ => show win0_2.index t (0 : Fin 2) * 512 + 1 * p.val = 512 * (t.val / 16) + p.val; rw [e0]; omega
  | ⟨1, _⟩ => show win0_2.index t (1 : Fin 2) * 1024 + 1 * k.val = 1024 * (t.val % 4) + k.val; rw [e1]; omega

theorem bkBlk_apply (c : Dev nD) (t : Fin cfg0.N) (p : Fin 512) :
    bkBlk V c t (ix1 p) = rd1 (R := 1024) (bkArr V c) (512 * (t.val / 16) + p.val) := by
  have ht := point_lt t
  obtain ⟨-, -, -, -, -, -, -, e0, -⟩ := proj_index_facts t
  unfold rd1
  rw [dif_pos (by omega)]
  unfold bkBlk bkArr iblk0
  show V c main_arg5 (((cfg0.win 4).blk t).view.emb (ix1 p)) = V c main_arg5 _
  refine congrArg (V c main_arg5) (funext fun a => Fin.ext ?_)
  match a with
  | ⟨0, _⟩ => show win0_4.index t (0 : Fin 1) * 512 + 1 * p.val = 512 * (t.val / 16) + p.val; rw [e0]; omega

theorem k_step_blockDot (c : Dev nD) (t : Fin cfg0.N) (p q : Fin 512) :
    ∑ k : Fin 1024, wkBlk V c t (ix2 p k) * xBlk V c t (ix2 q k)
      = blockDot (xArr V c) (wkArr V c) (512 * (t.val / 16) + p.val) (512 * ((t.val / 4) % 4) + q.val) (t.val % 4) := by
  unfold blockDot
  exact Finset.sum_congr rfl fun k _ => by rw [wkBlk_apply, xBlk_apply]

/-- The k accumulator after the point at position n, likewise over Wk. -/
theorem accK_apply (c : Dev nD) : ∀ (n : ℕ) (hn : n < cfg0.N) (p q : Fin 512),
    (accAt0 V c n hn).2 (ix2 p q)
      = partialDot (xArr V c) (wkArr V c) (512 * (n / 16) + p.val) (512 * ((n / 4) % 4) + q.val) (n % 4) := by
  intro n
  induction n with
  | zero =>
    intro hn p q
    rw [accAt0_first V c ⟨0, hn⟩ rfl]
    dsimp only
    refine (proj_step_apply (xBlk V c ⟨0, hn⟩) (wkBlk V c ⟨0, hn⟩) (k0_pay1 (F := Ideal)) p q).trans ?_
    rw [zero_block_apply, k_step_blockDot]
    rfl
  | succ n ih =>
    intro hn p q
    have h32 : n + 1 < 32 := point_lt ⟨n + 1, hn⟩
    by_cases h4 : (n + 1) % 4 = 0
    · rw [accAt0_first V c ⟨n + 1, hn⟩ h4]
      dsimp only
      refine (proj_step_apply (xBlk V c ⟨n + 1, hn⟩) (wkBlk V c ⟨n + 1, hn⟩) (k0_pay1 (F := Ideal)) p q).trans ?_
      rw [zero_block_apply, k_step_blockDot]
      show 0 + blockDot _ _ _ _ ((n + 1) % 4) = partialDot _ _ _ _ ((n + 1) % 4)
      rw [h4]
      rfl
    · have hb : (n + 1) % 4 = n % 4 + 1 := by omega
      have hi : (n + 1) / 16 = n / 16 := by omega
      have hj : ((n + 1) / 4) % 4 = (n / 4) % 4 := by omega
      rw [accAt0_next V c ⟨n + 1, hn⟩ h4]
      dsimp only
      refine (proj_step_apply (xBlk V c ⟨n + 1, hn⟩) (wkBlk V c ⟨n + 1, hn⟩) _ p q).trans ?_
      rw [k_step_blockDot]
      show (accAt0 V c n _).2 (ix2 p q) + blockDot _ _ _ _ ((n + 1) % 4) = partialDot _ _ _ _ ((n + 1) % 4)
      rw [ih (Nat.lt_of_succ_lt hn) p q, hb, hi, hj]
      rfl

/-! ### What each write-back holds, and the cover -/

/-- Entry (p, q) of the q result's block at point t sits at (512 i + p, 512 j + q) of the array. -/
theorem q_emb (t : Fin cfg0.N) (p q : Fin 512) (h0 : 512 * (t.val / 16) + p.val < 1024) (h1 : 512 * ((t.val / 4) % 4) + q.val < 2048) :
    ((cfg0.win 5).blk t).view.emb (ix2 p q) = (ix2 (⟨512 * (t.val / 16) + p.val, h0⟩ : Fin 1024) (⟨512 * ((t.val / 4) % 4) + q.val, h1⟩ : Fin 2048) : S1024x2048.Idx) := by
  obtain ⟨-, -, -, -, -, -, -, -, e0, e1, -⟩ := proj_index_facts t
  funext a
  apply Fin.ext
  match a with
  | ⟨0, _⟩ => show win0_5.index t (0 : Fin 2) * 512 + 1 * p.val = 512 * (t.val / 16) + p.val; rw [e0]; omega
  | ⟨1, _⟩ => show win0_5.index t (1 : Fin 2) * 512 + 1 * q.val = 512 * ((t.val / 4) % 4) + q.val; rw [e1]; omega

theorem k_emb (t : Fin cfg0.N) (p q : Fin 512) (h0 : 512 * (t.val / 16) + p.val < 1024) (h1 : 512 * ((t.val / 4) % 4) + q.val < 2048) :
    ((cfg0.win 6).blk t).view.emb (ix2 p q) = (ix2 (⟨512 * (t.val / 16) + p.val, h0⟩ : Fin 1024) (⟨512 * ((t.val / 4) % 4) + q.val, h1⟩ : Fin 2048) : S1024x2048.Idx) := by
  obtain ⟨-, -, -, -, -, -, -, -, -, -, e0, e1⟩ := proj_index_facts t
  funext a
  apply Fin.ext
  match a with
  | ⟨0, _⟩ => show win0_6.index t (0 : Fin 2) * 512 + 1 * p.val = 512 * (t.val / 16) + p.val; rw [e0]; omega
  | ⟨1, _⟩ => show win0_6.index t (1 : Fin 2) * 512 + 1 * q.val = 512 * ((t.val / 4) % 4) + q.val; rw [e1]; omega

/-- What a write-back of the q result holds (at a reduction's last step) is the block of the reference's transposed
    q projection under it. -/
theorem q_flushed_eq (c : Dev nD) (t : Fin cfg0.N) (hf : (cfg0.win 5).flush t = true) :
    (dat0 V c).flushed 5 t = ((cfg0.win 5).blk t).view.read (Elt Ideal)
      (Cert.ReferenceIdeal.Read.val_main_v10 (F := Ideal) (xArr V c) (wqArr V c) (bqArr V c)) := by
  have h3 : t.val % 4 = 3 := (flush0_5 t).mp hf
  have ht := point_lt t
  show (cfg0.win 5).cut (grid0.coords t) ((dat0 V c).after 5 t) = _
  rw [after0_5]
  funext j
  obtain ⟨p, q, rfl⟩ : ∃ (p q : Fin 512), j = ix2 p q := ⟨j 0, j 1, eq_ix2 j⟩
  show k0_pay6 (accAt0 V c t.val t.isLt).1 (bqBlk V c t) (ix2 p q)
    = Cert.ReferenceIdeal.Read.val_main_v10 (F := Ideal) (xArr V c) (wqArr V c) (bqArr V c) (((cfg0.win 5).blk t).view.emb (ix2 p q))
  rw [q_emb t p q (by omega) (by omega), ref_proj_apply]
  refine (bias_apply _ (bqBlk V c t) p q).trans ?_
  rw [accQ_apply V c t.val t.isLt p q, bqBlk_apply, h3]

theorem k_flushed_eq (c : Dev nD) (t : Fin cfg0.N) (hf : (cfg0.win 6).flush t = true) :
    (dat0 V c).flushed 6 t = ((cfg0.win 6).blk t).view.read (Elt Ideal)
      (Cert.ReferenceIdeal.Read.val_main_v15 (F := Ideal) (xArr V c) (wkArr V c) (bkArr V c)) := by
  have h3 : t.val % 4 = 3 := (flush0_6 t).mp hf
  have ht := point_lt t
  show (cfg0.win 6).cut (grid0.coords t) ((dat0 V c).after 6 t) = _
  rw [after0_6]
  funext j
  obtain ⟨p, q, rfl⟩ : ∃ (p q : Fin 512), j = ix2 p q := ⟨j 0, j 1, eq_ix2 j⟩
  show k0_pay6 (accAt0 V c t.val t.isLt).2 (bkBlk V c t) (ix2 p q)
    = Cert.ReferenceIdeal.Read.val_main_v15 (F := Ideal) (xArr V c) (wkArr V c) (bkArr V c) (((cfg0.win 6).blk t).view.emb (ix2 p q))
  rw [k_emb t p q (by omega) (by omega), ref_projK_apply]
  refine (bias_apply _ (bkBlk V c t) p q).trans ?_
  rw [accK_apply V c t.val t.isLt p q, bkBlk_apply, h3]

/-- An index of the q result is in point t's block iff each coordinate is in the block's range on its axis. -/
theorem q_mem_blk (t : Fin cfg0.N) (i : S1024x2048.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v0_0).slice (win0_5.rect t)).set ↔ _
  rw [View.set_slice_whole, Rect.mem_set_unit]
  exact Iff.rfl

theorem k_mem_blk (t : Fin cfg0.N) (i : S1024x2048.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v0_1).slice (win0_6.rect t)).set ↔ _
  rw [View.set_slice_whole, Rect.mem_set_unit]
  exact Iff.rfl

/-- The point that covers row h, column l: the last reduction step of the group (h / 512, l / 512). -/
theorem cover_point_lt (i : S1024x2048.Idx) : 16 * ((i 0).val / 512) + 4 * ((i 1).val / 512) + 3 < cfg0.N := by
  have h0 : (i 0).val < 1024 := idx2_lt0 i
  have h1 : (i 1).val < 2048 := idx2_lt1 i
  rw [show cfg0.N = 32 from N_0]
  omega

theorem q_cover (i : S1024x2048.Idx) :
    ∃ t : Fin cfg0.N, (cfg0.win 5).flush t = true ∧ i ∈ ((cfg0.win 5).blk t).view.set := by
  have h0 : (i 0).val < 1024 := idx2_lt0 i
  have h1 : (i 1).val < 2048 := idx2_lt1 i
  refine ⟨⟨_, cover_point_lt i⟩, (flush0_5 _).mpr (by show (16 * ((i 0).val / 512) + 4 * ((i 1).val / 512) + 3) % 4 = 3; omega), ?_⟩
  rw [q_mem_blk]
  obtain ⟨-, -, -, -, -, -, -, -, e0, e1, -⟩ := proj_index_facts ⟨_, cover_point_lt i⟩
  intro a
  match a with
  | ⟨0, _⟩ =>
    show win0_5.index ⟨_, cover_point_lt i⟩ (0 : Fin 2) * 512 ≤ (i 0).val ∧ (i 0).val < win0_5.index ⟨_, cover_point_lt i⟩ (0 : Fin 2) * 512 + 512
    rw [e0]; dsimp only; omega
  | ⟨1, _⟩ =>
    show win0_5.index ⟨_, cover_point_lt i⟩ (1 : Fin 2) * 512 ≤ (i 1).val ∧ (i 1).val < win0_5.index ⟨_, cover_point_lt i⟩ (1 : Fin 2) * 512 + 512
    rw [e1]; dsimp only; omega

theorem k_cover (i : S1024x2048.Idx) :
    ∃ t : Fin cfg0.N, (cfg0.win 6).flush t = true ∧ i ∈ ((cfg0.win 6).blk t).view.set := by
  have h0 : (i 0).val < 1024 := idx2_lt0 i
  have h1 : (i 1).val < 2048 := idx2_lt1 i
  refine ⟨⟨_, cover_point_lt i⟩, (flush0_6 _).mpr (by show (16 * ((i 0).val / 512) + 4 * ((i 1).val / 512) + 3) % 4 = 3; omega), ?_⟩
  rw [k_mem_blk]
  obtain ⟨-, -, -, -, -, -, -, -, -, -, e0, e1⟩ := proj_index_facts ⟨_, cover_point_lt i⟩
  intro a
  match a with
  | ⟨0, _⟩ =>
    show win0_6.index ⟨_, cover_point_lt i⟩ (0 : Fin 2) * 512 ≤ (i 0).val ∧ (i 0).val < win0_6.index ⟨_, cover_point_lt i⟩ (0 : Fin 2) * 512 + 512
    rw [e0]; dsimp only; omega
  | ⟨1, _⟩ =>
    show win0_6.index ⟨_, cover_point_lt i⟩ (1 : Fin 2) * 512 ≤ (i 1).val ∧ (i 1).val < win0_6.index ⟨_, cover_point_lt i⟩ (1 : Fin 2) * 512 + 512
    rw [e1]; dsimp only; omega

/-- REGION 0 leaves the reference's transposed q projection in its first result array, -/
theorem region0_q (c : Dev nD) :
    (dat0 (F := Ideal) V c).arrAt 5 cfg0.N
      = Cert.ReferenceIdeal.Read.val_main_v10 (F := Ideal) (V c main_arg0) (V c main_arg2) (V c main_arg3) :=
  (dat0 (F := Ideal) V c).arrAt_eq_of_cover 5
    (Cert.ReferenceIdeal.Read.val_main_v10 (F := Ideal) (xArr V c) (wqArr V c) (bqArr V c))
    (fun t hf => q_flushed_eq V c t hf) q_cover

/-- and the transposed k projection in its second. -/
theorem region0_k (c : Dev nD) :
    (dat0 (F := Ideal) V c).arrAt 6 cfg0.N
      = Cert.ReferenceIdeal.Read.val_main_v15 (F := Ideal) (V c main_arg0) (V c main_arg4) (V c main_arg5) :=
  (dat0 (F := Ideal) V c).arrAt_eq_of_cover 6
    (Cert.ReferenceIdeal.Read.val_main_v15 (F := Ideal) (xArr V c) (wkArr V c) (bkArr V c))
    (fun t hf => k_flushed_eq V c t hf) k_cover

end blocks

end Cert.KernelIdeal.HandValue

end
-- ==== Proof.R1Frame.lean ====
import proofs.«404906_j953482739905_3_alg».proof.Proof.Gen.KernelIdeal.Launch
import proofs.«404906_j953482739905_3_alg».proof.Proof.Gen.KernelIdeal.Skeleton
import proofs.«404906_j953482739905_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The attention call (pipeline 1): two scaled-query heads against two value heads, one output tile -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the pair of query heads of the point, for any proof data over the
    entry contents whose body leaves that block in place. It is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The value window's block index depends on the outer grid coordinate alone, so it is fetched only at the first of
    each four points; at the other three the index has not moved and the buffer, which the body leaves as it found
    it, still holds the point's pair of value heads. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Query head 0 of the pair: rows `[0, 1)` of the leading axis. -/
abbrev qHead0 : Rect S2x512x64 := Rect.unit (s := S2x512x64) ![0, 0, 0] S1x512x64.size inb_S2x512x64_S1x512x64_0_0_0
/-- Query head 1 of the pair. -/
abbrev qHead1 : Rect S2x512x64 := Rect.unit (s := S2x512x64) ![1, 0, 0] S1x512x64.size inb_S2x512x64_S1x512x64_1_0_0
/-- Value head 0 of the pair. -/
abbrev vHead0 : Rect S2x2048x64 := Rect.unit (s := S2x2048x64) ![0, 0, 0] S1x2048x64.size inb_S2x2048x64_S1x2048x64_0_0_0
/-- Value head 1 of the pair. -/
abbrev vHead1 : Rect S2x2048x64 := Rect.unit (s := S2x2048x64) ![1, 0, 0] S1x2048x64.size inb_S2x2048x64_S1x2048x64_1_0_0
/-- The whole output tile. -/
abbrev oTile : Rect S512x128 := Rect.unit (s := S512x128) ![0, 0] S512x128.size inb_S512x128_S512x128_0_0

/-! ## What the body leaves in the output window's buffer -/

/-- The output tile after the body, from the two input blocks: one whole store of the two heads' results side by
    side — head 0's (computed from query head 0 and value head 0) in the left 64 columns, and in the right 64 the
    normalized exponentials of head 1's scores times value head 1. -/
def out1_2 (x0 : Vec F S2x512x64 .f32) (x1 : Vec F S2x2048x64 .f32) : Vec F S512x128 .f32 :=
  View.canon [⟨oTile, k1_pay1 (k1_pay2 (View.ld x0 qHead0) (View.ld x1 vHead0)) (k1_pay3 (View.ld x1 vHead1))
    (k1_pay4 (View.ld x0 qHead1) (View.ld x1 vHead1)) (k1_pay5 (View.ld x0 qHead1) (View.ld x1 vHead1))⟩]

/-- The one store is the whole tile, so it covers it. -/
theorem cover1_2 (p0 : Vec F S512x128 .f32) (y : S512x128.Idx) :
    ∃ pc ∈ ([⟨oTile, p0⟩] : List (View.Piece (Elt F) S512x128 .f32)), y ∈ pc.1.set :=
  View.cover_of_tiled [⟨oTile, p0⟩] S512x128.size (by rfl) y

/-! ## The body's triple -/

set_option maxHeartbeats 1000000 in
/-- The kernel body on whole staging memrefs, the two inputs' at read contents `x0`, `x1` and the output's at
    anything, runs to the continuation holding the inputs' as they were and the output's at `out1_2 x0 x1`: the four
    loads of the heads, the (unused) load of the output tile and the one whole store, run symbolically through the
    printed part. -/
theorem sound_kernel1 (c : Dev nD) (E : Set ℕ) (i : grid1.Coords)
    (arg2 : Memref sig .tc .vmem S2x512x64 .f32) (harg2 : arg2.IsWhole)
    (arg3 : Memref sig .tc .vmem S2x2048x64 .f32) (harg3 : arg3.IsWhole)
    (arg4 : Memref sig .tc .vmem S512x128 .f32) (harg4 : arg4.IsWhole)
    (x0 : Vec F S2x512x64 .f32) (x1 : Vec F S2x2048x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1_kernel i arg2 harg2 arg3 harg3 arg4 harg4) K := by
  simp only [cc1_kernel_eq_skeleton]; unfold cc1_kernel_skel
  simp only [k1_part1_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t` the
    two input buffers at their blocks and the output buffer at `out1_2` of those blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.R1Row.lean ====
import Idealize.ShloMosaic.PureOps.Ideal
import Mathlib.Data.EReal.Operations
import Mathlib.Data.Finset.Fold

noncomputable section

namespace Cert.KernelIdeal.HandValue

open Idealize.ShloMosaic

/-! # One row of one attention head, over the extended reals

For one query row `q : Fin 64 → EReal` and one head of values `v : Fin 2048 → Fin 64 → EReal` (which also
serve as the keys): the scores `Σ_k q k * v l k` scaled by `1/8`, their maximum over `l` from `-∞`, the
exponentials of the differences, their sum, the quotients, and the weighted sum of the values. -/

/-- The word of `1/8`, kept as the programs write it. -/
abbrev eighth : EReal := Ideal.ofBits .f32 0x3E000000#32
/-- The word of `-∞`, the start of the row maximum. -/
abbrev lowest : EReal := Ideal.ofBits .f32 0xFF800000#32

/-- The maximum of a row of scores, folded from the start value. -/
def rowMax (s : Fin 2048 → EReal) : EReal := (Finset.univ : Finset (Fin 2048)).fold max lowest s
/-- The exponential of a score less the row's maximum. -/
def rowExp (s : Fin 2048 → EReal) (l : Fin 2048) : EReal := Ideal.exp (s l - rowMax s)
/-- The softmax weight of key `l` in a row of scores. -/
def rowWeight (s : Fin 2048 → EReal) (l : Fin 2048) : EReal := Ideal.div (rowExp s l) (∑ l' : Fin 2048, rowExp s l')
/-- The attention output of a row of scores over the values, at head coordinate `d`. -/
def attendRow (s : Fin 2048 → EReal) (v : Fin 2048 → Fin 64 → EReal) (d : Fin 64) : EReal :=
  ∑ l : Fin 2048, rowWeight s l * v l d
/-- Scores scaled after the contraction over the head dimension. -/
def scoresAfter (q : Fin 64 → EReal) (v : Fin 2048 → Fin 64 → EReal) (l : Fin 2048) : EReal :=
  (∑ k : Fin 64, q k * v l k) * eighth
/-- Scores of the query scaled before the contraction. -/
def scoresBefore (q : Fin 64 → EReal) (v : Fin 2048 → Fin 64 → EReal) (l : Fin 2048) : EReal :=
  ∑ k : Fin 64, (q k * eighth) * v l k

/-- The word `0x3E000000` is the real number `2⁻³`. -/
theorem eighth_eq : eighth = (((2 : ℝ) ^ (-3 : ℤ) : ℝ) : EReal) := by
  simp [eighth, Ideal.ofBits, Ideal.ieee]
  first
  | (rw [← EReal.coe_mul]; exact congrArg _ (by norm_num))
  | (norm_cast; norm_num)
  | exact_mod_cast (by norm_num : (8388608 : ℝ) * (2 ^ 26)⁻¹ = (2 ^ 3)⁻¹)

theorem eighth_nonneg : 0 ≤ eighth := by
  rw [eighth_eq]; exact EReal.coe_nonneg.mpr (by positivity)
theorem eighth_ne_top : eighth ≠ ⊤ := by
  rw [eighth_eq]; exact EReal.coe_ne_top _

/-- A nonnegative real factor goes through a finite sum of extended reals. -/
theorem sum_mul_of_real {ι : Type*} (s : Finset ι) (f : ι → EReal) {c : EReal} (h0 : 0 ≤ c) (ht : c ≠ ⊤) :
    (∑ k ∈ s, f k) * c = ∑ k ∈ s, f k * c := by
  classical
  induction s using Finset.induction_on with
  | empty => simp
  | insert a s ha ih => rw [Finset.sum_insert ha, Finset.sum_insert ha, EReal.right_distrib_of_nonneg_of_ne_top h0 ht, ih]

/-- THE ONE LAW: scaling the sum is scaling each query coordinate. -/
theorem scoresBefore_eq_scoresAfter (q : Fin 64 → EReal) (v : Fin 2048 → Fin 64 → EReal) :
    scoresBefore q v = scoresAfter q v := by
  funext l
  unfold scoresBefore scoresAfter
  rw [sum_mul_of_real _ _ eighth_nonneg eighth_ne_top]
  exact Finset.sum_congr rfl fun k _ => mul_right_comm _ _ _

/-- The maximum of the start value and a row's maximum is the row's maximum: the fold starts there. -/
theorem max_lowest_rowMax (s : Fin 2048 → EReal) : max lowest (rowMax s) = rowMax s :=
  max_eq_right ((Finset.le_fold_max _).mpr (Or.inl le_rfl))

end Cert.KernelIdeal.HandValue
-- ==== Proof.R1Head.lean ====
import proofs.«404906_j953482739905_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«404906_j953482739905_3_alg».proof.Proof.R1Row

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.ValueIdx (ix1 ix2 ix3)

/-! # One head of the paired-head attention on whole blocks

The kernel's payloads for one head — the block product of the queries with the values, the scale, the lane
maximum, the exponentials, the lane sum, the quotients and the block product with the values — read at an index as
the row functions of one head. -/

/-! ## The two block products read at an index -/

theorem qv_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qv_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qv_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qv_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The product of a block of queries with the transposed block of values, into zero: at `(r, l)` the sum over
    the head dimension. -/
theorem qv_apply (a : FVec Ideal S512x64 .bf16) (b : FVec Ideal S2048x64 .bf16) (r : Fin 512) (l : Fin 2048) :
    matmul dot_S512x64_S2048x64_S512x2048_1_1_0_0_n_n none a b (constant (F := Ideal) S512x2048 .f32 0x00000000#32) (ix2 r l)
      = ∑ k : Fin 64, a (ix2 r k) * b (ix2 l k) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 r l) ((ValueIdx.contrEquiv1 dot_S512x64_S2048x64_S512x2048_1_1_0_0_n_n 64 rfl rfl).symm k) = ix2 r k := funext fun a => Fin.ext (by
    match a with
    | ⟨0, _⟩ => exact qv_lhs_0 _ _
    | ⟨1, _⟩ => exact (qv_lhs_1 _ _).trans hk)
  have er : dot_S512x64_S2048x64_S512x2048_1_1_0_0_n_n.rhsIdx (ix2 r l) ((ValueIdx.contrEquiv1 dot_S512x64_S2048x64_S512x2048_1_1_0_0_n_n 64 rfl rfl).symm k) = ix2 l k := funext fun a => Fin.ext (by
    match a with
    | ⟨0, _⟩ => exact qv_rhs_0 _ _
    | ⟨1, _⟩ => exact (qv_rhs_1 _ _).trans hk)
  rw [el, er]

theorem av_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem av_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem av_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem av_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product of a block of weights with the block of values, into zero: at `(r, d)` the sum over the keys. -/
theorem av_apply (a : FVec Ideal S512x2048 .bf16) (b : FVec Ideal S2048x64 .bf16) (r : Fin 512) (d : Fin 64) :
    matmul dot_S512x2048_S2048x64_S512x64_1_0_0_1_n_n none a b (constant (F := Ideal) S512x64 .f32 0x00000000#32) (ix2 r d)
      = ∑ l : Fin 2048, a (ix2 r l) * b (ix2 l d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun a => Fin.ext (by
    match a with
    | ⟨0, _⟩ => exact av_lhs_0 _ _
    | ⟨1, _⟩ => exact (av_lhs_1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun a => Fin.ext (by
    match a with
    | ⟨0, _⟩ => exact (av_rhs_0 _ _).trans hk
    | ⟨1, _⟩ => exact av_rhs_1 _ _)
  rw [el, er]

/-! ## Row reductions and the column broadcast -/

/-- The index a row reduction inserts its coordinate at. -/
theorem lift_row (r : Fin 512) (l : Fin 2048) : reduces_S512x2048_S512.lift (ix1 r) l = ix2 r l :=
  funext fun a => Fin.ext (by match a with | ⟨0, _⟩ => rfl | ⟨1, _⟩ => rfl)

/-- The lane maximum of a block of scores at row `r` is that row's maximum. -/
theorem laneMax_apply (s : FVec Ideal S512x2048 .f32) (r : Fin 512) :
    multiReduction .maximumf [1] S512 s 0xFF800000#32 reduces_S512x2048_S512 (.inl rfl) rfl (ix1 r)
      = rowMax fun l => s (ix2 r l) := by
  refine (Ideal.multiReduction_maximumf_single s 0xFF800000#32 reduces_S512x2048_S512 (.inl rfl) rfl (ix1 r)).trans ?_
  unfold rowMax
  exact congrArg (fun f : Fin 2048 → EReal => Finset.fold max lowest f Finset.univ) (funext fun l => congrArg s (lift_row r l))

/-- The lane sum of a block at row `r` is the sum of that row. -/
theorem laneSum_apply (e : FVec Ideal S512x2048 .f32) (r : Fin 512) :
    multiReduction .add [1] S512 e 0x00000000#32 reduces_S512x2048_S512 (.inl rfl) rfl (ix1 r)
      = ∑ l : Fin 2048, e (ix2 r l) := by
  refine (Ideal.multiReduction_add_single e 0x00000000#32 reduces_S512x2048_S512 (.inl rfl) rfl (ix1 r)).trans ?_
  exact Finset.sum_congr rfl fun l _ => congrArg e (lift_row r l)

/-- A per-row value set up as a column and broadcast along the lanes reads the row's value everywhere. -/
theorem column_apply (m : FVec Ideal S512 .f32) (r : Fin 512) (l : Fin 2048) :
    broadcastTo S512x2048 (shapeCast S512x1 m shapeCasts_S512_S512x1) broadcasts_S512x1_S512x2048 (ix2 r l) = m (ix1 r) := by
  refine (broadcastTo_apply _ broadcasts_S512x1_S512x2048 (ix2 r l) (ix2 r (0 : Fin 1)) (fun a => ?_)).trans ?_
  · match a with
    | ⟨0, _⟩ => show r.val = if (512 : Nat) = 1 then 0 else r.val; rw [if_neg (by decide)]
    | ⟨1, _⟩ => show 0 = if (1 : Nat) = 1 then 0 else l.val; rw [if_pos rfl]
  · exact shapeCast_apply m shapeCasts_S512_S512x1 (ix2 r (0 : Fin 1)) (ix1 r) (by
      rw [Shape.rowMajor_val_one, Shape.rowMajor_val_two]; show r.val = r.val * 1 + 0; omega)

/-! ## The stages of one head on whole blocks -/

/-- A loaded head of queries as the block the products take. -/
def qBlock (a : Vec Ideal S1x512x64 .f32) : FVec Ideal S512x64 .bf16 :=
  truncf .bf16 (shapeCast S512x64 a shapeCasts_S1x512x64_S512x64) bitsLt_bf16_f32
/-- A loaded head of values as the block the products take. -/
def vBlock (b : Vec Ideal S1x2048x64 .f32) : FVec Ideal S2048x64 .bf16 :=
  truncf .bf16 (shapeCast S2048x64 b shapeCasts_S1x2048x64_S2048x64) bitsLt_bf16_f32
/-- The scaled scores of a block of queries against a block of values. -/
def scoreBlock (a : FVec Ideal S512x64 .bf16) (b : FVec Ideal S2048x64 .bf16) : FVec Ideal S512x2048 .f32 :=
  mulf (matmul dot_S512x64_S2048x64_S512x2048_1_1_0_0_n_n none a b (constant (F := Ideal) S512x2048 .f32 0x00000000#32))
    (broadcast S512x2048 (Scalar.ofBits .f32 0x3E000000#32 : Ideal .f32))
/-- The exponentials of a block of scores less each row's maximum. -/
def expBlock (s : FVec Ideal S512x2048 .f32) : FVec Ideal S512x2048 .f32 :=
  exp (subf s (broadcastTo S512x2048 (shapeCast S512x1
    (multiReduction .maximumf [1] S512 s 0xFF800000#32 reduces_S512x2048_S512 (.inl rfl) rfl) shapeCasts_S512_S512x1) broadcasts_S512x1_S512x2048))
/-- Each row's sum, along the row. -/
def sumBlock (e : FVec Ideal S512x2048 .f32) : FVec Ideal S512x2048 .f32 :=
  broadcastTo S512x2048 (shapeCast S512x1
    (multiReduction .add [1] S512 e 0x00000000#32 reduces_S512x2048_S512 (.inl rfl) rfl) shapeCasts_S512_S512x1) broadcasts_S512x1_S512x2048
/-- The quotients times the values. -/
def outBlock (e z : FVec Ideal S512x2048 .f32) (b : FVec Ideal S2048x64 .bf16) : FVec Ideal S512x64 .f32 :=
  matmul dot_S512x2048_S2048x64_S512x64_1_0_0_1_n_n none (truncf .bf16 (divf e z) bitsLt_bf16_f32) b (constant (F := Ideal) S512x64 .f32 0x00000000#32)

theorem qBlock_apply (a : Vec Ideal S1x512x64 .f32) (r : Fin 512) (k : Fin 64) : qBlock a (ix2 r k) = a (ix3 (0 : Fin 1) r k) :=
  ValueIdx.shapeCast_1ab_ab_apply a shapeCasts_S1x512x64_S512x64 r k
theorem vBlock_apply (b : Vec Ideal S1x2048x64 .f32) (l : Fin 2048) (k : Fin 64) : vBlock b (ix2 l k) = b (ix3 (0 : Fin 1) l k) :=
  ValueIdx.shapeCast_1ab_ab_apply b shapeCasts_S1x2048x64_S2048x64 l k

theorem scoreBlock_apply (a : FVec Ideal S512x64 .bf16) (b : FVec Ideal S2048x64 .bf16) (r : Fin 512) (l : Fin 2048) :
    scoreBlock a b (ix2 r l) = scoresAfter (fun k => a (ix2 r k)) (fun l' k => b (ix2 l' k)) l :=
  congrArg (· * eighth) (qv_apply a b r l)

theorem expBlock_apply (s : FVec Ideal S512x2048 .f32) (r : Fin 512) (l : Fin 2048) :
    expBlock s (ix2 r l) = rowExp (fun l' => s (ix2 r l')) l :=
  congrArg (fun m => Ideal.exp (s (ix2 r l) - m)) ((column_apply _ r l).trans (laneMax_apply s r))

theorem sumBlock_apply (e : FVec Ideal S512x2048 .f32) (r : Fin 512) (l : Fin 2048) :
    sumBlock e (ix2 r l) = ∑ l' : Fin 2048, e (ix2 r l') :=
  (column_apply _ r l).trans (laneSum_apply e r)

theorem outBlock_apply (e z : FVec Ideal S512x2048 .f32) (b : FVec Ideal S2048x64 .bf16) (r : Fin 512) (d : Fin 64) :
    outBlock e z b (ix2 r d) = ∑ l : Fin 2048, Ideal.div (e (ix2 r l)) (z (ix2 r l)) * b (ix2 l d) :=
  av_apply _ b r d

/-- One head on whole blocks, read at `(r, d)`: the attention row of the block's row `r`. -/
theorem attendBlock_apply (a : FVec Ideal S512x64 .bf16) (b : FVec Ideal S2048x64 .bf16) (r : Fin 512) (d : Fin 64) :
    outBlock (expBlock (scoreBlock a b)) (sumBlock (expBlock (scoreBlock a b))) b (ix2 r d)
      = attendRow (scoresAfter (fun k => a (ix2 r k)) (fun l k => b (ix2 l k))) (fun l k => b (ix2 l k)) d := by
  have hs : (fun l' => scoreBlock a b (ix2 r l')) = scoresAfter (fun k => a (ix2 r k)) (fun l k => b (ix2 l k)) :=
    funext fun l' => scoreBlock_apply a b r l'
  rw [outBlock_apply]
  unfold attendRow rowWeight
  refine Finset.sum_congr rfl fun l _ => ?_
  rw [sumBlock_apply]
  simp only [expBlock_apply, hs]

/-! ## The payloads of the body -/

theorem pay3_eq (b : Vec Ideal S1x2048x64 .f32) : k1_pay3 (F := Ideal) b = vBlock b := rfl
theorem pay4_eq (a : Vec Ideal S1x512x64 .f32) (b : Vec Ideal S1x2048x64 .f32) :
    k1_pay4 (F := Ideal) a b = expBlock (scoreBlock (qBlock a) (vBlock b)) := rfl
theorem pay5_eq (a : Vec Ideal S1x512x64 .f32) (b : Vec Ideal S1x2048x64 .f32) :
    k1_pay5 (F := Ideal) a b = sumBlock (expBlock (scoreBlock (qBlock a) (vBlock b))) := rfl
theorem pay2_eq (a : Vec Ideal S1x512x64 .f32) (b : Vec Ideal S1x2048x64 .f32) :
    k1_pay2 (F := Ideal) a b = outBlock (expBlock (scoreBlock (qBlock a) (vBlock b))) (sumBlock (expBlock (scoreBlock (qBlock a) (vBlock b)))) (vBlock b) := rfl
theorem pay1_eq (o : FVec Ideal S512x64 .f32) (b : FVec Ideal S2048x64 .bf16) (e z : FVec Ideal S512x2048 .f32) :
    k1_pay1 (F := Ideal) o b e z = concatenate S512x128 1 [⟨S512x64, o⟩, ⟨S512x64, outBlock e z b⟩] concatenates_S512x64_S512x64_S512x128_d1 := rfl

/-- The rows of a loaded head of queries and the values of a loaded head. -/
def headRow (a : Vec Ideal S1x512x64 .f32) (r : Fin 512) (k : Fin 64) : EReal := a (ix3 (0 : Fin 1) r k)
def headVals (b : Vec Ideal S1x2048x64 .f32) (l : Fin 2048) (k : Fin 64) : EReal := b (ix3 (0 : Fin 1) l k)

/-- One head from its two loaded blocks, read at `(r, d)`. -/
theorem head_apply (a : Vec Ideal S1x512x64 .f32) (b : Vec Ideal S1x2048x64 .f32) (r : Fin 512) (d : Fin 64) :
    outBlock (expBlock (scoreBlock (qBlock a) (vBlock b))) (sumBlock (expBlock (scoreBlock (qBlock a) (vBlock b)))) (vBlock b) (ix2 r d)
      = attendRow (scoresAfter (headRow a r) (headVals b)) (headVals b) d := by
  rw [attendBlock_apply]
  have hq : (fun k => qBlock a (ix2 r k)) = headRow a r := funext fun k => qBlock_apply a r k
  have hv : (fun l k => vBlock b (ix2 l k)) = headVals b := funext fun l => funext fun k => vBlock_apply b l k
  rw [hq, hv]

/-- The stored tile: the two heads side by side. In the left 64 columns head 0 … -/
theorem tile_left (o₀ o₁ : FVec Ideal S512x64 .f32) (r : Fin 512) (c : Fin 128) (hc : c.val < 64) :
    concatenate S512x128 1 [⟨S512x64, o₀⟩, ⟨S512x64, o₁⟩] concatenates_S512x64_S512x64_S512x128_d1 (ix2 r c)
      = o₀ (ix2 r (⟨c.val, hc⟩ : Fin 64)) :=
  concatenate_pair_apply_left 1 o₀ o₁ concatenates_S512x64_S512x64_S512x128_d1 (ix2 r c) rfl (ix2 r (⟨c.val, hc⟩ : Fin 64))
    (fun b => match b with | ⟨0, _⟩ => rfl | ⟨1, _⟩ => rfl)

/-- … and in the right 64 columns head 1. -/
theorem tile_right (o₀ o₁ : FVec Ideal S512x64 .f32) (r : Fin 512) (c : Fin 128) (hc : 64 ≤ c.val) :
    concatenate S512x128 1 [⟨S512x64, o₀⟩, ⟨S512x64, o₁⟩] concatenates_S512x64_S512x64_S512x128_d1 (ix2 r c)
      = o₁ (ix2 r (⟨c.val - 64, by have := c.isLt; omega⟩ : Fin 64)) :=
  concatenate_pair_apply_right 1 o₀ o₁ concatenates_S512x64_S512x64_S512x128_d1 (ix2 r c) rfl rfl (ix2 r (⟨c.val - 64, by have := c.isLt; omega⟩ : Fin 64))
    (fun b => match b with | ⟨0, _⟩ => fun _ => rfl | ⟨1, _⟩ => fun h => absurd rfl h)
    (by show c.val - 64 + 64 = c.val; omega)

end Cert.KernelIdeal.HandValue
-- ==== Proof.R1Ref.lean ====
import proofs.«404906_j953482739905_3_alg».proof.Proof.Gen.ReferenceIdeal.Read
import Idealize.ShloMosaic.Lib.ValueIdx
import Idealize.ShloMosaic.PureOps.Ideal.Laws
import Idealize.ShloMosaic.PureOps.Reduce
import proofs.«404906_j953482739905_3_alg».proof.Proof.R1Row

set_option maxRecDepth 16384

noncomputable section

namespace Cert.KernelIdeal.HandValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2 ix3)

/-! # The reference's attention stages, read row by row

The reference's stages from the heads of the projections to the merged result, each read at an index as the row
functions of one head: the scores scaled before the contraction, their maximum, the exponentials, their sum, the
quotients, the weighted sum of the values, and the merge of the heads into the columns. -/

variable (x0 : (⟨S2048x4096, .f32⟩ : BufTy).Contents (Elt Ideal)) (x2 : (⟨S1024x4096, .f32⟩ : BufTy).Contents (Elt Ideal))
  (x3 : (⟨S1024, .f32⟩ : BufTy).Contents (Elt Ideal)) (x4 : (⟨S1024x4096, .f32⟩ : BufTy).Contents (Elt Ideal))
  (x5 : (⟨S1024, .f32⟩ : BufTy).Contents (Elt Ideal))

/-- The keys are the values transposed: both are heads of the same projection. -/
theorem keys_eq_values (h : Fin 16) (k : Fin 64) (l : Fin 2048) :
    val_main_v17 (F := Ideal) x0 x4 x5 (ix3 h k l) = val_main_v20 (F := Ideal) x0 x4 x5 (ix3 h l k) := by
  rw [val_main_v17_apply, val_main_v16_apply, val_main_v15_apply, val_main_v20_apply, val_main_v19_apply, val_main_v18_apply]

/-- The scores of head `h`, query `q`: the query row scaled, against the values. -/
theorem score_apply (h : Fin 16) (q l : Fin 2048) :
    val_main_v21 (F := Ideal) x0 x2 x3 x4 x5 (ix3 h q l)
      = scoresBefore (fun k => val_main_v12 (F := Ideal) x0 x2 x3 (ix3 h q k)) (fun l' k => val_main_v20 (F := Ideal) x0 x4 x5 (ix3 h l' k)) l := by
  rw [val_main_v21_apply]
  unfold scoresBefore
  refine Finset.sum_congr rfl fun k _ => ?_
  have hl : lidx_main_v21 (ix3 h q l) k = ix3 h q k :=
    funext fun a => Fin.ext (by match a with | ⟨0, _⟩ => rfl | ⟨1, _⟩ => rfl | ⟨2, _⟩ => rfl)
  have hr : ridx_main_v21 (ix3 h q l) k = ix3 h k l :=
    funext fun a => Fin.ext (by match a with | ⟨0, _⟩ => rfl | ⟨1, _⟩ => rfl | ⟨2, _⟩ => rfl)
  rw [hl, hr, val_main_v14_apply, val_main_v13_apply, val_main_cst_apply, keys_eq_values]
  rfl

/-- The reduction over the keys, as the library's single-axis lemmas want it. -/
theorem keyReduces : S16x2048x2048.Reduces [2] S16x2048 := by decide

theorem lift_key (h : Fin 16) (q l : Fin 2048) : keyReduces.lift (ix2 h q) l = ix3 h q l :=
  funext fun a => Fin.ext (by match a with | ⟨0, _⟩ => rfl | ⟨1, _⟩ => rfl | ⟨2, _⟩ => rfl)

/-- The row maximum the reference subtracts. -/
theorem max_apply (h : Fin 16) (q : Fin 2048) :
    val_main_v24 (F := Ideal) x0 x2 x3 x4 x5 (ix2 h q) = rowMax fun l => val_main_v21 (F := Ideal) x0 x2 x3 x4 x5 (ix3 h q l) := by
  rw [val_main_v24_apply, val_main_v23_apply, val_main_cst_1_apply]
  unfold val_main_v22
  generalize val_main_v21 (F := Ideal) x0 x2 x3 x4 x5 = y
  have hr := Host.reduce_eq_fold_single (f := FloatOps.maximumf (F := Ideal) (φ := .f32)) (x := y) (init := val_main_cst_0 (F := Ideal))
    reducesTo_S16x2048x2048_S16x2048_d2 keyReduces h_S_ (ix2 h q)
  have e : (y ∘ keyReduces.lift (ix2 h q)) = fun l => y (ix3 h q l) := funext fun l => congrArg y (lift_key h q l)
  rw [e] at hr
  refine (congrArg (FloatOps.maximumf (F := Ideal) (FloatOps.ofBits .f32 0xFF800000#32)) hr).trans ?_
  exact max_lowest_rowMax _

theorem exp_apply (h : Fin 16) (q l : Fin 2048) :
    val_main_v28 (F := Ideal) x0 x2 x3 x4 x5 (ix3 h q l) = rowExp (fun l' => val_main_v21 (F := Ideal) x0 x2 x3 x4 x5 (ix3 h q l')) l := by
  rw [val_main_v28_apply, val_main_v27_apply, val_main_v26_apply, val_main_v25_apply]
  have e : idx_main_v25 (idx_main_v26 (ix3 h q l)) = ix2 h q :=
    funext fun a => Fin.ext (by match a with | ⟨0, _⟩ => rfl | ⟨1, _⟩ => rfl)
  rw [e, max_apply]
  rfl

theorem sum_apply (h : Fin 16) (q : Fin 2048) :
    val_main_v29 (F := Ideal) x0 x2 x3 x4 x5 (ix2 h q) = ∑ l : Fin 2048, val_main_v28 (F := Ideal) x0 x2 x3 x4 x5 (ix3 h q l) := by
  rw [val_main_v29_apply, val_main_cst_2_apply]
  show Ideal.ofBits .f32 0x00000000#32 + _ = _
  rw [Ideal.ofBits_zero_f32, zero_add]
  exact Finset.sum_congr rfl fun l _ => congrArg (val_main_v28 (F := Ideal) x0 x2 x3 x4 x5)
    (funext fun a => Fin.ext (by match a with | ⟨0, _⟩ => rfl | ⟨1, _⟩ => rfl | ⟨2, _⟩ => rfl))

theorem weight_apply (h : Fin 16) (q l : Fin 2048) :
    val_main_v32 (F := Ideal) x0 x2 x3 x4 x5 (ix3 h q l) = rowWeight (fun l' => val_main_v21 (F := Ideal) x0 x2 x3 x4 x5 (ix3 h q l')) l := by
  rw [val_main_v32_apply, val_main_v31_apply, val_main_v30_apply]
  have e : idx_main_v30 (idx_main_v31 (ix3 h q l)) = ix2 h q :=
    funext fun a => Fin.ext (by match a with | ⟨0, _⟩ => rfl | ⟨1, _⟩ => rfl)
  rw [e, sum_apply, exp_apply]
  unfold rowWeight
  exact congrArg (Ideal.div _) (Finset.sum_congr rfl fun l' _ => exp_apply x0 x2 x3 x4 x5 h q l')

/-- One head of the reference at `(h, q, d)`: the attention row of the scaled query row over the head's values. -/
theorem out_apply (h : Fin 16) (q : Fin 2048) (d : Fin 64) :
    val_main_v33 (F := Ideal) x0 x2 x3 x4 x5 (ix3 h q d)
      = attendRow (scoresBefore (fun k => val_main_v12 (F := Ideal) x0 x2 x3 (ix3 h q k)) (fun l k => val_main_v20 (F := Ideal) x0 x4 x5 (ix3 h l k)))
          (fun l k => val_main_v20 (F := Ideal) x0 x4 x5 (ix3 h l k)) d := by
  rw [val_main_v33_apply]
  unfold attendRow
  have hs : (fun l' => val_main_v21 (F := Ideal) x0 x2 x3 x4 x5 (ix3 h q l'))
      = scoresBefore (fun k => val_main_v12 (F := Ideal) x0 x2 x3 (ix3 h q k)) (fun l k => val_main_v20 (F := Ideal) x0 x4 x5 (ix3 h l k)) :=
    funext fun l' => score_apply x0 x2 x3 x4 x5 h q l'
  refine Finset.sum_congr rfl fun l _ => ?_
  have hl : lidx_main_v33 (ix3 h q d) l = ix3 h q l :=
    funext fun a => Fin.ext (by match a with | ⟨0, _⟩ => rfl | ⟨1, _⟩ => rfl | ⟨2, _⟩ => rfl)
  have hr : ridx_main_v33 (ix3 h q d) l = ix3 h l d :=
    funext fun a => Fin.ext (by match a with | ⟨0, _⟩ => rfl | ⟨1, _⟩ => rfl | ⟨2, _⟩ => rfl)
  rw [hl, hr, weight_apply, hs]

/-- The merged result at `(R, C)`, `C = 64 h + d`, is head `h` at row `R`, coordinate `d`. -/
theorem merged_apply (R : Fin 2048) (C : Fin 1024) (h : Fin 16) (d : Fin 64) (hC : C.val = 64 * h.val + d.val) :
    val_main_v35 (F := Ideal) x0 x2 x3 x4 x5 (ix2 R C) = val_main_v33 (F := Ideal) x0 x2 x3 x4 x5 (ix3 h R d) := by
  rw [val_main_v35_apply, val_main_v34_apply]
  have hR := R.isLt
  have hC' := C.isLt
  have hd := d.isLt
  have hh := h.isLt
  exact congrArg (val_main_v33 (F := Ideal) x0 x2 x3 x4 x5) (funext fun a => Fin.ext (by
    match a with
    | ⟨0, _⟩ => show (R.val * 1024 + C.val) / 64 % 16 = h.val; omega
    | ⟨1, _⟩ => show (R.val * 1024 + C.val) / 1024 = R.val; omega
    | ⟨2, _⟩ => show (R.val * 1024 + C.val) % 64 = d.val; omega))

/-- THE REFERENCE'S RESULT at `(R, 64 h + d)`, with the scale moved behind the contraction. -/
theorem reference_apply (R : Fin 2048) (C : Fin 1024) (h : Fin 16) (d : Fin 64) (hC : C.val = 64 * h.val + d.val) :
    val_main_v35 (F := Ideal) x0 x2 x3 x4 x5 (ix2 R C)
      = attendRow
          (scoresAfter (fun k => val_main_v12 (F := Ideal) x0 x2 x3 (ix3 h R k)) (fun l k => val_main_v20 (F := Ideal) x0 x4 x5 (ix3 h l k)))
          (fun l k => val_main_v20 (F := Ideal) x0 x4 x5 (ix3 h l k)) d := by
  rw [merged_apply x0 x2 x3 x4 x5 R C h d hC, out_apply, scoresBefore_eq_scoresAfter]

end Cert.KernelIdeal.HandValue
-- ==== Proof.R1Value.lean ====
import proofs.«404906_j953482739905_3_alg».proof.Proof.R1Frame
import proofs.«404906_j953482739905_3_alg».proof.Proof.R1Head
import proofs.«404906_j953482739905_3_alg».proof.Proof.R1Ref
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx (ix1 ix2 ix3)

/-! # What the attention call leaves in its result array

Each point `t` of the 8 × 4 grid, `(hp, qi) = (t / 4, t % 4)`, reads heads `2 hp` and `2 hp + 1` of the queries at rows
`512 qi …`, the same two heads of the values in full, and writes the `512 × 128` tile at block `(qi, hp)` of the result:
the two heads' attention outputs side by side. Entry `(512 qi + r, 128 hp + 64 p + d)` is head `2 hp + p` at query row
`512 qi + r`, coordinate `d` — the reference's merged result there. -/

variable (V : (c : Dev nD) → (b : Ref sig .tc) → Buf (Elt Ideal) ((c : Thread nD τ).loc b))

theorem zeroOff2 : (![0, 0] : Fin 2 → Nat) = fun _ => 0 :=
  funext fun a => match a with | ⟨0, _⟩ => rfl | ⟨1, _⟩ => rfl

/-! ## The loaded heads of a pair -/

theorem row_qHead0 (xq : Vec Ideal S2x512x64 .f32) (r : Fin 512) :
    headRow (View.ld xq qHead0) r = fun k => xq (ix3 (0 : Fin 2) r k) :=
  funext fun k => by
    show xq (qHead0.emb (ix3 (0 : Fin 1) r k)) = xq (ix3 (0 : Fin 2) r k)
    exact congrArg xq (funext fun a => Fin.ext (by
      match a with
      | ⟨0, _⟩ => rfl
      | ⟨1, _⟩ => show 0 + 1 * r.val = r.val; omega
      | ⟨2, _⟩ => show 0 + 1 * k.val = k.val; omega))

theorem row_qHead1 (xq : Vec Ideal S2x512x64 .f32) (r : Fin 512) :
    headRow (View.ld xq qHead1) r = fun k => xq (ix3 (1 : Fin 2) r k) :=
  funext fun k => by
    show xq (qHead1.emb (ix3 (0 : Fin 1) r k)) = xq (ix3 (1 : Fin 2) r k)
    exact congrArg xq (funext fun a => Fin.ext (by
      match a with
      | ⟨0, _⟩ => rfl
      | ⟨1, _⟩ => show 0 + 1 * r.val = r.val; omega
      | ⟨2, _⟩ => show 0 + 1 * k.val = k.val; omega))

theorem vals_vHead0 (xv : Vec Ideal S2x2048x64 .f32) :
    headVals (View.ld xv vHead0) = fun l k => xv (ix3 (0 : Fin 2) l k) :=
  funext fun l => funext fun k => by
    show xv (vHead0.emb (ix3 (0 : Fin 1) l k)) = xv (ix3 (0 : Fin 2) l k)
    exact congrArg xv (funext fun a => Fin.ext (by
      match a with
      | ⟨0, _⟩ => rfl
      | ⟨1, _⟩ => show 0 + 1 * l.val = l.val; omega
      | ⟨2, _⟩ => show 0 + 1 * k.val = k.val; omega))

theorem vals_vHead1 (xv : Vec Ideal S2x2048x64 .f32) :
    headVals (View.ld xv vHead1) = fun l k => xv (ix3 (1 : Fin 2) l k) :=
  funext fun l => funext fun k => by
    show xv (vHead1.emb (ix3 (0 : Fin 1) l k)) = xv (ix3 (1 : Fin 2) l k)
    exact congrArg xv (funext fun a => Fin.ext (by
      match a with
      | ⟨0, _⟩ => rfl
      | ⟨1, _⟩ => show 0 + 1 * l.val = l.val; omega
      | ⟨2, _⟩ => show 0 + 1 * k.val = k.val; omega))

/-! ## The tile a point leaves, from its two blocks -/

/-- The stored tile at `(r, 64 p + d)` is head `p` of the pair at row `r`, coordinate `d`. -/
theorem tile_apply (xq : Vec Ideal S2x512x64 .f32) (xv : Vec Ideal S2x2048x64 .f32) (r : Fin 512) (cc : Fin 128)
    (p : Fin 2) (d : Fin 64) (hcc : cc.val = 64 * p.val + d.val) :
    out1_2 (F := Ideal) xq xv (ix2 r cc)
      = attendRow (scoresAfter (fun k => xq (ix3 p r k)) (fun l k => xv (ix3 p l k))) (fun l k => xv (ix3 p l k)) d := by
  unfold out1_2
  rw [View.canon_unit_zero zeroOff2, pay1_eq, pay2_eq, pay3_eq, pay4_eq, pay5_eq]
  have hd := d.isLt
  obtain ⟨pv, hpv⟩ := p
  match pv, hpv with
  | 0, _ =>
    have hc : cc.val < 64 := by have : cc.val = 64 * 0 + d.val := hcc; omega
    rw [tile_left _ _ r cc hc, head_apply, row_qHead0, vals_vHead0]
    exact congrArg _ (Fin.ext (by show cc.val = d.val; have : cc.val = 64 * 0 + d.val := hcc; omega))
  | 1, _ =>
    have hc : 64 ≤ cc.val := by have : cc.val = 64 * 1 + d.val := hcc; omega
    rw [tile_right _ _ r cc hc, head_apply, row_qHead1, vals_vHead1]
    exact congrArg _ (Fin.ext (by show cc.val - 64 = d.val; have : cc.val = 64 * 1 + d.val := hcc; omega))

section Reference

variable (x0 : Vec Ideal S2048x4096 .f32) (x2 : Vec Ideal S1024x4096 .f32) (x3 : Vec Ideal S1024 .f32)
  (x4 : Vec Ideal S1024x4096 .f32) (x5 : Vec Ideal S1024 .f32)

/-- A point's tile against the reference: when the point's query block holds heads `2 hp`, `2 hp + 1` of the
    reference's query heads at rows `512 qi …` and its value block the same heads of the value heads, the tile at `y`
    is the reference's merged result at `(512 qi + y₀, 128 hp + y₁)`. -/
theorem tile_eq_reference (xq : Vec Ideal S2x512x64 .f32) (xv : Vec Ideal S2x2048x64 .f32) (hp qi : Nat)
    (hxq : ∀ (p : Fin 2) (r : Fin 512) (k : Fin 64) (h : Fin 16) (R : Fin 2048), h.val = 2 * hp + p.val → R.val = 512 * qi + r.val →
      xq (ix3 p r k) = Cert.ReferenceIdeal.Read.val_main_v12 (F := Ideal) x0 x2 x3 (ix3 h R k))
    (hxv : ∀ (p : Fin 2) (l : Fin 2048) (k : Fin 64) (h : Fin 16), h.val = 2 * hp + p.val →
      xv (ix3 p l k) = Cert.ReferenceIdeal.Read.val_main_v20 (F := Ideal) x0 x4 x5 (ix3 h l k))
    (y : S512x128.Idx) (i : S2048x1024.Idx) (hi0 : (i 0).val = 512 * qi + (y 0).val) (hi1 : (i 1).val = 128 * hp + (y 1).val) :
    out1_2 (F := Ideal) xq xv y = Cert.ReferenceIdeal.Read.val_main_v35 (F := Ideal) x0 x2 x3 x4 x5 i := by
  obtain ⟨r, cc, rfl⟩ : ∃ (r : Fin 512) (cc : Fin 128), y = ix2 r cc := ⟨y 0, y 1, ValueIdx.eq_ix2 y⟩
  obtain ⟨R, C, rfl⟩ : ∃ (R : Fin 2048) (C : Fin 1024), i = ix2 R C := ⟨i 0, i 1, ValueIdx.eq_ix2 i⟩
  have hR : R.val = 512 * qi + r.val := hi0
  have hC : C.val = 128 * hp + cc.val := hi1
  have hcc := cc.isLt
  have hCl := C.isLt
  have e1 := tile_apply xq xv r cc ⟨cc.val / 64, by omega⟩ ⟨cc.val % 64, Nat.mod_lt _ (by decide)⟩
    (by show cc.val = 64 * (cc.val / 64) + cc.val % 64; omega)
  have e2 := reference_apply x0 x2 x3 x4 x5 R C ⟨2 * hp + cc.val / 64, by omega⟩ ⟨cc.val % 64, Nat.mod_lt _ (by decide)⟩
    (by show C.val = 64 * (2 * hp + cc.val / 64) + cc.val % 64; omega)
  rw [e1, e2]
  have eq : (fun k => xq (ix3 (⟨cc.val / 64, by omega⟩ : Fin 2) r k))
      = fun k => Cert.ReferenceIdeal.Read.val_main_v12 (F := Ideal) x0 x2 x3 (ix3 (⟨2 * hp + cc.val / 64, by omega⟩ : Fin 16) R k) :=
    funext fun k => hxq _ r k _ R rfl hR
  have ev : (fun l k => xv (ix3 (⟨cc.val / 64, by omega⟩ : Fin 2) l k))
      = fun l k => Cert.ReferenceIdeal.Read.val_main_v20 (F := Ideal) x0 x4 x5 (ix3 (⟨2 * hp + cc.val / 64, by omega⟩ : Fin 16) l k) :=
    funext fun l => funext fun k => hxv _ l k _ rfl
  rw [eq, ev]

/-! ## The blocks of a point -/

/-- The printed index maps over the grid: `(hp, qi) = (t / 4, t % 4)`. -/
theorem points1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 2) = t.val % 4 ∧ win1_2.index t (1 : Fin 2) = t.val / 4 :=
  (by decide +kernel : ∀ t : Fin grid1.N, _)

/-- The query block of point `t`, read off the query heads. -/
theorem qblk_apply (c : Dev nD) (t : Fin cfg1.N) (p : Fin 2) (r : Fin 512) (k : Fin 64) (h : Fin 16) (R : Fin 2048)
    (hh : h.val = 2 * (t.val / 4) + p.val) (hR : R.val = 512 * (t.val % 4) + r.val) :
    (iblk1 V c 0 t : Vec Ideal S2x512x64 .f32) (ix3 p r k) = (V c main_v2 : S16x2048x64.Idx → EReal) (ix3 h R k) := by
  obtain ⟨e0, e1, e2, -⟩ := points1 t
  unfold iblk1
  rw [View.read_apply]
  show (V c main_v2 : S16x2048x64.Idx → EReal) _ = (V c main_v2 : S16x2048x64.Idx → EReal) _
  refine congrArg (V c main_v2 : S16x2048x64.Idx → EReal) (funext fun a => Fin.ext ?_)
  match a with
  | ⟨0, _⟩ => show win1_0.index t (0 : Fin 3) * 2 + 1 * p.val = h.val; rw [e0, hh]; omega
  | ⟨1, _⟩ => show win1_0.index t (1 : Fin 3) * 512 + 1 * r.val = R.val; rw [e1, hR]; omega
  | ⟨2, _⟩ => show win1_0.index t (2 : Fin 3) * 64 + 1 * k.val = k.val; rw [e2]; omega

/-- The value block of point `t`, read off the value heads. -/
theorem vblk_apply (c : Dev nD) (t : Fin cfg1.N) (p : Fin 2) (l : Fin 2048) (k : Fin 64) (h : Fin 16)
    (hh : h.val = 2 * (t.val / 4) + p.val) :
    (iblk1 V c 1 t : Vec Ideal S2x2048x64 .f32) (ix3 p l k) = (V c main_v4 : S16x2048x64.Idx → EReal) (ix3 h l k) := by
  obtain ⟨-, -, -, e0, e1, e2, -⟩ := points1 t
  unfold iblk1
  rw [View.read_apply]
  show (V c main_v4 : S16x2048x64.Idx → EReal) _ = (V c main_v4 : S16x2048x64.Idx → EReal) _
  refine congrArg (V c main_v4 : S16x2048x64.Idx → EReal) (funext fun a => Fin.ext ?_)
  match a with
  | ⟨0, _⟩ => show win1_1.index t (0 : Fin 3) * 2 + 1 * p.val = h.val; rw [e0, hh]; omega
  | ⟨1, _⟩ => show win1_1.index t (1 : Fin 3) * 2048 + 1 * l.val = l.val; rw [e1]; omega
  | ⟨2, _⟩ => show win1_1.index t (2 : Fin 3) * 64 + 1 * k.val = k.val; rw [e2]; omega

/-- WHAT POINT `t` WRITES BACK is block `t` of the reference's merged result. -/
theorem flushed1_eq (c : Dev nD)
    (hq : V c main_v2 = Cert.ReferenceIdeal.Read.val_main_v12 (F := Ideal) x0 x2 x3)
    (hv : V c main_v4 = Cert.ReferenceIdeal.Read.val_main_v20 (F := Ideal) x0 x4 x5) (t : Fin cfg1.N) :
    (dat1 (F := Ideal) V c).flushed 2 t
      = ((cfg1.win 2).blk t).view.read (Elt Ideal) (Cert.ReferenceIdeal.Read.val_main_v35 (F := Ideal) x0 x2 x3 x4 x5) := by
  show (cfg1.win 2).cut (grid1.coords t) ((dat1 (F := Ideal) V c).after 2 t) = _
  rw [after1_2]
  obtain ⟨-, -, -, -, -, -, e0, e1⟩ := points1 t
  funext y
  rw [View.read_apply]
  refine tile_eq_reference x0 x2 x3 x4 x5 (iblk1 V c 0 t) (iblk1 V c 1 t) (t.val / 4) (t.val % 4)
    (fun p r k h R hh hR => (qblk_apply V c t p r k h R hh hR).trans (congrFun hq (ix3 h R k)))
    (fun p l k h hh => (vblk_apply V c t p l k h hh).trans (congrFun hv (ix3 h l k)))
    ((cfg1.win 2).xinj (grid1.coords t) y) (((cfg1.win 2).blk t).view.emb y) ?_ ?_
  · show win1_2.index t (0 : Fin 2) * 512 + 1 * (y 0).val = 512 * (t.val % 4) + (y 0).val
    rw [e0]; omega
  · show win1_2.index t (1 : Fin 2) * 128 + 1 * (y 1).val = 128 * (t.val / 4) + (y 1).val
    rw [e1]; omega

/-- An index of the result is in point `t`'s block iff each coordinate is in the block's range on its axis. -/
theorem mem_tile (t : Fin cfg1.N) (i : S2048x1024.Idx) :
    i ∈ ((cfg1.win 2).blk t).view.set ↔ ∀ a : Fin 2, win1_2.index t a * S512x128.size a ≤ (i a).val ∧ (i a).val < win1_2.index t a * S512x128.size a + S512x128.size a := by
  show i ∈ ((View.whole main_v5).slice (win1_2.rect t)).set ↔ _
  rw [View.set_slice_whole, Rect.mem_set_unit]
  exact Iff.rfl

/-- The tiles cover the result: `(R, C)` lies in the tile of point `4 (C / 128) + R / 512`. -/
theorem tiles_cover (i : S2048x1024.Idx) :
    ∃ t : Fin cfg1.N, (cfg1.win 2).flush t = true ∧ i ∈ ((cfg1.win 2).blk t).view.set := by
  have h0 : (i 0).val < 2048 := (i 0).isLt
  have h1 : (i 1).val < 1024 := (i 1).isLt
  have hN : cfg1.N = 32 := N_1
  refine ⟨⟨4 * ((i 1).val / 128) + (i 0).val / 512, by rw [hN]; omega⟩, flush1_2 _, ?_⟩
  obtain ⟨-, -, -, -, -, -, e0, e1⟩ := points1 ⟨4 * ((i 1).val / 128) + (i 0).val / 512, by rw [hN]; omega⟩
  rw [mem_tile]
  intro a
  match a with
  | ⟨0, _⟩ =>
    show win1_2.index _ (0 : Fin 2) * 512 ≤ (i 0).val ∧ (i 0).val < win1_2.index _ (0 : Fin 2) * 512 + 512
    rw [e0]
    show (4 * ((i 1).val / 128) + (i 0).val / 512) % 4 * 512 ≤ (i 0).val ∧ (i 0).val < (4 * ((i 1).val / 128) + (i 0).val / 512) % 4 * 512 + 512
    omega
  | ⟨1, _⟩ =>
    show win1_2.index _ (1 : Fin 2) * 128 ≤ (i 1).val ∧ (i 1).val < win1_2.index _ (1 : Fin 2) * 128 + 128
    rw [e1]
    show (4 * ((i 1).val / 128) + (i 0).val / 512) / 4 * 128 ≤ (i 1).val ∧ (i 1).val < (4 * ((i 1).val / 128) + (i 0).val / 512) / 4 * 128 + 128
    omega

end Reference

/-- THE RESULT ARRAY after the attention call is the reference's merged result of the heads, given the query heads
    and the value heads it was entered with. -/
theorem region1_o (c : Dev nD) (x0 : Vec Ideal S2048x4096 .f32) (x2 : Vec Ideal S1024x4096 .f32) (x3 : Vec Ideal S1024 .f32)
    (x4 : Vec Ideal S1024x4096 .f32) (x5 : Vec Ideal S1024 .f32)
    (hq : V c main_v2 = Cert.ReferenceIdeal.Read.val_main_v12 (F := Ideal) x0 x2 x3)
    (hv : V c main_v4 = Cert.ReferenceIdeal.Read.val_main_v20 (F := Ideal) x0 x4 x5) :
    (dat1 (F := Ideal) V c).arrAt 2 cfg1.N = Cert.ReferenceIdeal.Read.val_main_v35 (F := Ideal) x0 x2 x3 x4 x5 :=
  (dat1 (F := Ideal) V c).arrAt_eq_of_cover 2 (Cert.ReferenceIdeal.Read.val_main_v35 (F := Ideal) x0 x2 x3 x4 x5)
    (fun t _ => flushed1_eq V x0 x2 x3 x4 x5 c hq hv t) tiles_cover

end Cert.KernelIdeal.HandValue
-- ==== Proof.R2Frame.lean ====
import proofs.«404906_j953482739905_3_alg».proof.Proof.Gen.KernelIdeal.Launch
import proofs.«404906_j953482739905_3_alg».proof.Proof.Gen.KernelIdeal.Skeleton
import proofs.«404906_j953482739905_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The third kernel launch (the gated, fused final projection) at the entry contents `V`

Nine windows over a grid of sixteen row blocks. Windows 0 and 5 hand the point its 128 rows of the attention bias and
of the attention output; windows 1–4, 6, 7 hold the three weight matrices and their bias vectors whole, brought in
once at the first point; window 8 is the point's 128 rows of the result, written back at every point. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the one store take a staging buffer whole -/

/-- the whole 128×2048 block of the attention bias -/
abbrev wholeBias : Rect S128x2048 := Rect.unit (s := S128x2048) ![0, 0] S128x2048.size inb_S128x2048_S128x2048_0_0
/-- the whole 1024×2048 weight of the first linear map -/
abbrev wholeWlin : Rect S1024x2048 := Rect.unit (s := S1024x2048) ![0, 0] S1024x2048.size inb_S1024x2048_S1024x2048_0_0
/-- a whole bias vector of 1024 entries -/
abbrev wholeVec : Rect S1024 := Rect.unit (s := S1024) ![0] S1024.size inb_S1024_S1024_0
/-- a whole 1024×1024 weight (the gate's, the output projection's) -/
abbrev wholeSquare : Rect S1024x1024 := Rect.unit (s := S1024x1024) ![0, 0] S1024x1024.size inb_S1024x1024_S1024x1024_0_0
/-- a whole block of 128 rows by 1024 columns (the attention output's, the result's) -/
abbrev wholeRows : Rect S128x1024 := Rect.unit (s := S128x1024) ![0, 0] S128x1024.size inb_S128x1024_S128x1024_0_0

/-! ## What the body leaves in the result window's buffer -/

/-- Window 8's staging buffer after the body, from the eight input blocks: its one store, of the whole buffer,
    whose payload is the gated projection of the eight whole loads. -/
def out2_8 (x0 : Vec F S128x2048 .f32) (x1 : Vec F S1024x2048 .f32) (x2 : Vec F S1024 .f32) (x3 : Vec F S1024x1024 .f32) (x4 : Vec F S1024 .f32) (x5 : Vec F S128x1024 .f32) (x6 : Vec F S1024x1024 .f32) (x7 : Vec F S1024 .f32) : Vec F S128x1024 .f32 :=
  View.canon [⟨wholeRows, k2_pay1 (View.ld x0 wholeBias) (View.ld x1 wholeWlin) (View.ld x2 wholeVec) (View.ld x3 wholeSquare) (View.ld x4 wholeVec) (View.ld x5 wholeRows) (View.ld x6 wholeSquare) (View.ld x7 wholeVec)⟩]

/-- The one store is of the whole buffer, so it covers it. -/
theorem cover2_8 (p0 : Vec F S128x1024 .f32) (y : S128x1024.Idx) :
    ∃ pc ∈ ([⟨wholeRows, p0⟩] : List (View.Piece (Elt F) S128x1024 .f32)), y ∈ pc.1.set :=
  View.cover_of_tiled [⟨wholeRows, p0⟩] S128x1024.size (by rfl) y

/-! ## The body's triple -/

set_option maxHeartbeats 4000000 in
/-- The kernel body on whole staging memrefs, the eight inputs' at read contents `xW` and the result's at anything,
    runs to the continuation holding the inputs' as they were and the result's at `out2_8` of the inputs': eight
    whole loads, a load of the result buffer whose value nothing reads, and one whole store. -/
theorem sound_kernel2 (c : Dev nD) (E : Set ℕ) (i : grid2.Coords) (arg1 : Memref sig .tc .vmem S128x2048 .f32) (harg1 : arg1.IsWhole) (arg2 : Memref sig .tc .vmem S1024x2048 .f32) (harg2 : arg2.IsWhole) (arg3 : Memref sig .tc .vmem S1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S128x1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S128x1024 .f32) (harg9 : arg9.IsWhole)
    (x0 : Vec F S128x2048 .f32) (x1 : Vec F S1024x2048 .f32) (x2 : Vec F S1024 .f32) (x3 : Vec F S1024x1024 .f32) (x4 : Vec F S1024 .f32) (x5 : Vec F S128x1024 .f32) (x6 : Vec F S1024x1024 .f32) (x7 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__gated_final_fused_kernel i arg1 harg1 arg2 harg2 arg3 harg3 arg4 harg4 arg5 harg5 arg6 harg6 arg7 harg7 arg8 harg8 arg9 harg9) K := by
  simp only [cc2__gated_final_fused_kernel_eq_skeleton]; unfold cc2__gated_final_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of this pipeline on core `c`: the arrays as the region finds them (`V`); after the body at point
    `t` each input's buffer at its block and the result's at `out2_8` of the eight input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-! ## Each input's staging buffer holds its block at every point

Windows 0 and 5 are fetched at every point. The weights and bias vectors are fetched at the first point only; at a
later point the buffer still holds what the body left at the point before, which is the block there, and the block
index has not moved since (every point asks for block 0 of an array that is one block). -/

/-- the attention bias's rows: the current buffer of window 0 holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- the first linear map's weight: the current buffer of window 1 holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- the first linear map's bias: the current buffer of window 2 holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- the gate's weight: the current buffer of window 3 holds its block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- the gate's bias: the current buffer of window 4 holds its block at every point, fetched there or not. -/
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- the attention output's rows: the current buffer of window 5 holds its block at every point, fetched there or not. -/
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- the output projection's weight: the current buffer of window 6 holds its block at every point, fetched there or not. -/
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-- the output projection's bias: the current buffer of window 7 holds its block at every point, fetched there or not. -/
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.R2Value.lean ====
/-
  What the third pipelined region (the gated residual and the output projection) leaves in the result array, read
  against the reference's own stages.

  For a row block of the attention bias ab [128, 2048] and of the attention output o [128, 1024] the region's one
  payload is
      res   = ab · Wlinᵀ + blin                        (rows of [1024])
      gate  = logistic (res · Wresᵀ + bres)
      out   = (o · Woᵀ + bo) + res * gate,
  every product contracted over the second axis of both factors, the accumulator the zero splat, the format changes the
  identity at the ideal values. The reference computes the same row by row of the whole arrays: it transposes each
  weight and contracts a first axis (so the same entries meet in the same order), adds each bias broadcast along the
  rows, and spells the logistic function as negate, exponential, add one, divide one by it, which is the ideal
  instance's definition of the kernel's one operation. So each element of a block is the reference's final stage at the
  block's row, and the sixteen row blocks cover the result.
-/
import proofs.«404906_j953482739905_3_alg».proof.Proof.R2Frame
import proofs.«404906_j953482739905_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

/-! ## The two contractions of the region, read at an element

Both of the region's dimension records contract axis 1 of the left factor with axis 1 of the right one; the result's
row is the left factor's row and the result's column is the right factor's ROW. -/

theorem lhs_wide_0 (i : S128x1024.Idx) (q : dot_S128x2048_S1024x2048_S128x1024_1_1_0_0_n_n.contr.Idx) :
    (dot_S128x2048_S1024x2048_S128x1024_1_1_0_0_n_n.lhsIdx i q 0).val = (i 0).val := by
  unfold DotDims.lhsIdx
  rw [dif_neg (show ¬(0 : Fin S128x2048.rank) ∈ dot_S128x2048_S1024x2048_S128x1024_1_1_0_0_n_n.lhsBatch by decide), dif_pos (show (0 : Fin S128x2048.rank) ∈ dot_S128x2048_S1024x2048_S128x1024_1_1_0_0_n_n.lhsNonContracting by decide)]
  rfl
theorem lhs_wide_1 (i : S128x1024.Idx) (q : dot_S128x2048_S1024x2048_S128x1024_1_1_0_0_n_n.contr.Idx) :
    (dot_S128x2048_S1024x2048_S128x1024_1_1_0_0_n_n.lhsIdx i q 1).val = (q ⟨0, by decide⟩).val :=
  dot_S128x2048_S1024x2048_S128x1024_1_1_0_0_n_n.lhsIdx_val_of_single rfl i q
theorem rhs_wide_0 (i : S128x1024.Idx) (q : dot_S128x2048_S1024x2048_S128x1024_1_1_0_0_n_n.contr.Idx) :
    (dot_S128x2048_S1024x2048_S128x1024_1_1_0_0_n_n.rhsIdx i q 0).val = (i 1).val := by
  unfold DotDims.rhsIdx
  rw [dif_neg (show ¬(0 : Fin S1024x2048.rank) ∈ dot_S128x2048_S1024x2048_S128x1024_1_1_0_0_n_n.rhsBatch by decide), dif_pos (show (0 : Fin S1024x2048.rank) ∈ dot_S128x2048_S1024x2048_S128x1024_1_1_0_0_n_n.rhsNonContracting by decide)]
  rfl
theorem rhs_wide_1 (i : S128x1024.Idx) (q : dot_S128x2048_S1024x2048_S128x1024_1_1_0_0_n_n.contr.Idx) :
    (dot_S128x2048_S1024x2048_S128x1024_1_1_0_0_n_n.rhsIdx i q 1).val = (q ⟨0, by decide⟩).val :=
  dot_S128x2048_S1024x2048_S128x1024_1_1_0_0_n_n.rhsIdx_val_of_single rfl i q

/-- The bias block times the first weight, both contracted over their 2048 columns, into the zero splat. -/
theorem matmul_wide_apply {φ₁ φ₂ : FTy} (a : FVec Ideal S128x2048 φ₁) (w : FVec Ideal S1024x2048 φ₂) (p : Fin 128) (q : Fin 1024) :
    FloatOps.matmul dot_S128x2048_S1024x2048_S128x1024_1_1_0_0_n_n none a w (constant S128x1024 .f32 0x00000000#32) (ix2 p q)
      = ∑ k : Fin 2048, a (ix2 p k) * w (ix2 q k) := by
  rw [Ideal.matmul_constant_zero_apply, ← Equiv.sum_comp (ValueIdx.contrEquiv1 dot_S128x2048_S1024x2048_S128x1024_1_1_0_0_n_n 2048 rfl rfl).symm]
  refine Finset.sum_congr rfl fun k _ => ?_
  have hk := ValueIdx.contrEquiv1_symm_val dot_S128x2048_S1024x2048_S128x1024_1_1_0_0_n_n 2048 rfl rfl k
  have el : dot_S128x2048_S1024x2048_S128x1024_1_1_0_0_n_n.lhsIdx (ix2 p q) ((ValueIdx.contrEquiv1 dot_S128x2048_S1024x2048_S128x1024_1_1_0_0_n_n 2048 rfl rfl).symm k) = ix2 p k := funext fun b => Fin.ext (by
    match b with
    | ⟨0, _⟩ => exact lhs_wide_0 _ _
    | ⟨1, _⟩ => exact (lhs_wide_1 _ _).trans hk)
  have er : dot_S128x2048_S1024x2048_S128x1024_1_1_0_0_n_n.rhsIdx (ix2 p q) ((ValueIdx.contrEquiv1 dot_S128x2048_S1024x2048_S128x1024_1_1_0_0_n_n 2048 rfl rfl).symm k) = ix2 q k := funext fun b => Fin.ext (by
    match b with
    | ⟨0, _⟩ => exact rhs_wide_0 _ _
    | ⟨1, _⟩ => exact (rhs_wide_1 _ _).trans hk)
  rw [el, er]

theorem lhs_sq_0 (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
theorem lhs_sq_1 (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
theorem rhs_sq_0 (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
theorem rhs_sq_1 (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

/-- A [128, 1024] block times a square weight, both contracted over their 1024 columns, into the zero splat. -/
theorem matmul_sq_apply {φ₁ φ₂ : FTy} (a : FVec Ideal S128x1024 φ₁) (w : FVec Ideal S1024x1024 φ₂) (p : Fin 128) (q : Fin 1024) :
    FloatOps.matmul dot_S128x1024_S1024x1024_S128x1024_1_1_0_0_n_n none a w (constant S128x1024 .f32 0x00000000#32) (ix2 p q)
      = ∑ k : Fin 1024, a (ix2 p k) * w (ix2 q k) := by
  rw [Ideal.matmul_constant_zero_apply, ← Equiv.sum_comp (ValueIdx.contrEquiv1 dot_S128x1024_S1024x1024_S128x1024_1_1_0_0_n_n 1024 rfl rfl).symm]
  refine Finset.sum_congr rfl fun k _ => ?_
  have hk := ValueIdx.contrEquiv1_symm_val dot_S128x1024_S1024x1024_S128x1024_1_1_0_0_n_n 1024 rfl rfl k
  have el : dot_S128x1024_S1024x1024_S128x1024_1_1_0_0_n_n.lhsIdx (ix2 p q) ((ValueIdx.contrEquiv1 dot_S128x1024_S1024x1024_S128x1024_1_1_0_0_n_n 1024 rfl rfl).symm k) = ix2 p k := funext fun b => Fin.ext (by
    match b with
    | ⟨0, _⟩ => exact lhs_sq_0 _ _
    | ⟨1, _⟩ => exact (lhs_sq_1 _ _).trans hk)
  have er : dot_S128x1024_S1024x1024_S128x1024_1_1_0_0_n_n.rhsIdx (ix2 p q) ((ValueIdx.contrEquiv1 dot_S128x1024_S1024x1024_S128x1024_1_1_0_0_n_n 1024 rfl rfl).symm k) = ix2 q k := funext fun b => Fin.ext (by
    match b with
    | ⟨0, _⟩ => exact rhs_sq_0 _ _
    | ⟨1, _⟩ => exact (rhs_sq_1 _ _).trans hk)
  rw [el, er]

/-- A bias vector cast to one row and broadcast down the 128 rows reads the bias at the column. -/
theorem bias_rows_apply {α : Type} (b : S1024.Idx → α) (p : Fin 128) (q : Fin 1024) :
    broadcastTo S128x1024 (shapeCast S1x1024 b shapeCasts_S1024_S1x1024) broadcasts_S1x1024_S128x1024 (ix2 p q) = b (ix1 q) :=
  (broadcastTo_1b_ab_apply _ broadcasts_S1x1024_S128x1024 p q).trans (shapeCast_a_1a_apply b shapeCasts_S1024_S1x1024 0 q)

/-! ## The payload at an element -/

/-- The kernel's logistic operation at an element is the ideal values' logistic function of the element. -/
theorem logistic_at {s : Shape} {φ : FTy} (x : FVec Ideal s φ) (i : s.Idx) : logistic x i = Ideal.logistic (x i) := rfl

/-- The region's one payload at row p and column q of its block: the output projection of the attention output's row
    plus the gated residual, the residual being the bias row through the first linear map and the gate the logistic
    function of the residual through the second. -/
theorem pay_apply (x0 : Vec Ideal S128x2048 .f32) (x1 : Vec Ideal S1024x2048 .f32) (x2 : Vec Ideal S1024 .f32)
    (x3 : Vec Ideal S1024x1024 .f32) (x4 : Vec Ideal S1024 .f32) (x5 : Vec Ideal S128x1024 .f32)
    (x6 : Vec Ideal S1024x1024 .f32) (x7 : Vec Ideal S1024 .f32) (p : Fin 128) (q : Fin 1024) :
    k2_pay1 x0 x1 x2 x3 x4 x5 x6 x7 (ix2 p q)
      = ((∑ k : Fin 1024, x5 (ix2 p k) * x6 (ix2 q k)) + x7 (ix1 q))
        + ((∑ j : Fin 2048, x0 (ix2 p j) * x1 (ix2 q j)) + x2 (ix1 q))
          * Ideal.logistic ((∑ k : Fin 1024, ((∑ j : Fin 2048, x0 (ix2 p j) * x1 (ix2 k j)) + x2 (ix1 k)) * x3 (ix2 q k)) + x4 (ix1 q)) := by
  unfold k2_pay1
  simp only [matmul, addf_apply, mulf_apply, logistic_at, matmul_sq_apply, matmul_wide_apply, bias_rows_apply, truncf_apply,
    shapeCast_self]

/-! ## The reference's stages at an element

Each stage of the reference from the transposed first weight to the final sum, read at row r and column q through
the generated index lemmas, with the index functions evaluated at coordinates. -/

/-- The word of the float one is the extended real one. -/
theorem one_word : Ideal.ofBits .f32 0x3F800000#32 = 1 := by
  simp [Ideal.ofBits, Ideal.ieee, -EReal.coe_mul]; norm_num

section Reference
open Cert.ReferenceIdeal.Read

variable (y0 : (⟨S2048x4096, .f32⟩ : BufTy).Contents (Elt Ideal)) (y1 : (⟨S2048x2048, .f32⟩ : BufTy).Contents (Elt Ideal))
  (y2 : (⟨S1024x4096, .f32⟩ : BufTy).Contents (Elt Ideal)) (y3 : (⟨S1024, .f32⟩ : BufTy).Contents (Elt Ideal))
  (y4 : (⟨S1024x4096, .f32⟩ : BufTy).Contents (Elt Ideal)) (y5 : (⟨S1024, .f32⟩ : BufTy).Contents (Elt Ideal))
  (y6 : (⟨S1024x2048, .f32⟩ : BufTy).Contents (Elt Ideal)) (y7 : (⟨S1024, .f32⟩ : BufTy).Contents (Elt Ideal))
  (y8 : (⟨S1024x1024, .f32⟩ : BufTy).Contents (Elt Ideal)) (y9 : (⟨S1024, .f32⟩ : BufTy).Contents (Elt Ideal))
  (y10 : (⟨S1024x1024, .f32⟩ : BufTy).Contents (Elt Ideal)) (y11 : (⟨S1024, .f32⟩ : BufTy).Contents (Elt Ideal))

/-- The first weight transposed. -/
theorem wlinT_at (k : Fin 2048) (q : Fin 1024) : val_main_v36 (F := Ideal) y6 (ix2 k q) = y6 (ix2 q k) :=
  (val_main_v36_apply y6 _).trans (congrArg y6 (funext fun a => Fin.ext (by
    match a with
    | ⟨0, _⟩ => rfl
    | ⟨1, _⟩ => rfl)))

/-- The bias row through the first weight. -/
theorem abWlin_at (r : Fin 2048) (q : Fin 1024) :
    val_main_v37 (F := Ideal) y1 y6 (ix2 r q) = ∑ k : Fin 2048, y1 (ix2 r k) * y6 (ix2 q k) := by
  rw [val_main_v37_apply]
  refine Finset.sum_congr rfl fun k _ => ?_
  have el : lidx_main_v37 (ix2 r q) k = ix2 r k := funext fun a => Fin.ext (by
    match a with
    | ⟨0, _⟩ => rfl
    | ⟨1, _⟩ => rfl)
  have er : ridx_main_v37 (ix2 r q) k = ix2 k q := funext fun a => Fin.ext (by
    match a with
    | ⟨0, _⟩ => rfl
    | ⟨1, _⟩ => rfl)
  rw [el, er, wlinT_at]

/-- The first bias along the rows. -/
theorem blinRows_at (r : Fin 2048) (q : Fin 1024) : val_main_v39 (F := Ideal) y7 (ix2 r q) = y7 (ix1 q) := by
  rw [val_main_v39_apply, val_main_v38_apply]
  exact congrArg y7 (funext fun a => Fin.ext (by
    match a with
    | ⟨0, _⟩ => rfl))

/-- The residual: the bias row through the first linear map. -/
theorem res_at (r : Fin 2048) (q : Fin 1024) :
    val_main_v40 (F := Ideal) y1 y6 y7 (ix2 r q) = (∑ k : Fin 2048, y1 (ix2 r k) * y6 (ix2 q k)) + y7 (ix1 q) := by
  rw [val_main_v40_apply, abWlin_at, blinRows_at]
  rfl

/-- The gate's weight transposed. -/
theorem wresT_at (k q : Fin 1024) : val_main_v41 (F := Ideal) y8 (ix2 k q) = y8 (ix2 q k) :=
  (val_main_v41_apply y8 _).trans (congrArg y8 (funext fun a => Fin.ext (by
    match a with
    | ⟨0, _⟩ => rfl
    | ⟨1, _⟩ => rfl)))

/-- The residual's row through the gate's weight. -/
theorem resWres_at (r : Fin 2048) (q : Fin 1024) :
    val_main_v42 (F := Ideal) y1 y6 y7 y8 (ix2 r q)
      = ∑ k : Fin 1024, ((∑ j : Fin 2048, y1 (ix2 r j) * y6 (ix2 k j)) + y7 (ix1 k)) * y8 (ix2 q k) := by
  rw [val_main_v42_apply]
  refine Finset.sum_congr rfl fun k _ => ?_
  have el : lidx_main_v42 (ix2 r q) k = ix2 r k := funext fun a => Fin.ext (by
    match a with
    | ⟨0, _⟩ => rfl
    | ⟨1, _⟩ => rfl)
  have er : ridx_main_v42 (ix2 r q) k = ix2 k q := funext fun a => Fin.ext (by
    match a with
    | ⟨0, _⟩ => rfl
    | ⟨1, _⟩ => rfl)
  rw [el, er, wresT_at, res_at]

/-- The gate's bias along the rows. -/
theorem bresRows_at (r : Fin 2048) (q : Fin 1024) : val_main_v44 (F := Ideal) y9 (ix2 r q) = y9 (ix1 q) := by
  rw [val_main_v44_apply, val_main_v43_apply]
  exact congrArg y9 (funext fun a => Fin.ext (by
    match a with
    | ⟨0, _⟩ => rfl))

/-- The gate's argument: the residual through the second linear map. -/
theorem gateArg_at (r : Fin 2048) (q : Fin 1024) :
    val_main_v45 (F := Ideal) y1 y6 y7 y8 y9 (ix2 r q)
      = (∑ k : Fin 1024, ((∑ j : Fin 2048, y1 (ix2 r j) * y6 (ix2 k j)) + y7 (ix1 k)) * y8 (ix2 q k)) + y9 (ix1 q) := by
  rw [val_main_v45_apply, resWres_at, bresRows_at]
  rfl

/-- The gate: the reference's negate, exponential, add one, divide one by it IS the logistic function. -/
theorem gate_at (i : S2048x1024.Idx) :
    val_main_v51 (F := Ideal) y1 y6 y7 y8 y9 i = Ideal.logistic (val_main_v45 (F := Ideal) y1 y6 y7 y8 y9 i) := by
  rw [val_main_v51_apply, val_main_v50_apply, val_main_cst_4_apply, val_main_v49_apply, val_main_v48_apply,
    val_main_cst_3_apply, val_main_v47_apply, val_main_v46_apply]
  show Ideal.div (Ideal.ofBits .f32 0x3F800000#32) (Ideal.ofBits .f32 0x3F800000#32 + Ideal.exp (-(val_main_v45 (F := Ideal) y1 y6 y7 y8 y9 i))) = _
  rw [one_word]
  rfl

/-- The gated residual. -/
theorem gated_at (r : Fin 2048) (q : Fin 1024) :
    val_main_v52 (F := Ideal) y1 y6 y7 y8 y9 (ix2 r q)
      = ((∑ j : Fin 2048, y1 (ix2 r j) * y6 (ix2 q j)) + y7 (ix1 q))
        * Ideal.logistic ((∑ k : Fin 1024, ((∑ j : Fin 2048, y1 (ix2 r j) * y6 (ix2 k j)) + y7 (ix1 k)) * y8 (ix2 q k)) + y9 (ix1 q)) := by
  rw [val_main_v52_apply, res_at, gate_at, gateArg_at]
  rfl

/-- The output projection's weight transposed. -/
theorem woT_at (k q : Fin 1024) : val_main_v53 (F := Ideal) y10 (ix2 k q) = y10 (ix2 q k) :=
  (val_main_v53_apply y10 _).trans (congrArg y10 (funext fun a => Fin.ext (by
    match a with
    | ⟨0, _⟩ => rfl
    | ⟨1, _⟩ => rfl)))

/-- The attention output's row through the output projection's weight; the attention output stays the opaque stage it is. -/
theorem oWo_at (r : Fin 2048) (q : Fin 1024) :
    val_main_v54 (F := Ideal) y0 y2 y3 y4 y5 y10 (ix2 r q)
      = ∑ k : Fin 1024, val_main_v35 (F := Ideal) y0 y2 y3 y4 y5 (ix2 r k) * y10 (ix2 q k) := by
  rw [val_main_v54_apply]
  refine Finset.sum_congr rfl fun k _ => ?_
  have el : lidx_main_v54 (ix2 r q) k = ix2 r k := funext fun a => Fin.ext (by
    match a with
    | ⟨0, _⟩ => rfl
    | ⟨1, _⟩ => rfl)
  have er : ridx_main_v54 (ix2 r q) k = ix2 k q := funext fun a => Fin.ext (by
    match a with
    | ⟨0, _⟩ => rfl
    | ⟨1, _⟩ => rfl)
  rw [el, er, woT_at]

/-- The output projection's bias along the rows. -/
theorem boRows_at (r : Fin 2048) (q : Fin 1024) : val_main_v56 (F := Ideal) y11 (ix2 r q) = y11 (ix1 q) := by
  rw [val_main_v56_apply, val_main_v55_apply]
  exact congrArg y11 (funext fun a => Fin.ext (by
    match a with
    | ⟨0, _⟩ => rfl))

/-- THE REFERENCE'S RESULT at row r and column q. -/
theorem ref_apply (r : Fin 2048) (q : Fin 1024) :
    val_main_v58 (F := Ideal) y0 y1 y2 y3 y4 y5 y6 y7 y8 y9 y10 y11 (ix2 r q)
      = ((∑ k : Fin 1024, val_main_v35 (F := Ideal) y0 y2 y3 y4 y5 (ix2 r k) * y10 (ix2 q k)) + y11 (ix1 q))
        + ((∑ j : Fin 2048, y1 (ix2 r j) * y6 (ix2 q j)) + y7 (ix1 q))
          * Ideal.logistic ((∑ k : Fin 1024, ((∑ j : Fin 2048, y1 (ix2 r j) * y6 (ix2 k j)) + y7 (ix1 k)) * y8 (ix2 q k)) + y9 (ix1 q)) := by
  rw [val_main_v58_apply, val_main_v57_apply, oWo_at, boRows_at, gated_at]
  rfl

/-- A BLOCK'S ELEMENT IS THE REFERENCE'S: when row p of the two row blocks is row r of the attention bias and of the
    attention output, the payload at (p, q) is the reference's result at (r, q). -/
theorem pay_eq_ref (x0 : Vec Ideal S128x2048 .f32) (x5 : Vec Ideal S128x1024 .f32) (r : Fin 2048) (p : Fin 128) (q : Fin 1024)
    (h0 : ∀ j : Fin 2048, x0 (ix2 p j) = y1 (ix2 r j))
    (h5 : ∀ k : Fin 1024, x5 (ix2 p k) = val_main_v35 (F := Ideal) y0 y2 y3 y4 y5 (ix2 r k)) :
    k2_pay1 x0 y6 y7 y8 y9 x5 y10 y11 (ix2 p q) = val_main_v58 (F := Ideal) y0 y1 y2 y3 y4 y5 y6 y7 y8 y9 y10 y11 (ix2 r q) := by
  rw [pay_apply, ref_apply]
  simp only [h0, h5]

end Reference

/-! ## From the blocks to the array -/

section Blocks
open Cert.ReferenceIdeal.Read

-- the TensorCore's buffer contents when the region is entered
variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed index maps, decided over the sixteen points: the two row-blocked inputs and the result move down the
    rows with the point; every weight and bias vector stays at its one block. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- The attention bias's block at point t is rows 128 t … 128 t + 127 of the array. -/
theorem biasBlock_apply (c : Dev nD) (t : Fin cfg2.N) (x : S128x2048.Idx) (k : S2048x2048.Idx)
    (hk0 : (k 0).val = 128 * t.val + (x 0).val) (hk1 : (k 1).val = (x 1).val) :
    (iblk2 V c 0 t : Vec Ideal S128x2048 .f32) x = (V c main_arg1 : S2048x2048.Idx → Elt Ideal .f32) k := by
  obtain ⟨e0, e1, -⟩ := index_facts t
  unfold iblk2
  rw [View.read_apply]
  show V c main_arg1 _ = V c main_arg1 _
  congr 1
  funext a
  apply Fin.ext
  match a with
  | ⟨0, _⟩ => show win2_0.index t 0 * 128 + 1 * (x 0).val = (k 0).val; rw [e0, hk0]; omega
  | ⟨1, _⟩ => show win2_0.index t 1 * 2048 + 1 * (x 1).val = (k 1).val; rw [e1, hk1]; omega

/-- The attention output's block at point t is rows 128 t … 128 t + 127 of the array. -/
theorem attnBlock_apply (c : Dev nD) (t : Fin cfg2.N) (x : S128x1024.Idx) (k : S2048x1024.Idx)
    (hk0 : (k 0).val = 128 * t.val + (x 0).val) (hk1 : (k 1).val = (x 1).val) :
    (iblk2 V c 5 t : Vec Ideal S128x1024 .f32) x = (V c main_v5 : S2048x1024.Idx → Elt Ideal .f32) k := by
  obtain ⟨-, -, -, -, -, -, -, -, e0, e1, -⟩ := index_facts t
  unfold iblk2
  rw [View.read_apply]
  show V c main_v5 _ = V c main_v5 _
  congr 1
  funext a
  apply Fin.ext
  match a with
  | ⟨0, _⟩ => show win2_5.index t 0 * 128 + 1 * (x 0).val = (k 0).val; rw [e0, hk0]; omega
  | ⟨1, _⟩ => show win2_5.index t 1 * 1024 + 1 * (x 1).val = (k 1).val; rw [e1, hk1]; omega

/-- The first weight's one block is the whole array, at every point. -/
theorem wlinBlock_eq (c : Dev nD) (t : Fin cfg2.N) :
    (iblk2 V c 1 t : Vec Ideal S1024x2048 .f32) = (V c main_arg6 : S1024x2048.Idx → Elt Ideal .f32) := by
  obtain ⟨-, -, e0, e1, -⟩ := index_facts t
  funext x
  unfold iblk2
  rw [View.read_apply]
  show V c main_arg6 _ = V c main_arg6 x
  congr 1
  funext a
  apply Fin.ext
  match a with
  | ⟨0, _⟩ => show win2_1.index t 0 * 1024 + 1 * (x 0).val = (x 0).val; rw [e0]; omega
  | ⟨1, _⟩ => show win2_1.index t 1 * 2048 + 1 * (x 1).val = (x 1).val; rw [e1]; omega

/-- The first bias vector's one block is the whole vector. -/
theorem blinBlock_eq (c : Dev nD) (t : Fin cfg2.N) :
    (iblk2 V c 2 t : Vec Ideal S1024 .f32) = (V c main_arg7 : S1024.Idx → Elt Ideal .f32) := by
  obtain ⟨-, -, -, -, e0, -⟩ := index_facts t
  funext x
  unfold iblk2
  rw [View.read_apply]
  show V c main_arg7 _ = V c main_arg7 x
  congr 1
  funext a
  apply Fin.ext
  match a with
  | ⟨0, _⟩ => show win2_2.index t 0 * 1024 + 1 * (x 0).val = (x 0).val; rw [e0]; omega

/-- The gate's weight's one block is the whole array. -/
theorem wresBlock_eq (c : Dev nD) (t : Fin cfg2.N) :
    (iblk2 V c 3 t : Vec Ideal S1024x1024 .f32) = (V c main_arg8 : S1024x1024.Idx → Elt Ideal .f32) := by
  obtain ⟨-, -, -, -, -, e0, e1, -⟩ := index_facts t
  funext x
  unfold iblk2
  rw [View.read_apply]
  show V c main_arg8 _ = V c main_arg8 x
  congr 1
  funext a
  apply Fin.ext
  match a with
  | ⟨0, _⟩ => show win2_3.index t 0 * 1024 + 1 * (x 0).val = (x 0).val; rw [e0]; omega
  | ⟨1, _⟩ => show win2_3.index t 1 * 1024 + 1 * (x 1).val = (x 1).val; rw [e1]; omega

/-- The gate's bias vector's one block is the whole vector. -/
theorem bresBlock_eq (c : Dev nD) (t : Fin cfg2.N) :
    (iblk2 V c 4 t : Vec Ideal S1024 .f32) = (V c main_arg9 : S1024.Idx → Elt Ideal .f32) := by
  obtain ⟨-, -, -, -, -, -, -, e0, -⟩ := index_facts t
  funext x
  unfold iblk2
  rw [View.read_apply]
  show V c main_arg9 _ = V c main_arg9 x
  congr 1
  funext a
  apply Fin.ext
  match a with
  | ⟨0, _⟩ => show win2_4.index t 0 * 1024 + 1 * (x 0).val = (x 0).val; rw [e0]; omega

/-- The output projection's weight's one block is the whole array. -/
theorem woBlock_eq (c : Dev nD) (t : Fin cfg2.N) :
    (iblk2 V c 6 t : Vec Ideal S1024x1024 .f32) = (V c main_arg10 : S1024x1024.Idx → Elt Ideal .f32) := by
  obtain ⟨-, -, -, -, -, -, -, -, -, -, e0, e1, -⟩ := index_facts t
  funext x
  unfold iblk2
  rw [View.read_apply]
  show V c main_arg10 _ = V c main_arg10 x
  congr 1
  funext a
  apply Fin.ext
  match a with
  | ⟨0, _⟩ => show win2_6.index t 0 * 1024 + 1 * (x 0).val = (x 0).val; rw [e0]; omega
  | ⟨1, _⟩ => show win2_6.index t 1 * 1024 + 1 * (x 1).val = (x 1).val; rw [e1]; omega

/-- The output projection's bias vector's one block is the whole vector. -/
theorem boBlock_eq (c : Dev nD) (t : Fin cfg2.N) :
    (iblk2 V c 7 t : Vec Ideal S1024 .f32) = (V c main_arg11 : S1024.Idx → Elt Ideal .f32) := by
  obtain ⟨-, -, -, -, -, -, -, -, -, -, -, -, e0, -⟩ := index_facts t
  funext x
  unfold iblk2
  rw [View.read_apply]
  show V c main_arg11 _ = V c main_arg11 x
  congr 1
  funext a
  apply Fin.ext
  match a with
  | ⟨0, _⟩ => show win2_7.index t 0 * 1024 + 1 * (x 0).val = (x 0).val; rw [e0]; omega

variable (y0 : (⟨S2048x4096, .f32⟩ : BufTy).Contents (Elt Ideal)) (y1 : (⟨S2048x2048, .f32⟩ : BufTy).Contents (Elt Ideal))
  (y2 : (⟨S1024x4096, .f32⟩ : BufTy).Contents (Elt Ideal)) (y3 : (⟨S1024, .f32⟩ : BufTy).Contents (Elt Ideal))
  (y4 : (⟨S1024x4096, .f32⟩ : BufTy).Contents (Elt Ideal)) (y5 : (⟨S1024, .f32⟩ : BufTy).Contents (Elt Ideal))
  (y6 : (⟨S1024x2048, .f32⟩ : BufTy).Contents (Elt Ideal)) (y7 : (⟨S1024, .f32⟩ : BufTy).Contents (Elt Ideal))
  (y8 : (⟨S1024x1024, .f32⟩ : BufTy).Contents (Elt Ideal)) (y9 : (⟨S1024, .f32⟩ : BufTy).Contents (Elt Ideal))
  (y10 : (⟨S1024x1024, .f32⟩ : BufTy).Contents (Elt Ideal)) (y11 : (⟨S1024, .f32⟩ : BufTy).Contents (Elt Ideal))

/-- The payload of eight blocks at (p, q) is the reference's result at (r, q), when the two row blocks hold row r of
    their arrays at row p and the six others are the whole weights and bias vectors. -/
theorem pay_eq_ref_of_blocks (x0 : Vec Ideal S128x2048 .f32) (x1 : Vec Ideal S1024x2048 .f32) (x2 : Vec Ideal S1024 .f32)
    (x3 : Vec Ideal S1024x1024 .f32) (x4 : Vec Ideal S1024 .f32) (x5 : Vec Ideal S128x1024 .f32)
    (x6 : Vec Ideal S1024x1024 .f32) (x7 : Vec Ideal S1024 .f32) (r : Fin 2048) (p : Fin 128) (q : Fin 1024)
    (h0 : ∀ j : Fin 2048, x0 (ix2 p j) = y1 (ix2 r j)) (h1 : x1 = y6) (h2 : x2 = y7) (h3 : x3 = y8) (h4 : x4 = y9)
    (h5 : ∀ k : Fin 1024, x5 (ix2 p k) = val_main_v35 (F := Ideal) y0 y2 y3 y4 y5 (ix2 r k))
    (h6 : x6 = y10) (h7 : x7 = y11) :
    k2_pay1 x0 x1 x2 x3 x4 x5 x6 x7 (ix2 p q) = val_main_v58 (F := Ideal) y0 y1 y2 y3 y4 y5 y6 y7 y8 y9 y10 y11 (ix2 r q) := by
  subst h1 h2 h3 h4 h6 h7
  exact pay_eq_ref _ _ _ _ _ _ _ _ _ _ _ _ x0 x5 r p q h0 h5

/-- WHAT POINT t WRITES BACK is block t of the reference's result. -/
theorem flushed_eq (c : Dev nD)
    (ho : V c main_v5 = val_main_v35 (F := Ideal) y0 y2 y3 y4 y5) (h1 : V c main_arg1 = y1) (h6 : V c main_arg6 = y6)
    (h7 : V c main_arg7 = y7) (h8 : V c main_arg8 = y8) (h9 : V c main_arg9 = y9) (h10 : V c main_arg10 = y10)
    (h11 : V c main_arg11 = y11) (t : Fin cfg2.N) :
    (dat2 (F := Ideal) V c).flushed 8 t
      = ((cfg2.win 8).blk t).view.read (Elt Ideal) (val_main_v58 (F := Ideal) y0 y1 y2 y3 y4 y5 y6 y7 y8 y9 y10 y11) := by
  show (cfg2.win 8).cut (grid2.coords t) ((dat2 (F := Ideal) V c).after 8 t) = _
  rw [after2_8]
  unfold out2_8
  rw [View.canon_unit_zero zero_offsets2]
  simp only [View.ld_unit_zero (S := S128x2048) zero_offsets2, View.ld_unit_zero (S := S1024x2048) zero_offsets2,
    View.ld_unit_zero (S := S1024x1024) zero_offsets2, View.ld_unit_zero (S := S128x1024) zero_offsets2,
    View.ld_unit_zero (S := S1024) zero_offsets1]
  obtain ⟨-, -, -, -, -, -, -, -, -, -, -, -, -, e0, e1⟩ := index_facts t
  refine funext fun (j : S128x1024.Idx) => ?_
  obtain ⟨p, q, rfl⟩ : ∃ (p : Fin 128) (q : Fin 1024), j = ix2 p q := ⟨j 0, j 1, eq_ix2 j⟩
  have hN : cfg2.N = 16 := N_2
  have hr : 128 * t.val + p.val < 2048 := by have := t.isLt; have := p.isLt; omega
  show k2_pay1 (iblk2 V c 0 t) (iblk2 V c 1 t) (iblk2 V c 2 t) (iblk2 V c 3 t) (iblk2 V c 4 t) (iblk2 V c 5 t) (iblk2 V c 6 t) (iblk2 V c 7 t) (ix2 p q)
    = val_main_v58 (F := Ideal) y0 y1 y2 y3 y4 y5 y6 y7 y8 y9 y10 y11 (((cfg2.win 8).blk t).view.emb (ix2 p q))
  have hemb : ((cfg2.win 8).blk t).view.emb (ix2 p q) = ix2 (⟨128 * t.val + p.val, hr⟩ : Fin 2048) q := by
    funext a
    apply Fin.ext
    match a with
    | ⟨0, _⟩ => show win2_8.index t 0 * 128 + 1 * p.val = 128 * t.val + p.val; rw [e0]; omega
    | ⟨1, _⟩ => show win2_8.index t 1 * 1024 + 1 * q.val = q.val; rw [e1]; omega
  rw [hemb]
  refine pay_eq_ref_of_blocks y0 y1 y2 y3 y4 y5 y6 y7 y8 y9 y10 y11 (iblk2 V c 0 t) (iblk2 V c 1 t) (iblk2 V c 2 t) (iblk2 V c 3 t)
    (iblk2 V c 4 t) (iblk2 V c 5 t) (iblk2 V c 6 t) (iblk2 V c 7 t) ⟨128 * t.val + p.val, hr⟩ p q ?_ ?_ ?_ ?_ ?_ ?_ ?_ ?_
  · intro j; exact (biasBlock_apply V c t (ix2 p j) (ix2 ⟨128 * t.val + p.val, hr⟩ j) rfl rfl).trans (congrFun h1 _)
  · exact (wlinBlock_eq V c t).trans h6
  · exact (blinBlock_eq V c t).trans h7
  · exact (wresBlock_eq V c t).trans h8
  · exact (bresBlock_eq V c t).trans h9
  · intro k; exact (attnBlock_apply V c t (ix2 p k) (ix2 ⟨128 * t.val + p.val, hr⟩ k) rfl rfl).trans (congrFun ho _)
  · exact (woBlock_eq V c t).trans h10
  · exact (boBlock_eq V c t).trans h11

/-- An index of the result is in point t's block iff each coordinate is in the block's range on its axis. -/
theorem mem_rows (t : Fin cfg2.N) (i : S2048x1024.Idx) :
    i ∈ ((cfg2.win 8).blk t).view.set ↔ ∀ a : Fin 2, win2_8.index t a * S128x1024.size a ≤ (i a).val ∧ (i a).val < win2_8.index t a * S128x1024.size a + S128x1024.size a := by
  show i ∈ ((View.whole main_v6).slice (win2_8.rect t)).set ↔ _
  rw [View.set_slice_whole, Rect.mem_set_unit]
  exact Iff.rfl

/-- The sixteen row blocks cover the result: row i is in the block of point i / 128. -/
theorem rows_cover (i : S2048x1024.Idx) :
    ∃ t : Fin cfg2.N, (cfg2.win 8).flush t = true ∧ i ∈ ((cfg2.win 8).blk t).view.set := by
  have hi0 : (i 0).val < 2048 := idx2_lt0 i
  have hi1 : (i 1).val < 1024 := idx2_lt1 i
  have hN : cfg2.N = 16 := N_2
  have ht : (i 0).val / 128 < cfg2.N := by rw [hN]; omega
  obtain ⟨-, -, -, -, -, -, -, -, -, -, -, -, -, e0, e1⟩ := index_facts ⟨(i 0).val / 128, ht⟩
  refine ⟨⟨(i 0).val / 128, ht⟩, flush2_8 _, ?_⟩
  rw [mem_rows]
  intro a
  match a with
  | ⟨0, _⟩ =>
    show win2_8.index ⟨(i 0).val / 128, ht⟩ 0 * 128 ≤ (i 0).val ∧ (i 0).val < win2_8.index ⟨(i 0).val / 128, ht⟩ 0 * 128 + 128
    rw [e0]; show (i 0).val / 128 * 128 ≤ (i 0).val ∧ (i 0).val < (i 0).val / 128 * 128 + 128; omega
  | ⟨1, _⟩ =>
    show win2_8.index ⟨(i 0).val / 128, ht⟩ 1 * 1024 ≤ (i 1).val ∧ (i 1).val < win2_8.index ⟨(i 0).val / 128, ht⟩ 1 * 1024 + 1024
    rw [e1]; omega

/-- THE RESULT ARRAY after the region is the reference's final stage, when the region finds the attention output at
    the reference's attention stage and the seven arguments it reads at the reference's arguments. -/
theorem region2_out (c : Dev nD)
    (ho : V c main_v5 = val_main_v35 (F := Ideal) y0 y2 y3 y4 y5) (h1 : V c main_arg1 = y1) (h6 : V c main_arg6 = y6)
    (h7 : V c main_arg7 = y7) (h8 : V c main_arg8 = y8) (h9 : V c main_arg9 = y9) (h10 : V c main_arg10 = y10)
    (h11 : V c main_arg11 = y11) :
    (dat2 (F := Ideal) V c).arrAt 8 cfg2.N = val_main_v58 (F := Ideal) y0 y1 y2 y3 y4 y5 y6 y7 y8 y9 y10 y11 :=
  (dat2 (F := Ideal) V c).arrAt_eq_of_cover 8 (val_main_v58 (F := Ideal) y0 y1 y2 y3 y4 y5 y6 y7 y8 y9 y10 y11)
    (fun t _ => flushed_eq V y0 y1 y2 y3 y4 y5 y6 y7 y8 y9 y10 y11 c ho h1 h6 h7 h8 h9 h10 h11 t) rows_cover

end Blocks

end Cert.KernelIdeal.HandValue

end
-- ==== Proof.Run.lean ====
/-
  The run of the kernel program: its three pallas_calls and the host stretch between the first two, as the
  segments of @main. The buffer contents at each boundary are a fold from the launch memory: a region's arrays
  at what its pipeline's write-backs leave, the host stretch's results at its operations' values, every other
  buffer unchanged. From the launch with zero counters every weakly fair execution terminates, and every
  unscoped buffer ends at the last boundary's contents — so each argument ends as launched, and the result is
  what region 2's write-backs leave.
-/
import proofs.«404906_j953482739905_3_alg».proof.Proof.R0Frame
import proofs.«404906_j953482739905_3_alg».proof.Proof.R1Frame
import proofs.«404906_j953482739905_3_alg».proof.Proof.R2Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its windows' arrays at what the pipeline's write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same contents read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its windows' arrays at what the pipeline's write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same contents read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its windows' arrays at what the pipeline's write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same contents read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The host stretch leaves a buffer none of its four operations writes as it was. -/
theorem W2_keep (c : Dev nD) (b : Ref sig .tc) (h1 : b ≠ main_v1) (h2 : b ≠ main_v2) (h3 : b ≠ main_v3) (h4 : b ≠ main_v4) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2, StableHlo.devRef_ne_of_ne h3, StableHlo.devRef_ne_of_ne h4⟩))

/-! ## The proof data family and the thread state -/

/-- No pallas_call has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No operation of the host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W0`, left with them at `W1`.
    Its windows' arrays are split out of the unscoped buffers at entry and put back, at what the write-backs leave,
    at exit; the generator register passes into the region's invariant and out; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (V0 m ρ) c)
    show (_ : sProp 𝕄) ⊢ _
    unfold Pipeline.ΦA
    iintro ⟨Hp, -, Hr⟩
    isplitl [Hr]; · iexact Hr
    iexact Hp
  hout c := by
    refine BI.Entails.trans (hout0 (V0 m ρ) c) ?_
    show (_ : sProp 𝕄) ⊢ _
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`.
    Its windows' arrays are split out of the unscoped buffers at entry and put back, at what the write-backs leave,
    at exit; the generator register passes into the region's invariant and out; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`.
    Its windows' arrays are split out of the unscoped buffers at entry and put back, at what the write-backs leave,
    at exit; the generator register passes into the region's invariant and out; nothing is owed; the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.Kept.lean ====
/-
  Every argument array ends as launched. No host operation writes an argument, and a region either does not see it
  or reads it through an input window, whose array the pipeline leaves as it found it; so the fold of buffer contents
  through @main, read at an argument, walks back to the launch memory. With the run this is the frame claim:
  every weakly fair execution terminates, nothing faulting, the arguments unchanged.
-/
import proofs.«404906_j953482739905_3_alg».proof.Proof.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- `main_arg0` before region 2 is as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_keep m ρ c main_arg0 (by decide) (by decide) (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- `main_arg0` ends as launched. -/
theorem W4_main_arg0 (c : Dev nD) : W4 m ρ c (Proc.devRef .tc main_arg0) = m ((c : Thread nD τ).loc main_arg0) :=
  (W4_of_ne m ρ c main_arg0 (by decide)).trans (W3_main_arg0 m ρ c)

/-- `main_arg1` before region 2 is as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_keep m ρ c main_arg1 (by decide) (by decide) (by decide) (by decide)
    _ = W0 m ρ c (Proc.devRef .tc main_arg1) := W1_of_ne m ρ c main_arg1 (by decide)
    _ = m ((c : Thread nD τ).loc main_arg1) := rfl
/-- `main_arg1` ends as launched. -/
theorem W4_main_arg1 (c : Dev nD) : W4 m ρ c (Proc.devRef .tc main_arg1) = m ((c : Thread nD τ).loc main_arg1) :=
  ((W4_arr m ρ c 0).trans (((dat2 (V3 m ρ) c).arrAt_in 0 rfl _).trans (A_eq2 (V3 m ρ) c 0))).trans (W3_main_arg1 m ρ c)

/-- `main_arg2` before region 2 is as launched. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_keep m ρ c main_arg2 (by decide) (by decide) (by decide) (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
/-- `main_arg2` ends as launched. -/
theorem W4_main_arg2 (c : Dev nD) : W4 m ρ c (Proc.devRef .tc main_arg2) = m ((c : Thread nD τ).loc main_arg2) :=
  (W4_of_ne m ρ c main_arg2 (by decide)).trans (W3_main_arg2 m ρ c)

/-- `main_arg3` before region 2 is as launched. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_keep m ρ c main_arg3 (by decide) (by decide) (by decide) (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl
/-- `main_arg3` ends as launched. -/
theorem W4_main_arg3 (c : Dev nD) : W4 m ρ c (Proc.devRef .tc main_arg3) = m ((c : Thread nD τ).loc main_arg3) :=
  (W4_of_ne m ρ c main_arg3 (by decide)).trans (W3_main_arg3 m ρ c)

/-- `main_arg4` before region 2 is as launched. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_keep m ρ c main_arg4 (by decide) (by decide) (by decide) (by decide)
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl
/-- `main_arg4` ends as launched. -/
theorem W4_main_arg4 (c : Dev nD) : W4 m ρ c (Proc.devRef .tc main_arg4) = m ((c : Thread nD τ).loc main_arg4) :=
  (W4_of_ne m ρ c main_arg4 (by decide)).trans (W3_main_arg4 m ρ c)

/-- `main_arg5` before region 2 is as launched. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_keep m ρ c main_arg5 (by decide) (by decide) (by decide) (by decide)
    _ = W0 m ρ c (Proc.devRef .tc main_arg5) := (W1_arr m ρ c 4).trans (((dat0 (V0 m ρ) c).arrAt_in 4 rfl _).trans (A_eq0 (V0 m ρ) c 4))
    _ = m ((c : Thread nD τ).loc main_arg5) := rfl
/-- `main_arg5` ends as launched. -/
theorem W4_main_arg5 (c : Dev nD) : W4 m ρ c (Proc.devRef .tc main_arg5) = m ((c : Thread nD τ).loc main_arg5) :=
  (W4_of_ne m ρ c main_arg5 (by decide)).trans (W3_main_arg5 m ρ c)

/-- `main_arg6` before region 2 is as launched. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_keep m ρ c main_arg6 (by decide) (by decide) (by decide) (by decide)
    _ = W0 m ρ c (Proc.devRef .tc main_arg6) := W1_of_ne m ρ c main_arg6 (by decide)
    _ = m ((c : Thread nD τ).loc main_arg6) := rfl
/-- `main_arg6` ends as launched. -/
theorem W4_main_arg6 (c : Dev nD) : W4 m ρ c (Proc.devRef .tc main_arg6) = m ((c : Thread nD τ).loc main_arg6) :=
  ((W4_arr m ρ c 1).trans (((dat2 (V3 m ρ) c).arrAt_in 1 rfl _).trans (A_eq2 (V3 m ρ) c 1))).trans (W3_main_arg6 m ρ c)

/-- `main_arg7` before region 2 is as launched. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_keep m ρ c main_arg7 (by decide) (by decide) (by decide) (by decide)
    _ = W0 m ρ c (Proc.devRef .tc main_arg7) := W1_of_ne m ρ c main_arg7 (by decide)
    _ = m ((c : Thread nD τ).loc main_arg7) := rfl
/-- `main_arg7` ends as launched. -/
theorem W4_main_arg7 (c : Dev nD) : W4 m ρ c (Proc.devRef .tc main_arg7) = m ((c : Thread nD τ).loc main_arg7) :=
  ((W4_arr m ρ c 2).trans (((dat2 (V3 m ρ) c).arrAt_in 2 rfl _).trans (A_eq2 (V3 m ρ) c 2))).trans (W3_main_arg7 m ρ c)

/-- `main_arg8` before region 2 is as launched. -/
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_keep m ρ c main_arg8 (by decide) (by decide) (by decide) (by decide)
    _ = W0 m ρ c (Proc.devRef .tc main_arg8) := W1_of_ne m ρ c main_arg8 (by decide)
    _ = m ((c : Thread nD τ).loc main_arg8) := rfl
/-- `main_arg8` ends as launched. -/
theorem W4_main_arg8 (c : Dev nD) : W4 m ρ c (Proc.devRef .tc main_arg8) = m ((c : Thread nD τ).loc main_arg8) :=
  ((W4_arr m ρ c 3).trans (((dat2 (V3 m ρ) c).arrAt_in 3 rfl _).trans (A_eq2 (V3 m ρ) c 3))).trans (W3_main_arg8 m ρ c)

/-- `main_arg9` before region 2 is as launched. -/
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_keep m ρ c main_arg9 (by decide) (by decide) (by decide) (by decide)
    _ = W0 m ρ c (Proc.devRef .tc main_arg9) := W1_of_ne m ρ c main_arg9 (by decide)
    _ = m ((c : Thread nD τ).loc main_arg9) := rfl
/-- `main_arg9` ends as launched. -/
theorem W4_main_arg9 (c : Dev nD) : W4 m ρ c (Proc.devRef .tc main_arg9) = m ((c : Thread nD τ).loc main_arg9) :=
  ((W4_arr m ρ c 4).trans (((dat2 (V3 m ρ) c).arrAt_in 4 rfl _).trans (A_eq2 (V3 m ρ) c 4))).trans (W3_main_arg9 m ρ c)

/-- `main_arg10` before region 2 is as launched. -/
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_keep m ρ c main_arg10 (by decide) (by decide) (by decide) (by decide)
    _ = W0 m ρ c (Proc.devRef .tc main_arg10) := W1_of_ne m ρ c main_arg10 (by decide)
    _ = m ((c : Thread nD τ).loc main_arg10) := rfl
/-- `main_arg10` ends as launched. -/
theorem W4_main_arg10 (c : Dev nD) : W4 m ρ c (Proc.devRef .tc main_arg10) = m ((c : Thread nD τ).loc main_arg10) :=
  ((W4_arr m ρ c 6).trans (((dat2 (V3 m ρ) c).arrAt_in 6 rfl _).trans (A_eq2 (V3 m ρ) c 6))).trans (W3_main_arg10 m ρ c)

/-- `main_arg11` before region 2 is as launched. -/
theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := W2_keep m ρ c main_arg11 (by decide) (by decide) (by decide) (by decide)
    _ = W0 m ρ c (Proc.devRef .tc main_arg11) := W1_of_ne m ρ c main_arg11 (by decide)
    _ = m ((c : Thread nD τ).loc main_arg11) := rfl
/-- `main_arg11` ends as launched. -/
theorem W4_main_arg11 (c : Dev nD) : W4 m ρ c (Proc.devRef .tc main_arg11) = m ((c : Thread nD τ).loc main_arg11) :=
  ((W4_arr m ρ c 7).trans (((dat2 (V3 m ρ) c).arrAt_in 7 rfl _).trans (A_eq2 (V3 m ρ) c 7))).trans (W3_main_arg11 m ρ c)

/-- THE RUN with the result named: every weakly fair execution of @main from memory `m` with zero counters terminates,
    nothing faulting; the result array ends at what region 2's write-backs leave and every argument as launched. -/
theorem run_result : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v6 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩) (run_all m ρ)

/-- THE FRAME: the same run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.KernelIdeal.Hand

end
-- ==== Proof.HostStage.lean ====
/-
  What the host stretch between the first two pallas_calls computes: each transposed projection, a [1024, 2048]
  array, is re-read as [2048, 16, 64] (the same row-major sequence) and its first two axes are exchanged, giving the
  per-head arrays [16, 2048, 64] that the attention region reads.
-/
import proofs.«404906_j953482739905_3_alg».proof.Proof.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ) (ρ : Dev nD → PrngReg)

/-- The query heads the attention region reads: the first projection's array re-read and transposed. -/
theorem host_heads_q (c : Dev nD) :
    (W2 m ρ c (Proc.devRef .tc main_v2) : Vec F S16x2048x64 .f32)
      = transpose S16x2048x64 [1, 0, 2] (shapeCast S2048x16x64 (W1 m ρ c (Proc.devRef .tc main_v0_0) : Vec F S1024x2048 .f32) shapeCasts_S1024x2048_S2048x16x64) transposes_S2048x16x64_S16x2048x64_1_0_2 := by
  show StableHlo.after hostOps1 (W1 m ρ c) (Proc.devRef .tc main_v2) = _
  after_results
  rfl

/-- The value heads: the second projection's array re-read and transposed the same way. -/
theorem host_heads_v (c : Dev nD) :
    (W2 m ρ c (Proc.devRef .tc main_v4) : Vec F S16x2048x64 .f32)
      = transpose S16x2048x64 [1, 0, 2] (shapeCast S2048x16x64 (W1 m ρ c (Proc.devRef .tc main_v0_1) : Vec F S1024x2048 .f32) shapeCasts_S1024x2048_S2048x16x64) transposes_S2048x16x64_S16x2048x64_1_0_2 := by
  show StableHlo.after hostOps1 (W1 m ρ c) (Proc.devRef .tc main_v4) = _
  after_results
  rfl

end Cert.KernelIdeal.Hand

end
-- ==== Proof.Result.lean ====
/-
  The kernel program's result is the reference's last stage. Stage by stage the buffers the kernel program leaves
  are the reference's own intermediate arrays: the two projections emitted transposed (region 0), their per-head
  re-readings (the host stretch: the same two operations the reference applies), the attention output (region 1)
  and the final sum of the output projection and the gated residual (region 2).
-/
import proofs.«404906_j953482739905_3_alg».proof.Proof.R0Value
import proofs.«404906_j953482739905_3_alg».proof.Proof.R1Value
import proofs.«404906_j953482739905_3_alg».proof.Proof.R2Value
import proofs.«404906_j953482739905_3_alg».proof.Proof.Kept
import proofs.«404906_j953482739905_3_alg».proof.Proof.HostStage
import proofs.«404906_j953482739905_3_alg».proof.Proof.Gen.ReferenceIdeal.Read

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem

variable (m : (ℓ : Loc nD τ sig) → Buf (Elt Ideal) ℓ) (ρ : Dev nD → PrngReg)

/-- After region 0 the first result array is the reference's transposed query projection. -/
theorem stage_qT (c : Dev nD) : W1 m ρ c (Proc.devRef .tc main_v0_0) = Cert.ReferenceIdeal.Read.val_main_v10 (m ((c : Thread nD τ).loc main_arg0)) (m ((c : Thread nD τ).loc main_arg2)) (m ((c : Thread nD τ).loc main_arg3)) :=
  (W1_arr m ρ c 5).trans (region0_q (V0 m ρ) c)
/-- and the second the transposed key projection. -/
theorem stage_kT (c : Dev nD) : W1 m ρ c (Proc.devRef .tc main_v0_1) = Cert.ReferenceIdeal.Read.val_main_v15 (m ((c : Thread nD τ).loc main_arg0)) (m ((c : Thread nD τ).loc main_arg4)) (m ((c : Thread nD τ).loc main_arg5)) :=
  (W1_arr m ρ c 6).trans (region0_k (V0 m ρ) c)

/-- The query heads the attention region reads are the reference's (before its scaling). -/
theorem stage_qh (c : Dev nD) : V2 m ρ c main_v2 = Cert.ReferenceIdeal.Read.val_main_v12 (m ((c : Thread nD τ).loc main_arg0)) (m ((c : Thread nD τ).loc main_arg2)) (m ((c : Thread nD τ).loc main_arg3)) := by
  show W2 m ρ c (Proc.devRef .tc main_v2) = _
  rw [host_heads_q, stage_qT]
  rfl
/-- The value heads are the reference's; its key heads are the same array's other transposition. -/
theorem stage_vh (c : Dev nD) : V2 m ρ c main_v4 = Cert.ReferenceIdeal.Read.val_main_v20 (m ((c : Thread nD τ).loc main_arg0)) (m ((c : Thread nD τ).loc main_arg4)) (m ((c : Thread nD τ).loc main_arg5)) := by
  show W2 m ρ c (Proc.devRef .tc main_v4) = _
  rw [host_heads_v, stage_kT]
  rfl

/-- After region 1 the attention output is the reference's, heads merged into columns. -/
theorem stage_o (c : Dev nD) : V3 m ρ c main_v5 = Cert.ReferenceIdeal.Read.val_main_v35 (m ((c : Thread nD τ).loc main_arg0)) (m ((c : Thread nD τ).loc main_arg2)) (m ((c : Thread nD τ).loc main_arg3)) (m ((c : Thread nD τ).loc main_arg4)) (m ((c : Thread nD τ).loc main_arg5)) :=
  (W3_arr m ρ c 2).trans (region1_o (V2 m ρ) c _ _ _ _ _ (stage_qh m ρ c) (stage_vh m ρ c))

/-- THE RESULT: what region 2's write-backs leave in the result array is the reference's last stage of the launch's arguments. -/
theorem result_eq (c : Dev nD) : W4 m ρ c (Proc.devRef .tc main_v6)
    = Cert.ReferenceIdeal.Read.val_main_v58 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W4_arr m ρ c 8).trans (region2_out (V3 m ρ) _ _ _ _ _ _ _ _ _ _ _ _ c (stage_o m ρ c)
    (W3_main_arg1 m ρ c) (W3_main_arg6 m ρ c) (W3_main_arg7 m ρ c) (W3_main_arg8 m ρ c) (W3_main_arg9 m ρ c) (W3_main_arg10 m ρ c) (W3_main_arg11 m ρ c))

end Cert.KernelIdeal.HandValue

end
-- ==== Proof.lean ====
/-
  The certificate of the fused attention block: the kernel program (three pallas_calls — the query and key
  projections emitted transposed and accumulated over four blocks of the contraction axis, paired-head softmax
  attention, and the gated bias residual fused with the output projection) against the plain jnp reference.

  Frames. The kernel program, at the word level and idealized, runs as @main's four segments (Proof/Run.lean): each
  region's body is run symbolically per grid point (Proof/R0Frame.lean, R1Frame.lean, R2Frame.lean), the buffers
  between segments are a fold from the launch memory, and no segment changes an argument (Proof/Kept.lean). The
  reference is a straight line of host operations: its frame is its run with the result dropped.

  Values, at the ideal instance (floats are extended reals, operations exact, format changes the identity). Stage by
  stage the kernel program's buffers are the reference's own intermediate arrays (Proof/Result.lean):
  q^T[h, l] = (Σ_k X[l, k] · Wq[h, k]) + bq[h], the kernel summing the four blocks of k one after the other from zero
  and multiplying in the other order; the per-head re-readings are the same two host operations on both sides; in the
  attention the kernel scales the scores after the head-dimension sum, (Σ_d q_d · v_d) · 1/8, the reference before,
  Σ_d (q_d · 1/8) · v_d — equal on the extended reals because 1/8 is a finite nonnegative factor —, and then both
  take the same maximum, exponential, sum, quotient and second product; the kernel's one logistic operation is by
  definition the reference's 1 / (1 + exp(−x)); the last sum has the same grouping on both sides. The idealization
  rewrote nothing, so `preserves` is trivial, and the precondition (finite inputs) is never opened.
-/
import proofs.«404906_j953482739905_3_alg».proof.Defs
import proofs.«404906_j953482739905_3_alg».proof.Proof.Gen.Kernel
import proofs.«404906_j953482739905_3_alg».proof.Proof.Gen.KernelIdeal
import proofs.«404906_j953482739905_3_alg».proof.Proof.Gen.ReferenceIdeal
import proofs.«404906_j953482739905_3_alg».proof.Proof.Gen.Pre_finite_inputs
import proofs.«404906_j953482739905_3_alg».proof.Proof.KKept
import proofs.«404906_j953482739905_3_alg».proof.Proof.Result

set_option maxRecDepth 16384

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs run, and the kernel program's result array — what
    its last region's write-backs leave — is the reference's last stage of the same arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W4 m ρ c (Proc.devRef .tc Cert.KernelIdeal.main_v6), Cert.KernelIdeal.Hand.run_result m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v58_eq, h0, h1, h2, h3, h4, h5, h6, h7, h8, h9, h10, h11]
  exact (Cert.KernelIdeal.HandValue.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
